-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S50000x128 .f32) (main_arg1 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : IVec S1x800000 32 := (extractStridedSlice S1x800000 ![1, 0] · slices_S2x800000_S1x800000_1_0) main_arg1
  let main_v5 : IVec S800000 32 := shapeCast S800000 main_v4 shapeCasts_S1x800000_S800000
  let main_c_0 : IVec S_ 32 := constantI S_ 32 0#32
  let main_v6 : IVec S800000 32 := broadcastInDim S800000 ![] bcast_S_S800000 main_c_0
  let main_v7 : IVec S800000 1 := cmpi .sge main_v5 main_v6
  let main_v8 : IVec S1x800000 32 := (extractStridedSlice S1x800000 ![1, 0] · slices_S2x800000_S1x800000_1_0) main_arg1
  let main_v9 : IVec S800000 32 := shapeCast S800000 main_v8 shapeCasts_S1x800000_S800000
  let main_c_1 : IVec S_ 32 := constantI S_ 32 50000#32
  let main_v10 : IVec S800000 32 := broadcastInDim S800000 ![] bcast_S_S800000 main_c_1
  let main_v11 : IVec S800000 1 := cmpi .slt main_v9 main_v10
  let main_v12 : IVec S800000 1 := andi main_v7 main_v11
  let main_c_2 : IVec S_ 1 := constantI S_ 1 1#1
  let main_v13 : IVec S_ 1 := (fun x v => Host.reduce IntOp.andi x v reducesTo_S800000_S_d0 h_S_) main_v12 main_c_2
  let main_v14 : IVec S_ 1 := andi main_v3 main_v13
  main_v14
-- ==== Kernel.lean ====
abbrev S50000x128 : Shape := ⟨2, ![50000, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S51200x128 : Shape := ⟨2, ![51200, 128]⟩
abbrev S800768 : Shape := ⟨1, ![800768]⟩
abbrev S1x800768 : Shape := ⟨2, ![1, 800768]⟩
abbrev S800768x128 : Shape := ⟨2, ![800768, 128]⟩
abbrev S1x2048 : Shape := ⟨2, ![1, 2048]⟩
abbrev S2048x128 : Shape := ⟨2, ![2048, 128]⟩
abbrev S2048x1 : Shape := ⟨2, ![2048, 1]⟩
abbrev S2048x2048 : Shape := ⟨2, ![2048, 2048]⟩

abbrev nBuf : Space → Nat
  | .hbm => 21
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x800000, .i32⟩
  | .hbm, ⟨3, _⟩ => ⟨S800000, .i32⟩
  | .hbm, ⟨4, _⟩ => ⟨S1x800000, .i32⟩
  | .hbm, ⟨5, _⟩ => ⟨S800000, .i32⟩
  | .hbm, ⟨6, _⟩ => ⟨S50000x128, .bf16⟩
  | .hbm, ⟨7, _⟩ => ⟨S_, .i32⟩
  | .hbm, ⟨8, _⟩ => ⟨S_, .bf16⟩
  | .hbm, ⟨9, _⟩ => ⟨S51200x128, .bf16⟩
  | .hbm, ⟨10, _⟩ => ⟨S_, .i32⟩
  | .hbm, ⟨11, _⟩ => ⟨S_, .i32⟩
  | .hbm, ⟨12, _⟩ => ⟨S800768, .i32⟩
  | .hbm, ⟨13, _⟩ => ⟨S1x800768, .i32⟩
  | .hbm, ⟨14, _⟩ => ⟨S_, .i32⟩
  | .hbm, ⟨15, _⟩ => ⟨S_, .i32⟩
  | .hbm, ⟨16, _⟩ => ⟨S800768, .i32⟩
  | .hbm, ⟨17, _⟩ => ⟨S1x800768, .i32⟩
  | .hbm, ⟨18, _⟩ => ⟨S800768x128, .bf16⟩
  | .hbm, ⟨19, _⟩ => ⟨S51200x128, .f32⟩
  | .hbm, ⟨20, _⟩ => ⟨S50000x128, .f32⟩
  | .local _ .vmem, ⟨0, _⟩ => ⟨S1x2048, .i32⟩
  | .local _ .vmem, ⟨1, _⟩ => ⟨S1x2048, .i32⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S1x2048, .i32⟩
  | .local _ .vmem, ⟨8, _⟩ => ⟨S1x2048, .i32⟩
  | .local _ .vmem, ⟨9, _⟩ => ⟨S2048x128, .bf16⟩
  | .local _ .vmem, ⟨10, _⟩ => ⟨S2048x128, .bf16⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_call2_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![391, 25], ![false, false]⟩

def k0_cond2 (i : grid0.Coords) : BitVec 1 :=
  let arg1 : BitVec 32 := BitVec.ofNat 32 (i 1).val
  let c24_i32 : BitVec 32 := 24#32
  let v23 : BitVec 1 := Scalar.cmpi .eq arg1 c24_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![25, 391], ![false, false]⟩

def k1_cond2 (i : grid1.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  pads_S50000x128_S51200x128_012000_000 : S50000x128.Pads (![0, 0] : Fin 2 → Nat) ![1200, 0] ![0, 0] S51200x128
  h_S_ : 0 < S_.numel
  pads_S800000_S800768_07680 : S800000.Pads (![0] : Fin 1 → Nat) ![768] ![0] S800768
  shapeCasts_S800768_S1x800768 : S800768.ShapeCasts S1x800768
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S2048x1_d0_w32 : S2048x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S2048x1_S2048x2048 : S2048x1.Broadcasts S2048x2048
  broadcasts_S1x2048_S2048x2048 : S1x2048.Broadcasts S2048x2048
  natLt_1_32 : 1 < 32
  packedbf16_S2048x128_S2048x128_0_0 : (Rect.unit (s := S2048x128) ![0, 0] S2048x128.size inb_S2048x128_S2048x128_0_0).PackedRows (EltTy.packing .bf16)
  slices_S51200x128_S50000x128_0_0 : S51200x128.Slices ![0, 0] S50000x128
  dot_S2048x2048_S2048x128_S2048x128_0_0_1_1_n_n_wf : DotDims.WF S2048x2048 S2048x128 S2048x128 [0] [0] [1] [1] [] []
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x800768.size a
  hwx0_0 : ∀ i : grid0.Coords, EltTy.bits .i32 = 32 ∨ (Rect.block (s := S1x800768) S1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S51200x128.size a
  hwx0_1 : ∀ i : grid0.Coords, EltTy.bits .bf16 = 32 ∨ (Rect.block (s := S51200x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S800768x128.size a
  hwx0_2 : ∀ i : grid0.Coords, EltTy.bits .bf16 = 32 ∨ (Rect.block (s := S800768x128) S2048x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048.size a ≤ S1x800768.size a
  hwx1_0 : ∀ i : grid1.Coords, EltTy.bits .i32 = 32 ∨ (Rect.block (s := S1x800768) S1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S800768x128.size a
  hwx1_1 : ∀ i : grid1.Coords, EltTy.bits .bf16 = 32 ∨ (Rect.block (s := S800768x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S51200x128.size a
  hwx1_2 : ∀ i : grid1.Coords, EltTy.bits .f32 = 32 ∨ (Rect.block (s := S51200x128) S2048x128.size (cc1_transform_2 i) (hinb1_2 i)).WholeWords (EltTy.packing .f32)

variable [Facts₀]

def dot_S2048x2048_S2048x128_S2048x128_0_0_1_1_n_n : DotDims S2048x2048 S2048x128 S2048x128 where
  lhsContracting := [0]
  rhsContracting := [0]
  lhsNonContracting := [1]
  rhsNonContracting := [1]
  lhsBatch := []
  rhsBatch := []
  wf := dot_S2048x2048_S2048x128_S2048x128_0_0_1_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_v7) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩

abbrev nBuf : Space → Nat
  | .hbm => 19
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x800000, .i32⟩
  | .hbm, ⟨3, _⟩ => ⟨S800000, .i32⟩
  | .hbm, ⟨4, _⟩ => ⟨S_, .i32⟩
  | .hbm, ⟨5, _⟩ => ⟨S800000, .i32⟩
  | .hbm, ⟨6, _⟩ => ⟨S800000, .i1⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000x1, .i32⟩
  | .hbm, ⟨12, _⟩ => ⟨S800000x128, .f32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S50000x128, .f32⟩
  | .hbm, ⟨17, _⟩ => ⟨S800000x1, .i32⟩
  | .hbm, ⟨18, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_0_0 : S2x800000.Slices ![0, 0] S1x800000
  bcast_S_S50000x128 : S_.BroadcastsInDim S50000x128 (![] : Fin 0 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.K.R0Defs.lean ====
/- Region 0: what its case runs and its body obligation share. The windows' blocks as the region finds them; each
   input window's staging buffer holds its block at every point; the two branch conditions of the body in closed
   form over the grid (the first step of a reduction resets the accumulator, the last writes the output block);
   where the output window is idle; the staging and scratch memrefs; the class invariant with the accumulator's
   buffer taken out. -/
import proofs.«427728_j5978594476045_1_alg».proof.Proof.Gen.Kernel.Launch
import proofs.«427728_j5978594476045_1_alg».proof.Proof.Gen.Kernel.Skeleton
import proofs.«427728_j5978594476045_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The reset branch is taken: the reduction coordinate is 0. -/
abbrev cond0_0 (i : grid0.Coords) : Prop := (Scalar.cmpi .ne (Scalar.extui (Scalar.cmpi .eq (BitVec.ofNat 32 (i 1).val) 0#32)) 0#32) = 1#1
/-- It is taken at the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- The write-out branch is taken: the reduction coordinate is the last. -/
abbrev cond0_1 (i : grid0.Coords) : Prop := k0_cond2 i = 1#1
/-- It is taken at the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
/-- Where the write-out branch is not taken the output window is idle, -/
theorem idleAt0_2 : ∀ t : Fin cfg0.N, ¬cond0_1 (grid0.coords t) → cfg0.idle 2 (grid0.coords t) = true := by decide +kernel
/-- and the pipeline does not write its block back; -/
theorem noFlush0_2 : ∀ t : Fin cfg0.N, ¬cond0_1 (grid0.coords t) → (cfg0.win 2).flush t = false := by decide +kernel
/-- where it is taken the window is live. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1x2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0 : Memref sig .tc .vmem S2048x128 .f32 := Memref.whole cc0_scratch0

/-- The core's scoped buffers that are neither a staging buffer of this region nor its accumulator, each whole at
    some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the accumulator's buffer named: it, the other scoped buffers, the generator register. -/
theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA restS0; rw [scopedRest0_eq]; simp only [scM0, owns_whole]
  rfl

end Cert.Kernel.Hand

end
-- ==== Proof.K.R0RunA.lean ====
/- Region 0, control case A (the first step of a reduction: the reset branch taken, the write-out branch not): the
   kernel body run on whole memrefs. The accumulator is taken at any contents and handed back with the pieces its
   two stores wrote; the output window's staging buffer is handed back untouched. -/
import proofs.«427728_j5978594476045_1_alg».proof.Proof.K.R0Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case A. On whole memrefs, the two input windows at contents `x0`, `x1`, the output window's buffer at any
    contents `xi2` (handed back as it was), the accumulator at anything, the body runs to a continuation that
    holds the inputs and the output buffer as they were and the accumulator with the pieces `LS0` written, last
    first: the reset value, then the update of it. The pieces are what the run finds. -/
noncomputable def kernelRun0_A (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : cond0_0 i) (hc1 : ¬cond0_1 i)
    (x0 : Vec F S1x2048 .i32) (x1 : Vec F S2048x128 .bf16) :
    Σ' (L2 : List (View.Piece (Elt F) S2048x128 .bf16)), { LS0 : List (View.Piece (Elt F) S2048x128 .f32) //
      ∀ (xi2 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R0RunB.lean ====
/- Region 0, control case B (a middle step of a reduction: neither branch taken): the kernel body run on whole
   memrefs. The accumulator is taken at what the point before left and handed back with the piece its store wrote;
   the output window's staging buffer is handed back untouched. -/
import proofs.«427728_j5978594476045_1_alg».proof.Proof.K.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case B. On whole memrefs, the two input windows at contents `x0`, `x1`, the output window's buffer at any
    contents `xi2` (handed back as it was), the accumulator at `xs0`, the body runs to a continuation that holds
    the inputs and the output buffer as they were and the accumulator with the piece `LS0` written: the update of
    `xs0`. The pieces are what the run finds. -/
noncomputable def kernelRun0_B (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : ¬cond0_1 i)
    (x0 : Vec F S1x2048 .i32) (x1 : Vec F S2048x128 .bf16) (xs0 : Vec F S2048x128 .f32) :
    Σ' (L2 : List (View.Piece (Elt F) S2048x128 .bf16)), { LS0 : List (View.Piece (Elt F) S2048x128 .f32) //
      ∀ (xi2 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.R0RunC.lean ====
/- Region 0, control case C (the last step of a reduction: the write-out branch taken, the reset branch not): the
   kernel body run on whole memrefs. The accumulator is taken at what the point before left and handed back with the
   piece its store wrote; the output window's staging buffer is taken at anything and handed back with the piece the
   write-out stored. -/
import proofs.«427728_j5978594476045_1_alg».proof.Proof.K.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Case C. On whole memrefs, the two input windows at contents `x0`, `x1`, the output window's buffer at
    anything, the accumulator at `xs0`, the body runs to a continuation that holds the inputs as they were, the
    output buffer with the pieces `L2` written (the rounding of the updated accumulator) and the accumulator with
    the piece `LS0` written (the update of `xs0`). The pieces are what the run finds. -/
noncomputable def kernelRun0_C (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : cond0_1 i)
    (x0 : Vec F S1x2048 .i32) (x1 : Vec F S2048x128 .bf16) (xs0 : Vec F S2048x128 .f32) :
    Σ' (L2 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.R0.lean ====
/- Region 0 (the gather as a one-hot product, grid 391 x 25), the frame half. What each control case's pieces read
   back as, over the payloads; the scratch accumulator after each grid point; the pipeline's proof data; the body
   obligation at a generic point; and how the region's invariant meets the class invariant at its two ends. -/
import proofs.«427728_j5978594476045_1_alg».proof.Proof.K.R0RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case's pieces read back as -/

/-- The whole-block rectangle's offsets are zero. -/
theorem hz0 : (![0, 0] : Fin 2 → Nat) = fun _ => 0 := funext fun a => by fin_cases a <;> rfl

/-- Case A's pieces for the accumulator cover it. -/
theorem scover0_A (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : cond0_0 i) (hc1 : ¬cond0_1 i)
    (x0 : Vec F S1x2048 .i32) (x1 : Vec F S2048x128 .bf16) (y : S2048x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x128.size (by sl_kernel_rfl) y

/-- Case A leaves in the accumulator the step's product added to the reset value: the update's load of the
    accumulator comes after the reset store and reads what that store wrote. -/
theorem sout0_A (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : cond0_0 i) (hc1 : ¬cond0_1 i)
    (x0 : Vec F S1x2048 .i32) (x1 : Vec F S2048x128 .bf16)
    (v : View sig .tc .vmem S2048x128 .f32) (f : v.ty.Contents (Elt F)) :
    v.read (Elt F) (v.writes (Elt F) f (kernelRun0_A c i arg2 harg2 arg3 harg3 arg4 harg4 arg5 harg5 hc0 hc1 x0 x1).2.1)
      = k0_pay2 i x0 x1 (k0_pay1 (F := F)) := by
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S2048x128) hz0]
  simp only [View.readAt_eq_ld, harg2.read_unread, harg3.read_unread, harg5.read_unread, View.ld_unit_zero (S := S1x2048) hz0,
    View.ld_unit_zero (S := S2048x128) hz0, View.readCov_unit_zero (S := S2048x128) _ hz0]

/-- Case B's piece for the accumulator covers it. -/
theorem scover0_B (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : ¬cond0_1 i)
    (x0 : Vec F S1x2048 .i32) (x1 : Vec F S2048x128 .bf16) (xs0 : Vec F S2048x128 .f32) (y : S2048x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x128.size (by sl_kernel_rfl) y

/-- Case B leaves in the accumulator the step's product added to what it held. -/
theorem sout0_B (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : ¬cond0_1 i)
    (x0 : Vec F S1x2048 .i32) (x1 : Vec F S2048x128 .bf16) (xs0 : Vec F S2048x128 .f32)
    (v : View sig .tc .vmem S2048x128 .f32) (f : v.ty.Contents (Elt F)) :
    v.read (Elt F) (v.writes (Elt F) f (kernelRun0_B c i arg2 harg2 arg3 harg3 arg4 harg4 arg5 harg5 hc0 hc1 x0 x1 xs0).2.1)
      = k0_pay2 i x0 x1 xs0 := by
  rw [View.read_writes_eq_canon _ _ _ (scover0_B c i arg2 harg2 arg3 harg3 arg4 harg4 arg5 harg5 hc0 hc1 x0 x1 xs0)]
  unfold kernelRun0_B
  dsimp only
  sl_unfold_words
  rw [View.canon_unit_zero (S := S2048x128) hz0]
  simp only [View.readAt_eq_ld, harg2.read_unread, harg3.read_unread, harg5.read_unread, View.ld_unit_zero (S := S1x2048) hz0,
    View.ld_unit_zero (S := S2048x128) hz0, View.readCov_unit_zero (S := S2048x128) _ hz0]

/-- Case C's piece for the accumulator covers it. -/
theorem scover0_C (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : cond0_1 i)
    (x0 : Vec F S1x2048 .i32) (x1 : Vec F S2048x128 .bf16) (xs0 : Vec F S2048x128 .f32) (y : S2048x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x128.size (by sl_kernel_rfl) y

/-- Case C leaves in the accumulator the step's product added to what it held. -/
theorem sout0_C (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : cond0_1 i)
    (x0 : Vec F S1x2048 .i32) (x1 : Vec F S2048x128 .bf16) (xs0 : Vec F S2048x128 .f32)
    (v : View sig .tc .vmem S2048x128 .f32) (f : v.ty.Contents (Elt F)) :
    v.read (Elt F) (v.writes (Elt F) f (kernelRun0_C c i arg2 harg2 arg3 harg3 arg4 harg4 arg5 harg5 hc0 hc1 x0 x1 xs0).2.1)
      = k0_pay2 i x0 x1 xs0 := by
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero (S := S2048x128) hz0]
  simp only [View.readAt_eq_ld, harg2.read_unread, harg3.read_unread, harg5.read_unread, View.ld_unit_zero (S := S1x2048) hz0,
    View.ld_unit_zero (S := S2048x128) hz0, View.readCov_unit_zero (S := S2048x128) _ hz0]

/-- Case C's piece for the output window's staging buffer covers it. -/
theorem cover0_C (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : cond0_1 i)
    (x0 : Vec F S1x2048 .i32) (x1 : Vec F S2048x128 .bf16) (xs0 : Vec F S2048x128 .f32) (y : S2048x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2048x128.size (by sl_kernel_rfl) y

/-- Case C leaves in the output window's staging buffer the rounding of the updated accumulator: the write-out's
    load of the accumulator comes after the update's store and reads what that store wrote. -/
theorem out0_C (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : cond0_1 i)
    (x0 : Vec F S1x2048 .i32) (x1 : Vec F S2048x128 .bf16) (xs0 : Vec F S2048x128 .f32)
    (v : View sig .tc .vmem S2048x128 .bf16) (f : v.ty.Contents (Elt F)) :
    v.read (Elt F) (v.writes (Elt F) f (kernelRun0_C c i arg2 harg2 arg3 harg3 arg4 harg4 arg5 harg5 hc0 hc1 x0 x1 xs0).1)
      = k0_pay3 (k0_pay2 i x0 x1 xs0) := by
  rw [View.read_writes_eq_canon _ _ _ (cover0_C c i arg2 harg2 arg3 harg3 arg4 harg4 arg5 harg5 hc0 hc1 x0 x1 xs0)]
  unfold kernelRun0_C
  dsimp only
  sl_unfold_words
  rw [View.canon_unit_zero (S := S2048x128) hz0]
  simp only [View.readAt_eq_ld, harg2.read_unread, harg3.read_unread, harg5.read_unread, View.ld_unit_zero (S := S1x2048) hz0,
    View.ld_unit_zero (S := S2048x128) hz0, View.readCov_unit_zero (S := S2048x128) _ hz0]

-- the TensorCore's buffer contents when the region is entered
variable (V : (c : Dev nD) → (b : Ref sig .tc) → Buf (Elt F) ((c : Thread nD τ).loc b))

/-! ## The accumulator after each point -/

/-- The scratch accumulator after the body at point `n`: at the first step of a reduction (`n % 25 = 0`) the
    step's product added to the reset value, otherwise added to what the point before left. -/
def acc0 (c : Dev nD) : (n : ℕ) → n < cfg0.N → Vec F S2048x128 .f32
  | 0, hn => k0_pay2 (grid0.coords ⟨0, hn⟩) (iblk0 V c 0 ⟨0, hn⟩) (iblk0 V c 1 ⟨0, hn⟩) (k0_pay1 (F := F))
  | n + 1, hn =>
    if (n + 1) % 25 = 0 then k0_pay2 (grid0.coords ⟨n + 1, hn⟩) (iblk0 V c 0 ⟨n + 1, hn⟩) (iblk0 V c 1 ⟨n + 1, hn⟩) (k0_pay1 (F := F))
    else k0_pay2 (grid0.coords ⟨n + 1, hn⟩) (iblk0 V c 0 ⟨n + 1, hn⟩) (iblk0 V c 1 ⟨n + 1, hn⟩) (acc0 c n (Nat.lt_of_succ_lt hn))

theorem acc0_first (c : Dev nD) (t : Fin cfg0.N) (h : t.val % 25 = 0) :
    acc0 V c t.val t.isLt = k0_pay2 (grid0.coords t) (iblk0 V c 0 t) (iblk0 V c 1 t) (k0_pay1 (F := F)) := by
  obtain ⟨n, hn⟩ := t
  cases n with
  | zero => exact rfl
  | succ n => exact (if_pos h).trans rfl

theorem acc0_next (c : Dev nD) (t : Fin cfg0.N) (h : ¬ t.val % 25 = 0) :
    acc0 V c t.val t.isLt = k0_pay2 (grid0.coords t) (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region's invariant -/

/-- The region's invariant before position `n`: before the first point the class invariant (the accumulator at
    anything); afterwards the accumulator at what the point before left, the other scoped buffers at anything, the
    generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ restS0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ restS0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ restS0 c) ∗ (∃ r, prngReg c r)) := by
  cases n with
  | zero => exact absurd rfl hz
  | succ n => rfl

/-! ## The pipeline's proof data -/

/-- The proof data of pipeline 0 on core `c`: the arrays as the region finds them; after the body at point `t`
    each input window's buffer at its block and the output window's at the rounding of the accumulator; the
    invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem share0 (c : Dev nD) (w : Fin cfg0.W) : (dat0 V c).share w = fullShare :=
  (dat0 V c).share_full (fun _ => rfl) w
theorem owed0 (c : Dev nD) (t : Fin (cfg0.N + 1)) : (dat0 V c).owed t = 0 := rfl
theorem recorded0 (c : Dev nD) (t : Fin (cfg0.N + 1)) : (dat0 V c).recorded t = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
/-- What the output window's staging buffer is stated at, at every point. -/
theorem after0_2' (c : Dev nD) (t : Fin cfg0.N) : (dat0 V c).after 2 t = k0_pay3 (acc0 V c t.val t.isLt) := by dsimp only [dat0]
/-- What the body leaves in the output window's staging buffer at a point that writes it back. -/
theorem after0_2 (c : Dev nD) (t : Fin cfg0.N) (h : t.val % 25 = 24) :
    (dat0 V c).after 2 t = k0_pay3 (acc0 V c t.val t.isLt) := after0_2' V c t

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the closed forms of the branch conditions say
    which case the point is in; the invariant hands the body the accumulator (at anything before the first point, at
    what the point before left afterwards), the case's run applies, and the accumulator comes back at this point's
    contents by the case's piece lemma and the accumulator's recursion equation. Where the write-out branch is not
    taken the output window's buffer goes through untouched; where it is, it comes back at the rounding of the
    accumulator. The other scoped buffers and the generator register ride through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 9775 := lt_of_lt_of_eq t.isLt (show cfg0.N = 9775 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 25 = 0
  · have h1 : ¬ t.val % 25 = 24 := by omega
    rw [Dat.leavesExact_idle (dat0 V c) 2 t (idleAt0_2 t (fun h => h1 ((hcond0_1 t).mp h))) (noFlush0_2 t (fun h => h1 ((hcond0_1 t).mp h)))]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro
            exact (sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t) scM0.view es0).trans (acc0_first V c t h0).symm
          iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro
            exact (sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t) scM0.view es0).trans (acc0_first V c t h0).symm
          iexact Hr
        iexact Hg
      isplitl [Ho]; · iexact Ho
      isplitl [H0]; · iexact H0
      isplitl [H1]; · iexact H1
      iexists _; iexact H2
  · have hz : t.val ≠ 0 := fun hz => h0 (by rw [hz])
    by_cases h1 : t.val % 25 = 24
    · rw [show (dat0 V c).leavesExact 2 t = owns (c : Thread nD τ) (ms0_2 t) fullShare ((dat0 V c).after 2 t) from by
        unfold Dat.leavesExact; rw [liveAt0_2 t ((hcond0_1 t).mpr h1)], after0_2']
      rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (acc0 V c (t.val - 1) (Nat.lt_of_le_of_lt (Nat.sub_le _ _) t.isLt))).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro
            exact (sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (acc0 V c (t.val - 1) (Nat.lt_of_le_of_lt (Nat.sub_le _ _) t.isLt)) scM0.view es0).trans (acc0_next V c t h0).symm
          iexact Hr
        iexact Hg
      isplitl [Ho]; · iexact Ho
      isplitl [H0]; · iexact H0
      isplitl [H1]; · iexact H1
      unfold owns; iexists _; isplitr
      swap; · iexact H2
      ipureintro
      exact (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (acc0 V c (t.val - 1) (Nat.lt_of_le_of_lt (Nat.sub_le _ _) t.isLt)) (ms0_2 t).view e2).trans
        (congrArg k0_pay3 (acc0_next V c t h0).symm)
    · rw [Dat.leavesExact_idle (dat0 V c) 2 t (idleAt0_2 t (fun h => h1 ((hcond0_1 t).mp h))) (noFlush0_2 t (fun h => h1 ((hcond0_1 t).mp h)))]
      rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (acc0 V c (t.val - 1) (Nat.lt_of_le_of_lt (Nat.sub_le _ _) t.isLt))).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro
            exact (sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (acc0 V c (t.val - 1) (Nat.lt_of_le_of_lt (Nat.sub_le _ _) t.isLt)) scM0.view es0).trans (acc0_next V c t h0).symm
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class invariant back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 9775 := N_0; omega)

end Cert.Kernel.Hand

end
-- ==== Proof.K.R1Defs.lean ====
/- Region 1: what its case runs and its body obligation share. The windows' blocks as the region finds them; each
   input window's staging buffer holds its block at every point; the two branch conditions of the body in closed
   form over the grid (the first step of a reduction resets the accumulator, the last writes the output block);
   where the output window is idle; the staging and scratch memrefs; the class invariant with the accumulator's
   buffer taken out. -/
import proofs.«427728_j5978594476045_1_alg».proof.Proof.Gen.Kernel.Launch
import proofs.«427728_j5978594476045_1_alg».proof.Proof.Gen.Kernel.Skeleton
import proofs.«427728_j5978594476045_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The reset branch is taken: the reduction coordinate is 0. -/
abbrev cond1_0 (i : grid1.Coords) : Prop := (Scalar.cmpi .ne (Scalar.extui (Scalar.cmpi .eq (BitVec.ofNat 32 (i 1).val) 0#32)) 0#32) = 1#1
/-- It is taken at the points ≡ 0 (mod 391). -/
theorem hcond1_0 : ∀ t : Fin cfg1.N, cond1_0 (grid1.coords t) ↔ t.val % 391 = 0 :=
  (by decide +kernel : ∀ t : Fin grid1.N, cond1_0 (grid1.coords t) ↔ t.val % 391 = 0)

/-- The write-out branch is taken: the reduction coordinate is the last. -/
abbrev cond1_1 (i : grid1.Coords) : Prop := k1_cond2 i = 1#1
/-- It is taken at the points ≡ 390 (mod 391). -/
theorem hcond1_1 : ∀ t : Fin cfg1.N, cond1_1 (grid1.coords t) ↔ t.val % 391 = 390 :=
  (by decide +kernel : ∀ t : Fin grid1.N, cond1_1 (grid1.coords t) ↔ t.val % 391 = 390)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
/-- Where the write-out branch is not taken the output window is idle, -/
theorem idleAt1_2 : ∀ t : Fin cfg1.N, ¬cond1_1 (grid1.coords t) → cfg1.idle 2 (grid1.coords t) = true := by decide +kernel
/-- and the pipeline does not write its block back; -/
theorem noFlush1_2 : ∀ t : Fin cfg1.N, ¬cond1_1 (grid1.coords t) → (cfg1.win 2).flush t = false := by decide +kernel
/-- where it is taken the window is live. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S1x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1 : Memref sig .tc .vmem S2048x128 .f32 := Memref.whole cc1_scratch0

/-- The core's scoped buffers that are no staging buffer of this region, each whole at some contents, with the
    accumulator's place (the last of them) left open for `S`. -/
def ctxS1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ S)

/-- The class invariant with the accumulator's buffer named: the other scoped buffers, it, the generator register. -/
theorem PhiA1_eq (c : Dev nD) :
    (Pipeline.ΦA spec1 c : sProp 𝕄)
      = iprop(ctxS1 c (iprop(∃ d, owns (c : Thread nD τ) scM1 fullShare d)) ∗ (∃ r, prngReg c r)) := by
  unfold Pipeline.ΦA ctxS1; rw [scopedRest1_eq]; simp only [scM1, owns_whole]
  rfl

end Cert.Kernel.Hand

end
-- ==== Proof.K.R1RunA.lean ====
/- Region 1, the first step of a reduction (the reset branch taken, the write-out branch not): the kernel body's run
   on any whole memrefs, the pieces it leaves in the accumulator found by the run, and what those pieces read back
   as — the step's product added to the reset value. -/
import proofs.«427728_j5978594476045_1_alg».proof.Proof.K.R1Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run where the reset branch is taken and the write-out branch is not (the first step of a reduction):
    on whole memrefs — the two input windows' at their blocks, the output window's at contents handed back untouched,
    the accumulator's at anything — the body runs to the continuation holding the windows' buffers as they were and
    the accumulator with the run's pieces written (the reset store, then the update store over it). The pieces are
    the witness the run finds. -/
noncomputable def kernelRun1_A (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x2048 .i32) (x1 : Vec F S2048x128 .bf16) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

/-- The zero offsets of the whole-buffer rectangle, as the constant function. -/
private theorem hz1 : (![0, 0] : Fin 2 → Nat) = fun _ => 0 := funext fun a => by fin_cases a <;> rfl

/-- The pieces this run leaves in the accumulator cover it. -/
theorem scover1_A (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x2048 .i32) (x1 : Vec F S2048x128 .bf16) (y : S2048x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x128.size (by sl_kernel_rfl) y

/-- What this run leaves in the accumulator, read back through any view of its shape over any earlier contents: the
    step's product added to the reset value — the update's load of the accumulator reads what the reset store left. -/
theorem sread1_A (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x2048 .i32) (x1 : Vec F S2048x128 .bf16)
    (v : View sig .tc .vmem S2048x128 .f32) (f : v.ty.Contents (Elt F)) :
    v.read (Elt F) (v.writes (Elt F) f (kernelRun1_A c i arg2 harg2 arg3 harg3 arg4 harg4 arg5 harg5 hc0 hc1 x0 x1).2.1)
      = k1_pay2 i x0 (k1_pay1 (F := F)) x1 := by
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S2048x128) hz1, View.readCov_unit_zero (S := S2048x128) _ hz1]
  simp only [View.readAt_eq_ld, harg2.read_unread, harg3.read_unread, View.ld_unit_zero (S := S1x2048) hz1, View.ld_unit_zero (S := S2048x128) hz1]

end Cert.Kernel.Hand

end
-- ==== Proof.K.R1RunB.lean ====
/- Region 1, an inner step of a reduction (neither branch taken): the kernel body's run on any whole memrefs, the
   piece it leaves in the accumulator found by the run, and what that piece reads back as — the step's product
   added to what the point before left. -/
import proofs.«427728_j5978594476045_1_alg».proof.Proof.K.R1Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run where neither branch is taken (an inner step of a reduction): on whole memrefs — the two input
    windows' at their blocks, the output window's at contents handed back untouched, the accumulator's at what the
    point before left (`xs0`) — the body runs to the continuation holding the windows' buffers as they were and the
    accumulator with the run's one piece written (the update store). The piece is the witness the run finds. -/
noncomputable def kernelRun1_B (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x2048 .i32) (x1 : Vec F S2048x128 .bf16) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

/-- The zero offsets of the whole-buffer rectangle, as the constant function. -/
private theorem hz1 : (![0, 0] : Fin 2 → Nat) = fun _ => 0 := funext fun a => by fin_cases a <;> rfl

/-- The piece this run leaves in the accumulator covers it. -/
theorem scover1_B (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x2048 .i32) (x1 : Vec F S2048x128 .bf16) (xs0 : Vec F S2048x128 .f32) (y : S2048x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x128.size (by sl_kernel_rfl) y

/-- What this run leaves in the accumulator, read back through any view of its shape over any earlier contents: the
    step's product added to what the point before left. -/
theorem sread1_B (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x2048 .i32) (x1 : Vec F S2048x128 .bf16) (xs0 : Vec F S2048x128 .f32)
    (v : View sig .tc .vmem S2048x128 .f32) (f : v.ty.Contents (Elt F)) :
    v.read (Elt F) (v.writes (Elt F) f (kernelRun1_B c i arg2 harg2 arg3 harg3 arg4 harg4 arg5 harg5 hc0 hc1 x0 x1 xs0).2.1)
      = k1_pay2 i x0 xs0 x1 := by
  rw [View.read_writes_eq_canon _ _ _ (scover1_B c i arg2 harg2 arg3 harg3 arg4 harg4 arg5 harg5 hc0 hc1 x0 x1 xs0)]
  unfold kernelRun1_B
  dsimp only
  sl_unfold_words
  rw [View.canon_unit_zero (S := S2048x128) hz1]
  simp only [View.readAt_eq_ld, harg2.read_unread, harg3.read_unread, harg5.read_unread, View.ld_unit_zero (S := S1x2048) hz1, View.ld_unit_zero (S := S2048x128) hz1]

end Cert.Kernel.Hand

end
-- ==== Proof.K.R1RunC.lean ====
/- Region 1, the last step of a reduction (the write-out branch taken, the reset branch not): the kernel body's run
   on any whole memrefs, the pieces it leaves in the accumulator and in the output window's buffer found by the run,
   and what they read back as — both the step's product added to what the point before left. -/
import proofs.«427728_j5978594476045_1_alg».proof.Proof.K.R1Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's run where the write-out branch is taken and the reset branch is not (the last step of a reduction):
    on whole memrefs — the two input windows' at their blocks, the output window's at anything, the accumulator's at
    what the point before left (`xs0`) — the body runs to the continuation holding the input windows' buffers as they
    were, the accumulator with the update store's piece written, and the output window's buffer with the write-out
    store's piece written. The pieces are the witness the run finds. -/
noncomputable def kernelRun1_C (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x2048 .i32) (x1 : Vec F S2048x128 .bf16) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-- The zero offsets of the whole-buffer rectangle, as the constant function. -/
private theorem hz1 : (![0, 0] : Fin 2 → Nat) = fun _ => 0 := funext fun a => by fin_cases a <;> rfl

/-- The piece this run leaves in the output window's buffer covers it. -/
theorem cover1_C (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x2048 .i32) (x1 : Vec F S2048x128 .bf16) (xs0 : Vec F S2048x128 .f32) (y : S2048x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x128.size (by sl_kernel_rfl) y

/-- The piece this run leaves in the accumulator covers it. -/
theorem scover1_C (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x2048 .i32) (x1 : Vec F S2048x128 .bf16) (xs0 : Vec F S2048x128 .f32) (y : S2048x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x128.size (by sl_kernel_rfl) y

/-- What this run leaves in the accumulator, read back through any view of its shape over any earlier contents: the
    step's product added to what the point before left. -/
theorem sread1_C (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x2048 .i32) (x1 : Vec F S2048x128 .bf16) (xs0 : Vec F S2048x128 .f32)
    (v : View sig .tc .vmem S2048x128 .f32) (f : v.ty.Contents (Elt F)) :
    v.read (Elt F) (v.writes (Elt F) f (kernelRun1_C c i arg2 harg2 arg3 harg3 arg4 harg4 arg5 harg5 hc0 hc1 x0 x1 xs0).2.1)
      = k1_pay2 i x0 xs0 x1 := by
  rw [View.read_writes_eq_canon _ _ _ (scover1_C c i arg2 harg2 arg3 harg3 arg4 harg4 arg5 harg5 hc0 hc1 x0 x1 xs0)]
  unfold kernelRun1_C
  dsimp only
  sl_unfold_words
  rw [View.canon_unit_zero (S := S2048x128) hz1]
  simp only [View.readAt_eq_ld, harg2.read_unread, harg3.read_unread, harg5.read_unread, View.ld_unit_zero (S := S1x2048) hz1, View.ld_unit_zero (S := S2048x128) hz1]

/-- What this run leaves in the output window's buffer, read back the same way: the accumulator as just updated — the
    write-out stores the accumulator as loaded after the update store. -/
theorem oread1_C (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x2048 .i32) (x1 : Vec F S2048x128 .bf16) (xs0 : Vec F S2048x128 .f32)
    (v : View sig .tc .vmem S2048x128 .f32) (f : v.ty.Contents (Elt F)) :
    v.read (Elt F) (v.writes (Elt F) f (kernelRun1_C c i arg2 harg2 arg3 harg3 arg4 harg4 arg5 harg5 hc0 hc1 x0 x1 xs0).1)
      = k1_pay2 i x0 xs0 x1 := by
  rw [View.read_writes_eq_canon _ _ _ (cover1_C c i arg2 harg2 arg3 harg3 arg4 harg4 arg5 harg5 hc0 hc1 x0 x1 xs0)]
  unfold kernelRun1_C
  dsimp only
  sl_unfold_words
  rw [View.canon_unit_zero (S := S2048x128) hz1]
  simp only [View.readCov_unit_zero (S := S2048x128) _ hz1, View.readAt_eq_ld, harg2.read_unread, harg3.read_unread, harg5.read_unread, View.ld_unit_zero (S := S1x2048) hz1, View.ld_unit_zero (S := S2048x128) hz1]

end Cert.Kernel.Hand

end
-- ==== Proof.K.R1.lean ====
/- Region 1 (the scatter-add as a one-hot product, grid 25 x 391): the scratch accumulator after each grid point, as
   the payloads say it (at the first step of a reduction the step's product added to the reset value, otherwise added
   to what the point before left); the pipeline's proof data over it; the body obligation, by the three runs (first,
   inner and last step of a reduction) and what their pieces read back as; and how the region's invariant meets the
   class invariant at its two ends. Generic in the float instance. -/
import proofs.«427728_j5978594476045_1_alg».proof.Proof.K.R1RunA
import proofs.«427728_j5978594476045_1_alg».proof.Proof.K.R1RunB
import proofs.«427728_j5978594476045_1_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The scratch accumulator after the body at point `n`: at the first step of a reduction (`n % 391 = 0`) the
    step's product added to the reset value, otherwise added to what the point before left. -/
def acc1 (c : Dev nD) : (n : ℕ) → n < cfg1.N → Vec F S2048x128 .f32
  | 0, hn => k1_pay2 (grid1.coords ⟨0, hn⟩) (iblk1 V c 0 ⟨0, hn⟩) (k1_pay1 (F := F)) (iblk1 V c 1 ⟨0, hn⟩)
  | n + 1, hn =>
    if (n + 1) % 391 = 0 then k1_pay2 (grid1.coords ⟨n + 1, hn⟩) (iblk1 V c 0 ⟨n + 1, hn⟩) (k1_pay1 (F := F)) (iblk1 V c 1 ⟨n + 1, hn⟩)
    else k1_pay2 (grid1.coords ⟨n + 1, hn⟩) (iblk1 V c 0 ⟨n + 1, hn⟩) (acc1 c n (Nat.lt_of_succ_lt hn)) (iblk1 V c 1 ⟨n + 1, hn⟩)

/-- At the first step of a reduction the accumulator is the step's product added to the reset value. -/
theorem acc1_first (c : Dev nD) (t : Fin cfg1.N) (h : t.val % 391 = 0) :
    acc1 V c t.val t.isLt = k1_pay2 (grid1.coords t) (iblk1 V c 0 t) (k1_pay1 (F := F)) (iblk1 V c 1 t) := by
  obtain ⟨n, hn⟩ := t
  cases n with
  | zero => rfl
  | succ n => exact (if_pos h).trans rfl

/-- At any other step it is the step's product added to what the point before left. -/
theorem acc1_next (c : Dev nD) (t : Fin cfg1.N) (h : ¬ t.val % 391 = 0) :
    acc1 V c t.val t.isLt = k1_pay2 (grid1.coords t) (iblk1 V c 0 t)
      (acc1 V c (t.val - 1) (Nat.lt_of_le_of_lt (Nat.sub_le _ _) t.isLt)) (iblk1 V c 1 t) := by
  obtain ⟨n, hn⟩ := t
  cases n with
  | zero => (try dsimp only at h); exact absurd (Nat.zero_mod _) h
  | succ n => exact (if_neg h).trans rfl

/-- The region's invariant before position `n`: before the first point the class invariant (the accumulator at
    anything); afterwards the core's other scoped buffers at anything, the accumulator at what the point before
    left, and the generator register at some state. -/
def PhiS1 (c : Dev nD) : (n : ℕ) → n ≤ cfg1.N → sProp 𝕄
  | 0, _ => Pipeline.ΦA spec1 c
  | n + 1, hn => iprop(ctxS1 c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(ctxS1 c (owns (c : Thread nD τ) scM1 fullShare (acc1 V c n hn)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(ctxS1 c (owns (c : Thread nD τ) scM1 fullShare (acc1 V c (n - 1) (by omega))) ∗ (∃ r, prngReg c r)) := by
  cases n with
  | zero => exact absurd rfl hz
  | succ n => rfl

/-! ## The pipeline's proof data -/

/-- The proof data of pipeline 1 on core `c`: the arrays as the region finds them; after the body at point `t` each
    input window's buffer at its block and the output window's at the accumulator's contents (consulted only at the
    points that write it back: elsewhere the window is idle); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem share1 (c : Dev nD) (w : Fin cfg1.W) : (dat1 V c).share w = fullShare :=
  (dat1 V c).share_full (fun _ => rfl) w

theorem owed1 (c : Dev nD) (t : Fin (cfg1.N + 1)) : (dat1 V c).owed t = 0 := rfl

theorem recorded1 (c : Dev nD) (t : Fin (cfg1.N + 1)) : (dat1 V c).recorded t = Set.univ := rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2_any (c : Dev nD) (t : Fin cfg1.N) : (dat1 V c).after 2 t = acc1 V c t.val t.isLt := by dsimp only [dat1]

/-- What the body leaves in the output window's staging buffer at a point that writes it back. -/
theorem after1_2 (c : Dev nD) (t : Fin cfg1.N) (h : t.val % 391 = 390) :
    (dat1 V c).after 2 t = acc1 V c t.val t.isLt := after1_2_any V c t

/-- Each input window's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input windows' buffers hold their blocks; the closed forms of the two conditions say
    which step of a reduction the point is, so that step's run applies; the invariant hands the body the accumulator
    at what the point before left (at anything at the first point), the core's other scoped buffers and the generator
    register, which ride through untouched, and takes the accumulator back at this point's contents, the run's
    pieces read back; where the write-out branch is not taken the output window's buffer is handed back as found,
    where it is taken it holds the accumulator as just updated; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 9775 := lt_of_lt_of_eq t.isLt (show cfg1.N = 9775 from N_1)
  by_cases h1 : t.val % 391 = 390
  · -- the last step of a reduction
    have h0 : ¬ t.val % 391 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2_any]
    rw [acc1_next V c t h0]
    rw [PhiS1_castSucc V c t, PhiS1_pos V c _ _ hz]
    unfold ctxS1
    iintro ⟨⟨⟨Hc0, Hc1, Hc2, Hc3, Hc4, Hc5, Hc6, HS0⟩, Hg⟩, Ho, ⟨%d0, H0⟩, ⟨%d1, H1⟩, ⟨%d2, H2⟩⟩
    iapply ((kernelRun1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (acc1 V c (t.val - 1) (Nat.lt_of_le_of_lt (Nat.sub_le _ _) t.isLt))).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [Hc0 Hc1 Hc2 Hc3 Hc4 Hc5 Hc6 HS0 Hg]
    · isplitl [Hc0 Hc1 Hc2 Hc3 Hc4 Hc5 Hc6 HS0]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        unfold owns; iexists _; isplitr
        swap; · iexact HS0
        ipureintro; exact sread1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (acc1 V c (t.val - 1) (Nat.lt_of_le_of_lt (Nat.sub_le _ _) t.isLt)) _ _
      iexact Hg
    isplitl [Ho]; · iexact Ho
    isplitl [H0]; · iexact H0
    isplitl [H1]; · iexact H1
    unfold owns; iexists _; isplitr
    swap; · iexact H2
    ipureintro; exact oread1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (acc1 V c (t.val - 1) (Nat.lt_of_le_of_lt (Nat.sub_le _ _) t.isLt)) _ _
  · rw [Dat.leavesExact_idle (dat1 V c) 2 t (idleAt1_2 t (fun h => h1 ((hcond1_1 t).mp h))) (noFlush1_2 t (fun h => h1 ((hcond1_1 t).mp h)))]
    by_cases h0 : t.val % 391 = 0
    · -- the first step of a reduction
      rw [acc1_first V c t h0]
      by_cases hz : t.val = 0
      · rw [PhiS1_castSucc V c t, PhiS1_zero V c _ _ hz, PhiA1_eq]
        unfold ctxS1
        iintro ⟨⟨⟨Hc0, Hc1, Hc2, Hc3, Hc4, Hc5, Hc6, HS0⟩, Hg⟩, Ho, ⟨%d0, H0⟩, ⟨%d1, H1⟩, ⟨%d2, H2⟩⟩
        iapply ((kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Hc0 Hc1 Hc2 Hc3 Hc4 Hc5 Hc6 HS0 Hg]
        · isplitl [Hc0 Hc1 Hc2 Hc3 Hc4 Hc5 Hc6 HS0]
          · isplitl [Hc0]; · iexact Hc0
            isplitl [Hc1]; · iexact Hc1
            isplitl [Hc2]; · iexact Hc2
            isplitl [Hc3]; · iexact Hc3
            isplitl [Hc4]; · iexact Hc4
            isplitl [Hc5]; · iexact Hc5
            isplitl [Hc6]; · iexact Hc6
            unfold owns; iexists _; isplitr
            swap; · iexact HS0
            ipureintro; exact sread1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t) _ _
          iexact Hg
        isplitl [Ho]; · iexact Ho
        isplitl [H0]; · iexact H0
        isplitl [H1]; · iexact H1
        iexists _; iexact H2
      · rw [PhiS1_castSucc V c t, PhiS1_pos V c _ _ hz]
        unfold ctxS1
        iintro ⟨⟨⟨Hc0, Hc1, Hc2, Hc3, Hc4, Hc5, Hc6, HS0⟩, Hg⟩, Ho, ⟨%d0, H0⟩, ⟨%d1, H1⟩, ⟨%d2, H2⟩⟩
        iapply ((kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Hc0 Hc1 Hc2 Hc3 Hc4 Hc5 Hc6 HS0 Hg]
        · isplitl [Hc0 Hc1 Hc2 Hc3 Hc4 Hc5 Hc6 HS0]
          · isplitl [Hc0]; · iexact Hc0
            isplitl [Hc1]; · iexact Hc1
            isplitl [Hc2]; · iexact Hc2
            isplitl [Hc3]; · iexact Hc3
            isplitl [Hc4]; · iexact Hc4
            isplitl [Hc5]; · iexact Hc5
            isplitl [Hc6]; · iexact Hc6
            unfold owns; iexists _; isplitr
            swap; · iexact HS0
            ipureintro; exact sread1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t) _ _
          iexact Hg
        isplitl [Ho]; · iexact Ho
        isplitl [H0]; · iexact H0
        isplitl [H1]; · iexact H1
        iexists _; iexact H2
    · -- an inner step of a reduction
      have hz : t.val ≠ 0 := by omega
      rw [acc1_next V c t h0]
      rw [PhiS1_castSucc V c t, PhiS1_pos V c _ _ hz]
      unfold ctxS1
      iintro ⟨⟨⟨Hc0, Hc1, Hc2, Hc3, Hc4, Hc5, Hc6, HS0⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (acc1 V c (t.val - 1) (Nat.lt_of_le_of_lt (Nat.sub_le _ _) t.isLt))).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hc0 Hc1 Hc2 Hc3 Hc4 Hc5 Hc6 HS0 Hg]
      · isplitl [Hc0 Hc1 Hc2 Hc3 Hc4 Hc5 Hc6 HS0]
        · isplitl [Hc0]; · iexact Hc0
          isplitl [Hc1]; · iexact Hc1
          isplitl [Hc2]; · iexact Hc2
          isplitl [Hc3]; · iexact Hc3
          isplitl [Hc4]; · iexact Hc4
          isplitl [Hc5]; · iexact Hc5
          isplitl [Hc6]; · iexact Hc6
          unfold owns; iexists _; isplitr
          swap; · iexact HS0
          ipureintro; exact sread1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (acc1 V c (t.val - 1) (Nat.lt_of_le_of_lt (Nat.sub_le _ _) t.isLt)) _ _
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold ctxS1
  iintro ⟨⟨Hc0, Hc1, Hc2, Hc3, Hc4, Hc5, Hc6, HS0⟩, Hg⟩
  isplitl [Hc0 Hc1 Hc2 Hc3 Hc4 Hc5 Hc6 HS0]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 9775 := N_1; omega)

end Cert.Kernel.Hand

end
-- ==== Proof.K.RunCond.lean ====
/- The program's run from one segment record per kernel region, with the result buffer read at the end: @main as the
   list of its host stretches and its two regions, composed by the several-regions launch; each argument array ends as
   launched (no stretch writes it, no region may change it) and the result buffer ends at the last valuation's
   contents. -/
import proofs.«427728_j5978594476045_1_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE CONDITIONAL RUN WITH ITS RESULT. As the conditional frame, and besides: every final memory holds the result
    buffer at what the last valuation says — the slice of what region 1 leaves — so that a value claim can be read
    off the same run. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c)) :
    θ_run defs (onTc (τ := τ) (main (F := F))) ⟨m, fun _ => 0, ρ⟩ (fun r => ∀ c : Dev nD,
      r.2.mem ((c.tc : Thread nD τ).loc main_v12) = V10 m outs c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, .rfl, .rfl, .rfl, .rfl, hpre0 c, (hpost0 c).trans (hpre1 c), hpost1 c, sep_mono .rfl (hE2 c)⟩)
    (hinit := ?_) (QY := fun c s => s.mem ((c.tc : Thread nD τ).loc main_v12) = V10 m outs c main_v12 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v12) (Finset.mem_filter.mpr ⟨StableHlo.devRef_mem_tcRefs main_v12, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c)⟩
    · iexact HSI

end Cert.Kernel.Hand

end
-- ==== Proof.K.Run.lean ====
/- The program's run: the proof data of both regions at their entry contents, each region as a segment of @main
   (its arrays split out of the unscoped buffers at entry and put back at exit, the accumulator's tracked invariant
   met at both ends by the class invariant, nothing owed), and the launch. What region 0 leaves in the message array
   and what region 1 leaves in the padded aggregate are the pipeline's write-backs folded (`Dat.arrAt`); the result
   buffer ends at the slice of the latter and the argument arrays end as launched. -/
import proofs.«427728_j5978594476045_1_alg».proof.Proof.K.R0
import proofs.«427728_j5978594476045_1_alg».proof.Proof.K.R1
import proofs.«427728_j5978594476045_1_alg».proof.Proof.K.RunCond
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions are entered with and leave -/

/-- Region 0's entry contents: the launch memory after the host stretches before it. -/
abbrev E0 : (c : Dev nD) → (b : Ref sig .tc) → Buf (Elt F) ((c : Thread nD τ).loc b) := fun c b => V7 m c b

/-- What region 0 leaves in the message array: its write-backs folded over the entry contents. -/
def o8 (c : Dev nD) : Buf (Elt F) ((c : Thread nD τ).loc main_v10) := (dat0 (E0 m) c).arrAt 2 cfg0.N

/-- Region 1's entry contents: region 0's, with the message array at what region 0 left. -/
abbrev W8 (c : Dev nD) : Valuation τ sig (Elt F) := Function.update (V7 m c) main_v10 (o8 m c)
abbrev E1 : (c : Dev nD) → (b : Ref sig .tc) → Buf (Elt F) ((c : Thread nD τ).loc b) := fun c b => W8 m c b

/-- What region 1 leaves in the padded aggregate. -/
def o9 (c : Dev nD) : Buf (Elt F) ((c : Thread nD τ).loc main_v11) := (dat1 (E1 m) c).arrAt 2 cfg1.N

/-- The two arrays the regions change, as the unknowns of the generated valuations: the message array after region 0,
    the padded aggregate after region 1; any other reference at its launch contents (never read). -/
def outs : Outs (F := F) := fun _ r c =>
  if h10 : r = main_v10 then h10 ▸ o8 m c
  else if h11 : r = main_v11 then h11 ▸ o9 m c
  else m ((c : Thread nD τ).loc r)

theorem outs_v10 (n : ℕ) (c : Dev nD) : outs m n main_v10 c = o8 m c := by
  unfold outs; rw [dif_pos rfl]
theorem outs_v11 (n : ℕ) (c : Dev nD) : outs m n main_v11 c = o9 m c := by
  unfold outs; rw [dif_neg (by decide), dif_pos rfl]

theorem V8_eq (c : Dev nD) : V8 m (outs m) c = W8 m c := by
  unfold V8 W8; rw [outs_v10]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

/-! ## What each region's exit contents are, reference by reference -/

theorem hF0 (c : Dev nD) (w : Fin cfg0.W) : (pdats m 0 c).arrAt w cfg0.N = V8 m (outs m) c (Pipeline.arrRef spec0 w) := by
  rw [V8_eq]
  match w with
  | ⟨0, _⟩ => exact ((dat0 (E0 m) c).arrAt_in 0 rfl _).trans ((A_eq0 (E0 m) c 0).trans (Function.update_of_ne (StableHlo.devRef_ne_of_ne (by decide)) _ _).symm)
  | ⟨1, _⟩ => exact ((dat0 (E0 m) c).arrAt_in 1 rfl _).trans ((A_eq0 (E0 m) c 1).trans (Function.update_of_ne (StableHlo.devRef_ne_of_ne (by decide)) _ _).symm)
  | ⟨2, _⟩ => exact (Function.update_self (Proc.devRef .tc main_v10 : DevRef τ sig) (o8 m c) (V7 m c)).symm

theorem hrest0 (c : Dev nD) : ∀ b, b ∉ Finset.univ.image (Pipeline.arrRef spec0) → V8 m (outs m) c b = V7 m c b :=
  fun b hb => V8_of m (outs m) c b (by
    intro h
    rw [List.mem_singleton] at h
    exact hb (Finset.mem_image.mpr ⟨2, Finset.mem_univ _, h.symm⟩))

theorem hF1 (c : Dev nD) (w : Fin cfg1.W) : (pdats m 1 c).arrAt w cfg1.N = V9 m (outs m) c (Pipeline.arrRef spec1 w) := by
  match w with
  | ⟨0, _⟩ => exact ((dat1 (E1 m) c).arrAt_in 0 rfl _).trans ((A_eq1 (E1 m) c 0).trans (((V9_of m (outs m) c main_v9 (by decide)).trans (congrFun (V8_eq m c) _)).symm))
  | ⟨1, _⟩ => exact ((dat1 (E1 m) c).arrAt_in 1 rfl _).trans ((A_eq1 (E1 m) c 1).trans (((V9_of m (outs m) c main_v10 (by decide)).trans (congrFun (V8_eq m c) _)).symm))
  | ⟨2, _⟩ => exact ((Function.update_self (Proc.devRef .tc main_v11 : DevRef τ sig) (outs m 9 main_v11 c) (V8 m (outs m) c)).trans (outs_v11 m 9 c)).symm

theorem hrest1 (c : Dev nD) : ∀ b, b ∉ Finset.univ.image (Pipeline.arrRef spec1) → V9 m (outs m) c b = V8 m (outs m) c b :=
  fun b hb => V9_of m (outs m) c b (by
    intro h
    rw [List.mem_singleton] at h
    exact hb (Finset.mem_image.mpr ⟨2, Finset.mem_univ _, h.symm⟩))

/-! ## The regions as segments -/

set_option backward.isDefEq.respectTransparency.types false in
/-- REGION 0 over the thread state: entered from every unscoped buffer at the contents after the host stretches,
    left with the message array at its write-backs folded. The generator register goes into the class invariant
    and comes back; the tracked accumulator is met by the class invariant at both ends. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun c t => owed0 (E0 m) c t
  pre c := iprop(StableHlo.held (c : Thread nD τ) (Pipeline.ucRefs τ sig) (V7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      (fun w => share0 (E0 m) c w) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((recorded0 (E0 m) c 0).symm ▸ Set.mem_univ x)
      rw [show (pdats m 0 c).owed 0 = 0 from owed0 (E0 m) c 0]
      iexact HO
    isplitl [Hp]; · iexact Hp
    iexact Hrest
  hin c := by
    refine BI.Entails.trans (?_ : _ ⊢ (Pipeline.ΦA spec0 c : sProp 𝕄)) (hin0 (E0 m) c)
    unfold Pipeline.ΦA
    iintro ⟨Hp, -, Hr⟩
    isplitl [Hr]; · iexact Hr
    iexact Hp
  hout c := by
    rw [Pipeline.ownSems0_none]
    refine BI.Entails.trans (hout0 (E0 m) c) (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) (fun w => share0 (E0 m) c w)
      (E0 m c) (fun b => V8 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed0 (E0 m) c _]
    iexact HO

set_option backward.isDefEq.respectTransparency.types false in
/-- REGION 1 over the thread state: entered from region 0's exit contents, left with the padded aggregate at its
    write-backs folded. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun c t => owed1 (E1 m) c t
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V8_eq]
    have hsplit := Pipeline.arrays_of_unscopedBufs (p := 1) (pcfgs (F := F)) adm (pdats m) launch1.win launch1.arr_whole c
      (fun w => share1 (E1 m) c w) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((recorded1 (E1 m) c 0).symm ▸ Set.mem_univ x)
      rw [show (pdats m 1 c).owed 0 = 0 from owed1 (E1 m) c 0]
      iexact HO
    isplitl [Hp]; · iexact Hp
    iexact Hrest
  hin c := by
    refine BI.Entails.trans (?_ : _ ⊢ (Pipeline.ΦA spec1 c : sProp 𝕄)) (hin1 (E1 m) c)
    unfold Pipeline.ΦA
    iintro ⟨Hp, -, Hr⟩
    isplitl [Hr]; · iexact Hr
    iexact Hp
  hout c := by
    rw [Pipeline.ownSems0_none]
    refine BI.Entails.trans (hout1 (E1 m) c) (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) (fun w => share1 (E1 m) c w)
      (E1 m c) (fun b => V9 m (outs m) c b) ((pdats m 1 c).arrAt · cfg1.N) (hF1 m c)
      (fun b hb => (hrest1 m c b hb).trans (congrFun (V8_eq m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from owed1 (E1 m) c _]
    iexact HO

/-! ## The launch -/

/-- What the launch deals each core, without its buffers, gives the state that rides beside them. -/
theorem R_of_launch (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄) ⊢ R c := by
  iintro ⟨-, HO, -, Hp, -⟩
  isplitl [Hp]; · iexists _; iexact Hp
  iexists ∅; iexact HO

set_option backward.isDefEq.respectTransparency.types false in
/-- THE RUN. From any memory with zero counters every weakly fair execution of @main terminates, the result buffer
    ends at the last valuation's contents and each argument array as launched. -/
theorem run_main : θ_run defs (onTc (τ := τ) (main (F := F))) ⟨m, fun _ => 0, ρ⟩ (fun r => ∀ c : Dev nD,
      r.2.mem ((c.tc : Thread nD τ).loc main_v12) = V10 m (outs m) c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have h : (bigSep Finset.univ (fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp))) : sProp 𝕄)
          ⊢ bigSep Finset.univ (fun c : Dev nD => R c) :=
        bigSep_mono fun c _ => R_of_launch (F := F) ρ c
      iintro ⟨H, -⟩
      imodintro
      iapply h
      iexact H)
    (fun c => by iintro ⟨-, HO⟩; iexact HO)
    (reg0 m) (fun c => .rfl) (fun c => .rfl)
    (reg1 m) (fun c => .rfl) (fun c => .rfl)

end Cert.Kernel.Hand

end
-- ==== Proof.KI.R0Defs.lean ====
/- Region 0: what its case runs and its body obligation share. The windows' blocks as the region finds them; each
   input window's staging buffer holds its block at every point; the two branch conditions of the body in closed
   form over the grid (the first step of a reduction resets the accumulator, the last writes the output block);
   where the output window is idle; the staging and scratch memrefs; the class invariant with the accumulator's
   buffer taken out. -/
import proofs.«427728_j5978594476045_1_alg».proof.Proof.Gen.KernelIdeal.Launch
import proofs.«427728_j5978594476045_1_alg».proof.Proof.Gen.KernelIdeal.Skeleton
import proofs.«427728_j5978594476045_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The reset branch is taken: the reduction coordinate is 0. -/
abbrev cond0_0 (i : grid0.Coords) : Prop := (Scalar.cmpi .ne (Scalar.extui (Scalar.cmpi .eq (BitVec.ofNat 32 (i 1).val) 0#32)) 0#32) = 1#1
/-- It is taken at the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- The write-out branch is taken: the reduction coordinate is the last. -/
abbrev cond0_1 (i : grid0.Coords) : Prop := k0_cond2 i = 1#1
/-- It is taken at the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
/-- Where the write-out branch is not taken the output window is idle, -/
theorem idleAt0_2 : ∀ t : Fin cfg0.N, ¬cond0_1 (grid0.coords t) → cfg0.idle 2 (grid0.coords t) = true := by decide +kernel
/-- and the pipeline does not write its block back; -/
theorem noFlush0_2 : ∀ t : Fin cfg0.N, ¬cond0_1 (grid0.coords t) → (cfg0.win 2).flush t = false := by decide +kernel
/-- where it is taken the window is live. -/
theorem liveAt0_2 : ∀ t : Fin cfg0.N, cond0_1 (grid0.coords t) → cfg0.idle 2 (grid0.coords t) = false := by decide +kernel

/-! ## The memrefs the body is called with -/

abbrev ms0_0 (t : Fin cfg0.N) : Memref sig .tc .vmem S1x2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0 : Memref sig .tc .vmem S2048x128 .f32 := Memref.whole cc0_scratch0

/-- The core's scoped buffers that are neither a staging buffer of this region nor its accumulator, each whole at
    some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the accumulator's buffer named: it, the other scoped buffers, the generator register. -/
theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA restS0; rw [scopedRest0_eq]; simp only [scM0, owns_whole]
  rfl

end Cert.KernelIdeal.Hand

end
-- ==== Proof.KI.R0RunA.lean ====
/- Region 0, control case A (the first step of a reduction: the reset branch taken, the write-out branch not): the
   kernel body run on whole memrefs. The accumulator is taken at any contents and handed back with the pieces its
   two stores wrote; the output window's staging buffer is handed back untouched. -/
import proofs.«427728_j5978594476045_1_alg».proof.Proof.KI.R0Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case A. On whole memrefs, the two input windows at contents `x0`, `x1`, the output window's buffer at any
    contents `xi2` (handed back as it was), the accumulator at anything, the body runs to a continuation that
    holds the inputs and the output buffer as they were and the accumulator with the pieces `LS0` written, last
    first: the reset value, then the update of it. The pieces are what the run finds. -/
noncomputable def kernelRun0_A (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : cond0_0 i) (hc1 : ¬cond0_1 i)
    (x0 : Vec F S1x2048 .i32) (x1 : Vec F S2048x128 .bf16) :
    Σ' (L2 : List (View.Piece (Elt F) S2048x128 .bf16)), { LS0 : List (View.Piece (Elt F) S2048x128 .f32) //
      ∀ (xi2 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R0RunB.lean ====
/- Region 0, control case B (a middle step of a reduction: neither branch taken): the kernel body run on whole
   memrefs. The accumulator is taken at what the point before left and handed back with the piece its store wrote;
   the output window's staging buffer is handed back untouched. -/
import proofs.«427728_j5978594476045_1_alg».proof.Proof.KI.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case B. On whole memrefs, the two input windows at contents `x0`, `x1`, the output window's buffer at any
    contents `xi2` (handed back as it was), the accumulator at `xs0`, the body runs to a continuation that holds
    the inputs and the output buffer as they were and the accumulator with the piece `LS0` written: the update of
    `xs0`. The pieces are what the run finds. -/
noncomputable def kernelRun0_B (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : ¬cond0_1 i)
    (x0 : Vec F S1x2048 .i32) (x1 : Vec F S2048x128 .bf16) (xs0 : Vec F S2048x128 .f32) :
    Σ' (L2 : List (View.Piece (Elt F) S2048x128 .bf16)), { LS0 : List (View.Piece (Elt F) S2048x128 .f32) //
      ∀ (xi2 : Vec F S2048x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.R0RunC.lean ====
/- Region 0, control case C (the last step of a reduction: the write-out branch taken, the reset branch not): the
   kernel body run on whole memrefs. The accumulator is taken at what the point before left and handed back with the
   piece its store wrote; the output window's staging buffer is taken at anything and handed back with the piece the
   write-out stored. -/
import proofs.«427728_j5978594476045_1_alg».proof.Proof.KI.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Case C. On whole memrefs, the two input windows at contents `x0`, `x1`, the output window's buffer at
    anything, the accumulator at `xs0`, the body runs to a continuation that holds the inputs as they were, the
    output buffer with the pieces `L2` written (the rounding of the updated accumulator) and the accumulator with
    the piece `LS0` written (the update of `xs0`). The pieces are what the run finds. -/
noncomputable def kernelRun0_C (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : cond0_1 i)
    (x0 : Vec F S1x2048 .i32) (x1 : Vec F S2048x128 .bf16) (xs0 : Vec F S2048x128 .f32) :
    Σ' (L2 : List (View.Piece (Elt F) S2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.R0.lean ====
/- Region 0 (the gather as a one-hot product, grid 391 x 25), the frame half. What each control case's pieces read
   back as, over the payloads; the scratch accumulator after each grid point; the pipeline's proof data; the body
   obligation at a generic point; and how the region's invariant meets the class invariant at its two ends. -/
import proofs.«427728_j5978594476045_1_alg».proof.Proof.KI.R0RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case's pieces read back as -/

/-- The whole-block rectangle's offsets are zero. -/
theorem hz0 : (![0, 0] : Fin 2 → Nat) = fun _ => 0 := funext fun a => by fin_cases a <;> rfl

/-- Case A's pieces for the accumulator cover it. -/
theorem scover0_A (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : cond0_0 i) (hc1 : ¬cond0_1 i)
    (x0 : Vec F S1x2048 .i32) (x1 : Vec F S2048x128 .bf16) (y : S2048x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x128.size (by sl_kernel_rfl) y

/-- Case A leaves in the accumulator the step's product added to the reset value: the update's load of the
    accumulator comes after the reset store and reads what that store wrote. -/
theorem sout0_A (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : cond0_0 i) (hc1 : ¬cond0_1 i)
    (x0 : Vec F S1x2048 .i32) (x1 : Vec F S2048x128 .bf16)
    (v : View sig .tc .vmem S2048x128 .f32) (f : v.ty.Contents (Elt F)) :
    v.read (Elt F) (v.writes (Elt F) f (kernelRun0_A c i arg2 harg2 arg3 harg3 arg4 harg4 arg5 harg5 hc0 hc1 x0 x1).2.1)
      = k0_pay2 i x0 x1 (k0_pay1 (F := F)) := by
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S2048x128) hz0]
  simp only [View.readAt_eq_ld, harg2.read_unread, harg3.read_unread, harg5.read_unread, View.ld_unit_zero (S := S1x2048) hz0,
    View.ld_unit_zero (S := S2048x128) hz0, View.readCov_unit_zero (S := S2048x128) _ hz0]

/-- Case B's piece for the accumulator covers it. -/
theorem scover0_B (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : ¬cond0_1 i)
    (x0 : Vec F S1x2048 .i32) (x1 : Vec F S2048x128 .bf16) (xs0 : Vec F S2048x128 .f32) (y : S2048x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x128.size (by sl_kernel_rfl) y

/-- Case B leaves in the accumulator the step's product added to what it held. -/
theorem sout0_B (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : ¬cond0_1 i)
    (x0 : Vec F S1x2048 .i32) (x1 : Vec F S2048x128 .bf16) (xs0 : Vec F S2048x128 .f32)
    (v : View sig .tc .vmem S2048x128 .f32) (f : v.ty.Contents (Elt F)) :
    v.read (Elt F) (v.writes (Elt F) f (kernelRun0_B c i arg2 harg2 arg3 harg3 arg4 harg4 arg5 harg5 hc0 hc1 x0 x1 xs0).2.1)
      = k0_pay2 i x0 x1 xs0 := by
  rw [View.read_writes_eq_canon _ _ _ (scover0_B c i arg2 harg2 arg3 harg3 arg4 harg4 arg5 harg5 hc0 hc1 x0 x1 xs0)]
  unfold kernelRun0_B
  dsimp only
  sl_unfold_words
  rw [View.canon_unit_zero (S := S2048x128) hz0]
  simp only [View.readAt_eq_ld, harg2.read_unread, harg3.read_unread, harg5.read_unread, View.ld_unit_zero (S := S1x2048) hz0,
    View.ld_unit_zero (S := S2048x128) hz0, View.readCov_unit_zero (S := S2048x128) _ hz0]

/-- Case C's piece for the accumulator covers it. -/
theorem scover0_C (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : cond0_1 i)
    (x0 : Vec F S1x2048 .i32) (x1 : Vec F S2048x128 .bf16) (xs0 : Vec F S2048x128 .f32) (y : S2048x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x128.size (by sl_kernel_rfl) y

/-- Case C leaves in the accumulator the step's product added to what it held. -/
theorem sout0_C (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : cond0_1 i)
    (x0 : Vec F S1x2048 .i32) (x1 : Vec F S2048x128 .bf16) (xs0 : Vec F S2048x128 .f32)
    (v : View sig .tc .vmem S2048x128 .f32) (f : v.ty.Contents (Elt F)) :
    v.read (Elt F) (v.writes (Elt F) f (kernelRun0_C c i arg2 harg2 arg3 harg3 arg4 harg4 arg5 harg5 hc0 hc1 x0 x1 xs0).2.1)
      = k0_pay2 i x0 x1 xs0 := by
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero (S := S2048x128) hz0]
  simp only [View.readAt_eq_ld, harg2.read_unread, harg3.read_unread, harg5.read_unread, View.ld_unit_zero (S := S1x2048) hz0,
    View.ld_unit_zero (S := S2048x128) hz0, View.readCov_unit_zero (S := S2048x128) _ hz0]

/-- Case C's piece for the output window's staging buffer covers it. -/
theorem cover0_C (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : cond0_1 i)
    (x0 : Vec F S1x2048 .i32) (x1 : Vec F S2048x128 .bf16) (xs0 : Vec F S2048x128 .f32) (y : S2048x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2048x128.size (by sl_kernel_rfl) y

/-- Case C leaves in the output window's staging buffer the rounding of the updated accumulator: the write-out's
    load of the accumulator comes after the update's store and reads what that store wrote. -/
theorem out0_C (c : Dev nD) (i : grid0.Coords) (arg2 : Memref sig .tc .vmem S1x2048 .i32) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2048x128 .f32) (harg5 : arg5.IsWhole) (hc0 : ¬cond0_0 i) (hc1 : cond0_1 i)
    (x0 : Vec F S1x2048 .i32) (x1 : Vec F S2048x128 .bf16) (xs0 : Vec F S2048x128 .f32)
    (v : View sig .tc .vmem S2048x128 .bf16) (f : v.ty.Contents (Elt F)) :
    v.read (Elt F) (v.writes (Elt F) f (kernelRun0_C c i arg2 harg2 arg3 harg3 arg4 harg4 arg5 harg5 hc0 hc1 x0 x1 xs0).1)
      = k0_pay3 (k0_pay2 i x0 x1 xs0) := by
  rw [View.read_writes_eq_canon _ _ _ (cover0_C c i arg2 harg2 arg3 harg3 arg4 harg4 arg5 harg5 hc0 hc1 x0 x1 xs0)]
  unfold kernelRun0_C
  dsimp only
  sl_unfold_words
  rw [View.canon_unit_zero (S := S2048x128) hz0]
  simp only [View.readAt_eq_ld, harg2.read_unread, harg3.read_unread, harg5.read_unread, View.ld_unit_zero (S := S1x2048) hz0,
    View.ld_unit_zero (S := S2048x128) hz0, View.readCov_unit_zero (S := S2048x128) _ hz0]

-- the TensorCore's buffer contents when the region is entered
variable (V : (c : Dev nD) → (b : Ref sig .tc) → Buf (Elt F) ((c : Thread nD τ).loc b))

/-! ## The accumulator after each point -/

/-- The scratch accumulator after the body at point `n`: at the first step of a reduction (`n % 25 = 0`) the
    step's product added to the reset value, otherwise added to what the point before left. -/
def acc0 (c : Dev nD) : (n : ℕ) → n < cfg0.N → Vec F S2048x128 .f32
  | 0, hn => k0_pay2 (grid0.coords ⟨0, hn⟩) (iblk0 V c 0 ⟨0, hn⟩) (iblk0 V c 1 ⟨0, hn⟩) (k0_pay1 (F := F))
  | n + 1, hn =>
    if (n + 1) % 25 = 0 then k0_pay2 (grid0.coords ⟨n + 1, hn⟩) (iblk0 V c 0 ⟨n + 1, hn⟩) (iblk0 V c 1 ⟨n + 1, hn⟩) (k0_pay1 (F := F))
    else k0_pay2 (grid0.coords ⟨n + 1, hn⟩) (iblk0 V c 0 ⟨n + 1, hn⟩) (iblk0 V c 1 ⟨n + 1, hn⟩) (acc0 c n (Nat.lt_of_succ_lt hn))

theorem acc0_first (c : Dev nD) (t : Fin cfg0.N) (h : t.val % 25 = 0) :
    acc0 V c t.val t.isLt = k0_pay2 (grid0.coords t) (iblk0 V c 0 t) (iblk0 V c 1 t) (k0_pay1 (F := F)) := by
  obtain ⟨n, hn⟩ := t
  cases n with
  | zero => exact rfl
  | succ n => exact (if_pos h).trans rfl

theorem acc0_next (c : Dev nD) (t : Fin cfg0.N) (h : ¬ t.val % 25 = 0) :
    acc0 V c t.val t.isLt = k0_pay2 (grid0.coords t) (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region's invariant -/

/-- The region's invariant before position `n`: before the first point the class invariant (the accumulator at
    anything); afterwards the accumulator at what the point before left, the other scoped buffers at anything, the
    generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ restS0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ restS0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ restS0 c) ∗ (∃ r, prngReg c r)) := by
  cases n with
  | zero => exact absurd rfl hz
  | succ n => rfl

/-! ## The pipeline's proof data -/

/-- The proof data of pipeline 0 on core `c`: the arrays as the region finds them; after the body at point `t`
    each input window's buffer at its block and the output window's at the rounding of the accumulator; the
    invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem share0 (c : Dev nD) (w : Fin cfg0.W) : (dat0 V c).share w = fullShare :=
  (dat0 V c).share_full (fun _ => rfl) w
theorem owed0 (c : Dev nD) (t : Fin (cfg0.N + 1)) : (dat0 V c).owed t = 0 := rfl
theorem recorded0 (c : Dev nD) (t : Fin (cfg0.N + 1)) : (dat0 V c).recorded t = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
/-- What the output window's staging buffer is stated at, at every point. -/
theorem after0_2' (c : Dev nD) (t : Fin cfg0.N) : (dat0 V c).after 2 t = k0_pay3 (acc0 V c t.val t.isLt) := by dsimp only [dat0]
/-- What the body leaves in the output window's staging buffer at a point that writes it back. -/
theorem after0_2 (c : Dev nD) (t : Fin cfg0.N) (h : t.val % 25 = 24) :
    (dat0 V c).after 2 t = k0_pay3 (acc0 V c t.val t.isLt) := after0_2' V c t

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; the closed forms of the branch conditions say
    which case the point is in; the invariant hands the body the accumulator (at anything before the first point, at
    what the point before left afterwards), the case's run applies, and the accumulator comes back at this point's
    contents by the case's piece lemma and the accumulator's recursion equation. Where the write-out branch is not
    taken the output window's buffer goes through untouched; where it is, it comes back at the rounding of the
    accumulator. The other scoped buffers and the generator register ride through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 9775 := lt_of_lt_of_eq t.isLt (show cfg0.N = 9775 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 25 = 0
  · have h1 : ¬ t.val % 25 = 24 := by omega
    rw [Dat.leavesExact_idle (dat0 V c) 2 t (idleAt0_2 t (fun h => h1 ((hcond0_1 t).mp h))) (noFlush0_2 t (fun h => h1 ((hcond0_1 t).mp h)))]
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro
            exact (sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t) scM0.view es0).trans (acc0_first V c t h0).symm
          iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro
            exact (sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t) scM0.view es0).trans (acc0_first V c t h0).symm
          iexact Hr
        iexact Hg
      isplitl [Ho]; · iexact Ho
      isplitl [H0]; · iexact H0
      isplitl [H1]; · iexact H1
      iexists _; iexact H2
  · have hz : t.val ≠ 0 := fun hz => h0 (by rw [hz])
    by_cases h1 : t.val % 25 = 24
    · rw [show (dat0 V c).leavesExact 2 t = owns (c : Thread nD τ) (ms0_2 t) fullShare ((dat0 V c).after 2 t) from by
        unfold Dat.leavesExact; rw [liveAt0_2 t ((hcond0_1 t).mpr h1)], after0_2']
      rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (acc0 V c (t.val - 1) (Nat.lt_of_le_of_lt (Nat.sub_le _ _) t.isLt))).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro
            exact (sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (acc0 V c (t.val - 1) (Nat.lt_of_le_of_lt (Nat.sub_le _ _) t.isLt)) scM0.view es0).trans (acc0_next V c t h0).symm
          iexact Hr
        iexact Hg
      isplitl [Ho]; · iexact Ho
      isplitl [H0]; · iexact H0
      isplitl [H1]; · iexact H1
      unfold owns; iexists _; isplitr
      swap; · iexact H2
      ipureintro
      exact (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (acc0 V c (t.val - 1) (Nat.lt_of_le_of_lt (Nat.sub_le _ _) t.isLt)) (ms0_2 t).view e2).trans
        (congrArg k0_pay3 (acc0_next V c t h0).symm)
    · rw [Dat.leavesExact_idle (dat0 V c) 2 t (idleAt0_2 t (fun h => h1 ((hcond0_1 t).mp h))) (noFlush0_2 t (fun h => h1 ((hcond0_1 t).mp h)))]
      rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (acc0 V c (t.val - 1) (Nat.lt_of_le_of_lt (Nat.sub_le _ _) t.isLt))).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro
            exact (sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (acc0 V c (t.val - 1) (Nat.lt_of_le_of_lt (Nat.sub_le _ _) t.isLt)) scM0.view es0).trans (acc0_next V c t h0).symm
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class invariant back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 9775 := N_0; omega)

end Cert.KernelIdeal.Hand

end
-- ==== Proof.KI.R1Defs.lean ====
/- Region 1: what its case runs and its body obligation share. The windows' blocks as the region finds them; each
   input window's staging buffer holds its block at every point; the two branch conditions of the body in closed
   form over the grid (the first step of a reduction resets the accumulator, the last writes the output block);
   where the output window is idle; the staging and scratch memrefs; the class invariant with the accumulator's
   buffer taken out. -/
import proofs.«427728_j5978594476045_1_alg».proof.Proof.Gen.KernelIdeal.Launch
import proofs.«427728_j5978594476045_1_alg».proof.Proof.Gen.KernelIdeal.Skeleton
import proofs.«427728_j5978594476045_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The reset branch is taken: the reduction coordinate is 0. -/
abbrev cond1_0 (i : grid1.Coords) : Prop := (Scalar.cmpi .ne (Scalar.extui (Scalar.cmpi .eq (BitVec.ofNat 32 (i 1).val) 0#32)) 0#32) = 1#1
/-- It is taken at the points ≡ 0 (mod 391). -/
theorem hcond1_0 : ∀ t : Fin cfg1.N, cond1_0 (grid1.coords t) ↔ t.val % 391 = 0 :=
  (by decide +kernel : ∀ t : Fin grid1.N, cond1_0 (grid1.coords t) ↔ t.val % 391 = 0)

/-- The write-out branch is taken: the reduction coordinate is the last. -/
abbrev cond1_1 (i : grid1.Coords) : Prop := k1_cond2 i = 1#1
/-- It is taken at the points ≡ 390 (mod 391). -/
theorem hcond1_1 : ∀ t : Fin cfg1.N, cond1_1 (grid1.coords t) ↔ t.val % 391 = 390 :=
  (by decide +kernel : ∀ t : Fin grid1.N, cond1_1 (grid1.coords t) ↔ t.val % 391 = 390)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
/-- Where the write-out branch is not taken the output window is idle, -/
theorem idleAt1_2 : ∀ t : Fin cfg1.N, ¬cond1_1 (grid1.coords t) → cfg1.idle 2 (grid1.coords t) = true := by decide +kernel
/-- and the pipeline does not write its block back; -/
theorem noFlush1_2 : ∀ t : Fin cfg1.N, ¬cond1_1 (grid1.coords t) → (cfg1.win 2).flush t = false := by decide +kernel
/-- where it is taken the window is live. -/
theorem liveAt1_2 : ∀ t : Fin cfg1.N, cond1_1 (grid1.coords t) → cfg1.idle 2 (grid1.coords t) = false := by decide +kernel

/-! ## The memrefs the body is called with -/

abbrev ms1_0 (t : Fin cfg1.N) : Memref sig .tc .vmem S1x2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1 : Memref sig .tc .vmem S2048x128 .f32 := Memref.whole cc1_scratch0

/-- The core's scoped buffers that are no staging buffer of this region, each whole at some contents, with the
    accumulator's place (the last of them) left open for `S`. -/
def ctxS1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ S)

/-- The class invariant with the accumulator's buffer named: the other scoped buffers, it, the generator register. -/
theorem PhiA1_eq (c : Dev nD) :
    (Pipeline.ΦA spec1 c : sProp 𝕄)
      = iprop(ctxS1 c (iprop(∃ d, owns (c : Thread nD τ) scM1 fullShare d)) ∗ (∃ r, prngReg c r)) := by
  unfold Pipeline.ΦA ctxS1; rw [scopedRest1_eq]; simp only [scM1, owns_whole]
  rfl

end Cert.KernelIdeal.Hand

end
-- ==== Proof.KI.R1RunA.lean ====
/- Region 1, the first step of a reduction (the reset branch taken, the write-out branch not): the kernel body's run
   on any whole memrefs, the pieces it leaves in the accumulator found by the run, and what those pieces read back
   as — the step's product added to the reset value. -/
import proofs.«427728_j5978594476045_1_alg».proof.Proof.KI.R1Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run where the reset branch is taken and the write-out branch is not (the first step of a reduction):
    on whole memrefs — the two input windows' at their blocks, the output window's at contents handed back untouched,
    the accumulator's at anything — the body runs to the continuation holding the windows' buffers as they were and
    the accumulator with the run's pieces written (the reset store, then the update store over it). The pieces are
    the witness the run finds. -/
noncomputable def kernelRun1_A (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x2048 .i32) (x1 : Vec F S2048x128 .bf16) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

/-- The zero offsets of the whole-buffer rectangle, as the constant function. -/
private theorem hz1 : (![0, 0] : Fin 2 → Nat) = fun _ => 0 := funext fun a => by fin_cases a <;> rfl

/-- The pieces this run leaves in the accumulator cover it. -/
theorem scover1_A (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x2048 .i32) (x1 : Vec F S2048x128 .bf16) (y : S2048x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x128.size (by sl_kernel_rfl) y

/-- What this run leaves in the accumulator, read back through any view of its shape over any earlier contents: the
    step's product added to the reset value — the update's load of the accumulator reads what the reset store left. -/
theorem sread1_A (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : cond1_0 i) (hc1 : ¬cond1_1 i)
    (x0 : Vec F S1x2048 .i32) (x1 : Vec F S2048x128 .bf16)
    (v : View sig .tc .vmem S2048x128 .f32) (f : v.ty.Contents (Elt F)) :
    v.read (Elt F) (v.writes (Elt F) f (kernelRun1_A c i arg2 harg2 arg3 harg3 arg4 harg4 arg5 harg5 hc0 hc1 x0 x1).2.1)
      = k1_pay2 i x0 (k1_pay1 (F := F)) x1 := by
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S2048x128) hz1, View.readCov_unit_zero (S := S2048x128) _ hz1]
  simp only [View.readAt_eq_ld, harg2.read_unread, harg3.read_unread, View.ld_unit_zero (S := S1x2048) hz1, View.ld_unit_zero (S := S2048x128) hz1]

end Cert.KernelIdeal.Hand

end
-- ==== Proof.KI.R1RunB.lean ====
/- Region 1, an inner step of a reduction (neither branch taken): the kernel body's run on any whole memrefs, the
   piece it leaves in the accumulator found by the run, and what that piece reads back as — the step's product
   added to what the point before left. -/
import proofs.«427728_j5978594476045_1_alg».proof.Proof.KI.R1Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run where neither branch is taken (an inner step of a reduction): on whole memrefs — the two input
    windows' at their blocks, the output window's at contents handed back untouched, the accumulator's at what the
    point before left (`xs0`) — the body runs to the continuation holding the windows' buffers as they were and the
    accumulator with the run's one piece written (the update store). The piece is the witness the run finds. -/
noncomputable def kernelRun1_B (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x2048 .i32) (x1 : Vec F S2048x128 .bf16) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

/-- The zero offsets of the whole-buffer rectangle, as the constant function. -/
private theorem hz1 : (![0, 0] : Fin 2 → Nat) = fun _ => 0 := funext fun a => by fin_cases a <;> rfl

/-- The piece this run leaves in the accumulator covers it. -/
theorem scover1_B (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x2048 .i32) (x1 : Vec F S2048x128 .bf16) (xs0 : Vec F S2048x128 .f32) (y : S2048x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x128.size (by sl_kernel_rfl) y

/-- What this run leaves in the accumulator, read back through any view of its shape over any earlier contents: the
    step's product added to what the point before left. -/
theorem sread1_B (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : ¬cond1_1 i)
    (x0 : Vec F S1x2048 .i32) (x1 : Vec F S2048x128 .bf16) (xs0 : Vec F S2048x128 .f32)
    (v : View sig .tc .vmem S2048x128 .f32) (f : v.ty.Contents (Elt F)) :
    v.read (Elt F) (v.writes (Elt F) f (kernelRun1_B c i arg2 harg2 arg3 harg3 arg4 harg4 arg5 harg5 hc0 hc1 x0 x1 xs0).2.1)
      = k1_pay2 i x0 xs0 x1 := by
  rw [View.read_writes_eq_canon _ _ _ (scover1_B c i arg2 harg2 arg3 harg3 arg4 harg4 arg5 harg5 hc0 hc1 x0 x1 xs0)]
  unfold kernelRun1_B
  dsimp only
  sl_unfold_words
  rw [View.canon_unit_zero (S := S2048x128) hz1]
  simp only [View.readAt_eq_ld, harg2.read_unread, harg3.read_unread, harg5.read_unread, View.ld_unit_zero (S := S1x2048) hz1, View.ld_unit_zero (S := S2048x128) hz1]

end Cert.KernelIdeal.Hand

end
-- ==== Proof.KI.R1RunC.lean ====
/- Region 1, the last step of a reduction (the write-out branch taken, the reset branch not): the kernel body's run
   on any whole memrefs, the pieces it leaves in the accumulator and in the output window's buffer found by the run,
   and what they read back as — both the step's product added to what the point before left. -/
import proofs.«427728_j5978594476045_1_alg».proof.Proof.KI.R1Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run where the write-out branch is taken and the reset branch is not (the last step of a reduction):
    on whole memrefs — the two input windows' at their blocks, the output window's at anything, the accumulator's at
    what the point before left (`xs0`) — the body runs to the continuation holding the input windows' buffers as they
    were, the accumulator with the update store's piece written, and the output window's buffer with the write-out
    store's piece written. The pieces are the witness the run finds. -/
noncomputable def kernelRun1_C (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x2048 .i32) (x1 : Vec F S2048x128 .bf16) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-- The zero offsets of the whole-buffer rectangle, as the constant function. -/
private theorem hz1 : (![0, 0] : Fin 2 → Nat) = fun _ => 0 := funext fun a => by fin_cases a <;> rfl

/-- The piece this run leaves in the output window's buffer covers it. -/
theorem cover1_C (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x2048 .i32) (x1 : Vec F S2048x128 .bf16) (xs0 : Vec F S2048x128 .f32) (y : S2048x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x128.size (by sl_kernel_rfl) y

/-- The piece this run leaves in the accumulator covers it. -/
theorem scover1_C (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x2048 .i32) (x1 : Vec F S2048x128 .bf16) (xs0 : Vec F S2048x128 .f32) (y : S2048x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x128.size (by sl_kernel_rfl) y

/-- What this run leaves in the accumulator, read back through any view of its shape over any earlier contents: the
    step's product added to what the point before left. -/
theorem sread1_C (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x2048 .i32) (x1 : Vec F S2048x128 .bf16) (xs0 : Vec F S2048x128 .f32)
    (v : View sig .tc .vmem S2048x128 .f32) (f : v.ty.Contents (Elt F)) :
    v.read (Elt F) (v.writes (Elt F) f (kernelRun1_C c i arg2 harg2 arg3 harg3 arg4 harg4 arg5 harg5 hc0 hc1 x0 x1 xs0).2.1)
      = k1_pay2 i x0 xs0 x1 := by
  rw [View.read_writes_eq_canon _ _ _ (scover1_C c i arg2 harg2 arg3 harg3 arg4 harg4 arg5 harg5 hc0 hc1 x0 x1 xs0)]
  unfold kernelRun1_C
  dsimp only
  sl_unfold_words
  rw [View.canon_unit_zero (S := S2048x128) hz1]
  simp only [View.readAt_eq_ld, harg2.read_unread, harg3.read_unread, harg5.read_unread, View.ld_unit_zero (S := S1x2048) hz1, View.ld_unit_zero (S := S2048x128) hz1]

/-- What this run leaves in the output window's buffer, read back the same way: the accumulator as just updated — the
    write-out stores the accumulator as loaded after the update store. -/
theorem oread1_C (c : Dev nD) (i : grid1.Coords) (arg2 : Memref sig .tc .vmem S1x2048 .i32) (harg2 : arg2.IsWhole) (arg3 : Memref sig .tc .vmem S2048x128 .bf16) (harg3 : arg3.IsWhole) (arg4 : Memref sig .tc .vmem S2048x128 .f32) (harg4 : arg4.IsWhole) (arg5 : Memref sig .tc .vmem S2048x128 .f32) (harg5 : arg5.IsWhole) (hc0 : ¬cond1_0 i) (hc1 : cond1_1 i)
    (x0 : Vec F S1x2048 .i32) (x1 : Vec F S2048x128 .bf16) (xs0 : Vec F S2048x128 .f32)
    (v : View sig .tc .vmem S2048x128 .f32) (f : v.ty.Contents (Elt F)) :
    v.read (Elt F) (v.writes (Elt F) f (kernelRun1_C c i arg2 harg2 arg3 harg3 arg4 harg4 arg5 harg5 hc0 hc1 x0 x1 xs0).1)
      = k1_pay2 i x0 xs0 x1 := by
  rw [View.read_writes_eq_canon _ _ _ (cover1_C c i arg2 harg2 arg3 harg3 arg4 harg4 arg5 harg5 hc0 hc1 x0 x1 xs0)]
  unfold kernelRun1_C
  dsimp only
  sl_unfold_words
  rw [View.canon_unit_zero (S := S2048x128) hz1]
  simp only [View.readCov_unit_zero (S := S2048x128) _ hz1, View.readAt_eq_ld, harg2.read_unread, harg3.read_unread, harg5.read_unread, View.ld_unit_zero (S := S1x2048) hz1, View.ld_unit_zero (S := S2048x128) hz1]

end Cert.KernelIdeal.Hand

end
-- ==== Proof.KI.R1.lean ====
/- Region 1 (the scatter-add as a one-hot product, grid 25 x 391): the scratch accumulator after each grid point, as
   the payloads say it (at the first step of a reduction the step's product added to the reset value, otherwise added
   to what the point before left); the pipeline's proof data over it; the body obligation, by the three runs (first,
   inner and last step of a reduction) and what their pieces read back as; and how the region's invariant meets the
   class invariant at its two ends. Generic in the float instance. -/
import proofs.«427728_j5978594476045_1_alg».proof.Proof.KI.R1RunA
import proofs.«427728_j5978594476045_1_alg».proof.Proof.KI.R1RunB
import proofs.«427728_j5978594476045_1_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The scratch accumulator after the body at point `n`: at the first step of a reduction (`n % 391 = 0`) the
    step's product added to the reset value, otherwise added to what the point before left. -/
def acc1 (c : Dev nD) : (n : ℕ) → n < cfg1.N → Vec F S2048x128 .f32
  | 0, hn => k1_pay2 (grid1.coords ⟨0, hn⟩) (iblk1 V c 0 ⟨0, hn⟩) (k1_pay1 (F := F)) (iblk1 V c 1 ⟨0, hn⟩)
  | n + 1, hn =>
    if (n + 1) % 391 = 0 then k1_pay2 (grid1.coords ⟨n + 1, hn⟩) (iblk1 V c 0 ⟨n + 1, hn⟩) (k1_pay1 (F := F)) (iblk1 V c 1 ⟨n + 1, hn⟩)
    else k1_pay2 (grid1.coords ⟨n + 1, hn⟩) (iblk1 V c 0 ⟨n + 1, hn⟩) (acc1 c n (Nat.lt_of_succ_lt hn)) (iblk1 V c 1 ⟨n + 1, hn⟩)

/-- At the first step of a reduction the accumulator is the step's product added to the reset value. -/
theorem acc1_first (c : Dev nD) (t : Fin cfg1.N) (h : t.val % 391 = 0) :
    acc1 V c t.val t.isLt = k1_pay2 (grid1.coords t) (iblk1 V c 0 t) (k1_pay1 (F := F)) (iblk1 V c 1 t) := by
  obtain ⟨n, hn⟩ := t
  cases n with
  | zero => rfl
  | succ n => exact (if_pos h).trans rfl

/-- At any other step it is the step's product added to what the point before left. -/
theorem acc1_next (c : Dev nD) (t : Fin cfg1.N) (h : ¬ t.val % 391 = 0) :
    acc1 V c t.val t.isLt = k1_pay2 (grid1.coords t) (iblk1 V c 0 t)
      (acc1 V c (t.val - 1) (Nat.lt_of_le_of_lt (Nat.sub_le _ _) t.isLt)) (iblk1 V c 1 t) := by
  obtain ⟨n, hn⟩ := t
  cases n with
  | zero => (try dsimp only at h); exact absurd (Nat.zero_mod _) h
  | succ n => exact (if_neg h).trans rfl

/-- The region's invariant before position `n`: before the first point the class invariant (the accumulator at
    anything); afterwards the core's other scoped buffers at anything, the accumulator at what the point before
    left, and the generator register at some state. -/
def PhiS1 (c : Dev nD) : (n : ℕ) → n ≤ cfg1.N → sProp 𝕄
  | 0, _ => Pipeline.ΦA spec1 c
  | n + 1, hn => iprop(ctxS1 c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(ctxS1 c (owns (c : Thread nD τ) scM1 fullShare (acc1 V c n hn)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(ctxS1 c (owns (c : Thread nD τ) scM1 fullShare (acc1 V c (n - 1) (by omega))) ∗ (∃ r, prngReg c r)) := by
  cases n with
  | zero => exact absurd rfl hz
  | succ n => rfl

/-! ## The pipeline's proof data -/

/-- The proof data of pipeline 1 on core `c`: the arrays as the region finds them; after the body at point `t` each
    input window's buffer at its block and the output window's at the accumulator's contents (consulted only at the
    points that write it back: elsewhere the window is idle); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem share1 (c : Dev nD) (w : Fin cfg1.W) : (dat1 V c).share w = fullShare :=
  (dat1 V c).share_full (fun _ => rfl) w

theorem owed1 (c : Dev nD) (t : Fin (cfg1.N + 1)) : (dat1 V c).owed t = 0 := rfl

theorem recorded1 (c : Dev nD) (t : Fin (cfg1.N + 1)) : (dat1 V c).recorded t = Set.univ := rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2_any (c : Dev nD) (t : Fin cfg1.N) : (dat1 V c).after 2 t = acc1 V c t.val t.isLt := by dsimp only [dat1]

/-- What the body leaves in the output window's staging buffer at a point that writes it back. -/
theorem after1_2 (c : Dev nD) (t : Fin cfg1.N) (h : t.val % 391 = 390) :
    (dat1 V c).after 2 t = acc1 V c t.val t.isLt := after1_2_any V c t

/-- Each input window's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input windows' buffers hold their blocks; the closed forms of the two conditions say
    which step of a reduction the point is, so that step's run applies; the invariant hands the body the accumulator
    at what the point before left (at anything at the first point), the core's other scoped buffers and the generator
    register, which ride through untouched, and takes the accumulator back at this point's contents, the run's
    pieces read back; where the write-out branch is not taken the output window's buffer is handed back as found,
    where it is taken it holds the accumulator as just updated; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 9775 := lt_of_lt_of_eq t.isLt (show cfg1.N = 9775 from N_1)
  by_cases h1 : t.val % 391 = 390
  · -- the last step of a reduction
    have h0 : ¬ t.val % 391 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2_any]
    rw [acc1_next V c t h0]
    rw [PhiS1_castSucc V c t, PhiS1_pos V c _ _ hz]
    unfold ctxS1
    iintro ⟨⟨⟨Hc0, Hc1, Hc2, Hc3, Hc4, Hc5, Hc6, HS0⟩, Hg⟩, Ho, ⟨%d0, H0⟩, ⟨%d1, H1⟩, ⟨%d2, H2⟩⟩
    iapply ((kernelRun1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (acc1 V c (t.val - 1) (Nat.lt_of_le_of_lt (Nat.sub_le _ _) t.isLt))).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [Hc0 Hc1 Hc2 Hc3 Hc4 Hc5 Hc6 HS0 Hg]
    · isplitl [Hc0 Hc1 Hc2 Hc3 Hc4 Hc5 Hc6 HS0]
      · isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        unfold owns; iexists _; isplitr
        swap; · iexact HS0
        ipureintro; exact sread1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (acc1 V c (t.val - 1) (Nat.lt_of_le_of_lt (Nat.sub_le _ _) t.isLt)) _ _
      iexact Hg
    isplitl [Ho]; · iexact Ho
    isplitl [H0]; · iexact H0
    isplitl [H1]; · iexact H1
    unfold owns; iexists _; isplitr
    swap; · iexact H2
    ipureintro; exact oread1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (acc1 V c (t.val - 1) (Nat.lt_of_le_of_lt (Nat.sub_le _ _) t.isLt)) _ _
  · rw [Dat.leavesExact_idle (dat1 V c) 2 t (idleAt1_2 t (fun h => h1 ((hcond1_1 t).mp h))) (noFlush1_2 t (fun h => h1 ((hcond1_1 t).mp h)))]
    by_cases h0 : t.val % 391 = 0
    · -- the first step of a reduction
      rw [acc1_first V c t h0]
      by_cases hz : t.val = 0
      · rw [PhiS1_castSucc V c t, PhiS1_zero V c _ _ hz, PhiA1_eq]
        unfold ctxS1
        iintro ⟨⟨⟨Hc0, Hc1, Hc2, Hc3, Hc4, Hc5, Hc6, HS0⟩, Hg⟩, Ho, ⟨%d0, H0⟩, ⟨%d1, H1⟩, ⟨%d2, H2⟩⟩
        iapply ((kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [Hc0 Hc1 Hc2 Hc3 Hc4 Hc5 Hc6 HS0 Hg]
        · isplitl [Hc0 Hc1 Hc2 Hc3 Hc4 Hc5 Hc6 HS0]
          · isplitl [Hc0]; · iexact Hc0
            isplitl [Hc1]; · iexact Hc1
            isplitl [Hc2]; · iexact Hc2
            isplitl [Hc3]; · iexact Hc3
            isplitl [Hc4]; · iexact Hc4
            isplitl [Hc5]; · iexact Hc5
            isplitl [Hc6]; · iexact Hc6
            unfold owns; iexists _; isplitr
            swap; · iexact HS0
            ipureintro; exact sread1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t) _ _
          iexact Hg
        isplitl [Ho]; · iexact Ho
        isplitl [H0]; · iexact H0
        isplitl [H1]; · iexact H1
        iexists _; iexact H2
      · rw [PhiS1_castSucc V c t, PhiS1_pos V c _ _ hz]
        unfold ctxS1
        iintro ⟨⟨⟨Hc0, Hc1, Hc2, Hc3, Hc4, Hc5, Hc6, HS0⟩, Hg⟩, Ho, ⟨%d0, H0⟩, ⟨%d1, H1⟩, ⟨%d2, H2⟩⟩
        iapply ((kernelRun1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [Hc0 Hc1 Hc2 Hc3 Hc4 Hc5 Hc6 HS0 Hg]
        · isplitl [Hc0 Hc1 Hc2 Hc3 Hc4 Hc5 Hc6 HS0]
          · isplitl [Hc0]; · iexact Hc0
            isplitl [Hc1]; · iexact Hc1
            isplitl [Hc2]; · iexact Hc2
            isplitl [Hc3]; · iexact Hc3
            isplitl [Hc4]; · iexact Hc4
            isplitl [Hc5]; · iexact Hc5
            isplitl [Hc6]; · iexact Hc6
            unfold owns; iexists _; isplitr
            swap; · iexact HS0
            ipureintro; exact sread1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t) _ _
          iexact Hg
        isplitl [Ho]; · iexact Ho
        isplitl [H0]; · iexact H0
        isplitl [H1]; · iexact H1
        iexists _; iexact H2
    · -- an inner step of a reduction
      have hz : t.val ≠ 0 := by omega
      rw [acc1_next V c t h0]
      rw [PhiS1_castSucc V c t, PhiS1_pos V c _ _ hz]
      unfold ctxS1
      iintro ⟨⟨⟨Hc0, Hc1, Hc2, Hc3, Hc4, Hc5, Hc6, HS0⟩, Hg⟩, Ho, ⟨%d0, H0⟩, ⟨%d1, H1⟩, ⟨%d2, H2⟩⟩
      iapply ((kernelRun1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (acc1 V c (t.val - 1) (Nat.lt_of_le_of_lt (Nat.sub_le _ _) t.isLt))).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [Hc0 Hc1 Hc2 Hc3 Hc4 Hc5 Hc6 HS0 Hg]
      · isplitl [Hc0 Hc1 Hc2 Hc3 Hc4 Hc5 Hc6 HS0]
        · isplitl [Hc0]; · iexact Hc0
          isplitl [Hc1]; · iexact Hc1
          isplitl [Hc2]; · iexact Hc2
          isplitl [Hc3]; · iexact Hc3
          isplitl [Hc4]; · iexact Hc4
          isplitl [Hc5]; · iexact Hc5
          isplitl [Hc6]; · iexact Hc6
          unfold owns; iexists _; isplitr
          swap; · iexact HS0
          ipureintro; exact sread1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (acc1 V c (t.val - 1) (Nat.lt_of_le_of_lt (Nat.sub_le _ _) t.isLt)) _ _
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's named contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold ctxS1
  iintro ⟨⟨Hc0, Hc1, Hc2, Hc3, Hc4, Hc5, Hc6, HS0⟩, Hg⟩
  isplitl [Hc0 Hc1 Hc2 Hc3 Hc4 Hc5 Hc6 HS0]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 9775 := N_1; omega)

end Cert.KernelIdeal.Hand

end
-- ==== Proof.KI.RunCond.lean ====
/- The program's run from one segment record per kernel region, with the result buffer read at the end: @main as the
   list of its host stretches and its two regions, composed by the several-regions launch; each argument array ends as
   launched (no stretch writes it, no region may change it) and the result buffer ends at the last valuation's
   contents. -/
import proofs.«427728_j5978594476045_1_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- THE CONDITIONAL RUN WITH ITS RESULT. As the conditional frame, and besides: every final memory holds the result
    buffer at what the last valuation says — the slice of what region 1 leaves — so that a value claim can be read
    off the same run. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c)) :
    θ_run defs (onTc (τ := τ) (main (F := F))) ⟨m, fun _ => 0, ρ⟩ (fun r => ∀ c : Dev nD,
      r.2.mem ((c.tc : Thread nD τ).loc main_v12) = V10 m outs c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, .rfl, .rfl, .rfl, .rfl, hpre0 c, (hpost0 c).trans (hpre1 c), hpost1 c, sep_mono .rfl (hE2 c)⟩)
    (hinit := ?_) (QY := fun c s => s.mem ((c.tc : Thread nD τ).loc main_v12) = V10 m outs c main_v12 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v12) (Finset.mem_filter.mpr ⟨StableHlo.devRef_mem_tcRefs main_v12, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c)⟩
    · iexact HSI

end Cert.KernelIdeal.Hand

end
-- ==== Proof.KI.Run.lean ====
/- The program's run: the proof data of both regions at their entry contents, each region as a segment of @main
   (its arrays split out of the unscoped buffers at entry and put back at exit, the accumulator's tracked invariant
   met at both ends by the class invariant, nothing owed), and the launch. What region 0 leaves in the message array
   and what region 1 leaves in the padded aggregate are the pipeline's write-backs folded (`Dat.arrAt`); the result
   buffer ends at the slice of the latter and the argument arrays end as launched. -/
import proofs.«427728_j5978594476045_1_alg».proof.Proof.KI.R0
import proofs.«427728_j5978594476045_1_alg».proof.Proof.KI.R1
import proofs.«427728_j5978594476045_1_alg».proof.Proof.KI.RunCond
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the regions are entered with and leave -/

/-- Region 0's entry contents: the launch memory after the host stretches before it. -/
abbrev E0 : (c : Dev nD) → (b : Ref sig .tc) → Buf (Elt F) ((c : Thread nD τ).loc b) := fun c b => V7 m c b

/-- What region 0 leaves in the message array: its write-backs folded over the entry contents. -/
def o8 (c : Dev nD) : Buf (Elt F) ((c : Thread nD τ).loc main_v10) := (dat0 (E0 m) c).arrAt 2 cfg0.N

/-- Region 1's entry contents: region 0's, with the message array at what region 0 left. -/
abbrev W8 (c : Dev nD) : Valuation τ sig (Elt F) := Function.update (V7 m c) main_v10 (o8 m c)
abbrev E1 : (c : Dev nD) → (b : Ref sig .tc) → Buf (Elt F) ((c : Thread nD τ).loc b) := fun c b => W8 m c b

/-- What region 1 leaves in the padded aggregate. -/
def o9 (c : Dev nD) : Buf (Elt F) ((c : Thread nD τ).loc main_v11) := (dat1 (E1 m) c).arrAt 2 cfg1.N

/-- The two arrays the regions change, as the unknowns of the generated valuations: the message array after region 0,
    the padded aggregate after region 1; any other reference at its launch contents (never read). -/
def outs : Outs (F := F) := fun _ r c =>
  if h10 : r = main_v10 then h10 ▸ o8 m c
  else if h11 : r = main_v11 then h11 ▸ o9 m c
  else m ((c : Thread nD τ).loc r)

theorem outs_v10 (n : ℕ) (c : Dev nD) : outs m n main_v10 c = o8 m c := by
  unfold outs; rw [dif_pos rfl]
theorem outs_v11 (n : ℕ) (c : Dev nD) : outs m n main_v11 c = o9 m c := by
  unfold outs; rw [dif_neg (by decide), dif_pos rfl]

theorem V8_eq (c : Dev nD) : V8 m (outs m) c = W8 m c := by
  unfold V8 W8; rw [outs_v10]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

/-! ## What each region's exit contents are, reference by reference -/

theorem hF0 (c : Dev nD) (w : Fin cfg0.W) : (pdats m 0 c).arrAt w cfg0.N = V8 m (outs m) c (Pipeline.arrRef spec0 w) := by
  rw [V8_eq]
  match w with
  | ⟨0, _⟩ => exact ((dat0 (E0 m) c).arrAt_in 0 rfl _).trans ((A_eq0 (E0 m) c 0).trans (Function.update_of_ne (StableHlo.devRef_ne_of_ne (by decide)) _ _).symm)
  | ⟨1, _⟩ => exact ((dat0 (E0 m) c).arrAt_in 1 rfl _).trans ((A_eq0 (E0 m) c 1).trans (Function.update_of_ne (StableHlo.devRef_ne_of_ne (by decide)) _ _).symm)
  | ⟨2, _⟩ => exact (Function.update_self (Proc.devRef .tc main_v10 : DevRef τ sig) (o8 m c) (V7 m c)).symm

theorem hrest0 (c : Dev nD) : ∀ b, b ∉ Finset.univ.image (Pipeline.arrRef spec0) → V8 m (outs m) c b = V7 m c b :=
  fun b hb => V8_of m (outs m) c b (by
    intro h
    rw [List.mem_singleton] at h
    exact hb (Finset.mem_image.mpr ⟨2, Finset.mem_univ _, h.symm⟩))

theorem hF1 (c : Dev nD) (w : Fin cfg1.W) : (pdats m 1 c).arrAt w cfg1.N = V9 m (outs m) c (Pipeline.arrRef spec1 w) := by
  match w with
  | ⟨0, _⟩ => exact ((dat1 (E1 m) c).arrAt_in 0 rfl _).trans ((A_eq1 (E1 m) c 0).trans (((V9_of m (outs m) c main_v9 (by decide)).trans (congrFun (V8_eq m c) _)).symm))
  | ⟨1, _⟩ => exact ((dat1 (E1 m) c).arrAt_in 1 rfl _).trans ((A_eq1 (E1 m) c 1).trans (((V9_of m (outs m) c main_v10 (by decide)).trans (congrFun (V8_eq m c) _)).symm))
  | ⟨2, _⟩ => exact ((Function.update_self (Proc.devRef .tc main_v11 : DevRef τ sig) (outs m 9 main_v11 c) (V8 m (outs m) c)).trans (outs_v11 m 9 c)).symm

theorem hrest1 (c : Dev nD) : ∀ b, b ∉ Finset.univ.image (Pipeline.arrRef spec1) → V9 m (outs m) c b = V8 m (outs m) c b :=
  fun b hb => V9_of m (outs m) c b (by
    intro h
    rw [List.mem_singleton] at h
    exact hb (Finset.mem_image.mpr ⟨2, Finset.mem_univ _, h.symm⟩))

/-! ## The regions as segments -/

set_option backward.isDefEq.respectTransparency.types false in
/-- REGION 0 over the thread state: entered from every unscoped buffer at the contents after the host stretches,
    left with the message array at its write-backs folded. The generator register goes into the class invariant
    and comes back; the tracked accumulator is met by the class invariant at both ends. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun c t => owed0 (E0 m) c t
  pre c := iprop(StableHlo.held (c : Thread nD τ) (Pipeline.ucRefs τ sig) (V7 m c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      (fun w => share0 (E0 m) c w) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((recorded0 (E0 m) c 0).symm ▸ Set.mem_univ x)
      rw [show (pdats m 0 c).owed 0 = 0 from owed0 (E0 m) c 0]
      iexact HO
    isplitl [Hp]; · iexact Hp
    iexact Hrest
  hin c := by
    refine BI.Entails.trans (?_ : _ ⊢ (Pipeline.ΦA spec0 c : sProp 𝕄)) (hin0 (E0 m) c)
    unfold Pipeline.ΦA
    iintro ⟨Hp, -, Hr⟩
    isplitl [Hr]; · iexact Hr
    iexact Hp
  hout c := by
    rw [Pipeline.ownSems0_none]
    refine BI.Entails.trans (hout0 (E0 m) c) (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) (fun w => share0 (E0 m) c w)
      (E0 m c) (fun b => V8 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 0 c).owed (Fin.last _) = 0 from owed0 (E0 m) c _]
    iexact HO

set_option backward.isDefEq.respectTransparency.types false in
/-- REGION 1 over the thread state: entered from region 0's exit contents, left with the padded aggregate at its
    write-backs folded. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun c t => owed1 (E1 m) c t
  pre c := iprop(StableHlo.held (c : Thread nD τ) (Pipeline.ucRefs τ sig) (V8 m (outs m) c) ∗ R c)
  post c := iprop(StableHlo.held (c : Thread nD τ) (Pipeline.ucRefs τ sig) (V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none, V8_eq]
    have hsplit := Pipeline.arrays_of_unscopedBufs (p := 1) (pcfgs (F := F)) adm (pdats m) launch1.win launch1.arr_whole c
      (fun w => share1 (E1 m) c w) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((recorded1 (E1 m) c 0).symm ▸ Set.mem_univ x)
      rw [show (pdats m 1 c).owed 0 = 0 from owed1 (E1 m) c 0]
      iexact HO
    isplitl [Hp]; · iexact Hp
    iexact Hrest
  hin c := by
    refine BI.Entails.trans (?_ : _ ⊢ (Pipeline.ΦA spec1 c : sProp 𝕄)) (hin1 (E1 m) c)
    unfold Pipeline.ΦA
    iintro ⟨Hp, -, Hr⟩
    isplitl [Hr]; · iexact Hr
    iexact Hp
  hout c := by
    rw [Pipeline.ownSems0_none]
    refine BI.Entails.trans (hout1 (E1 m) c) (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) (fun w => share1 (E1 m) c w)
      (E1 m c) (fun b => V9 m (outs m) c b) ((pdats m 1 c).arrAt · cfg1.N) (hF1 m c)
      (fun b hb => (hrest1 m c b hb).trans (congrFun (V8_eq m c) _))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m 1 c).owed (Fin.last _) = 0 from owed1 (E1 m) c _]
    iexact HO

/-! ## The launch -/

/-- What the launch deals each core, without its buffers, gives the state that rides beside them. -/
theorem R_of_launch (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ iprop(emp)) : sProp 𝕄) ⊢ R c := by
  iintro ⟨-, HO, -, Hp, -⟩
  isplitl [Hp]; · iexists _; iexact Hp
  iexists ∅; iexact HO

set_option backward.isDefEq.respectTransparency.types false in
/-- THE RUN. From any memory with zero counters every weakly fair execution of @main terminates, the result buffer
    ends at the last valuation's contents and each argument array as launched. -/
theorem run_main : θ_run defs (onTc (τ := τ) (main (F := F))) ⟨m, fun _ => 0, ρ⟩ (fun r => ∀ c : Dev nD,
      r.2.mem ((c.tc : Thread nD τ).loc main_v12) = V10 m (outs m) c main_v12
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have h : (bigSep Finset.univ (fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ iprop(emp))) : sProp 𝕄)
          ⊢ bigSep Finset.univ (fun c : Dev nD => R c) :=
        bigSep_mono fun c _ => R_of_launch (F := F) ρ c
      iintro ⟨H, -⟩
      imodintro
      iapply h
      iexact H)
    (fun c => by iintro ⟨-, HO⟩; iexact HO)
    (reg0 m) (fun c => .rfl) (fun c => .rfl)
    (reg1 m) (fun c => .rfl) (fun c => .rfl)

end Cert.KernelIdeal.Hand

end
-- ==== Proof.KI.Val0Idx.lean ====
/- Region 0's index maps in closed form over its grid: point `t` of the 391 x 25 grid has edge block `t / 25` and
   node block `t % 25`; the index row's block moves with the edge block, the node features' block with the node
   block, the output's block with the edge block. Each fact is decided once over the 9775 points. -/
import proofs.«427728_j5978594476045_1_alg».proof.Proof.KI.R0Defs

set_option maxRecDepth 16384

noncomputable section

namespace Cert.KernelIdeal.Hand

open Idealize.ShloMosaic Idealize.ShloMosaic.TcCoe
open Idealize.ShloMosaic.Pipeline (Dat Cfg Window)
open Cert.KernelIdeal Cert.KernelIdeal.Gen

/-- The number of points of region 0's grid. -/
theorem N0_eq : cfg0.N = 9775 := by decide +kernel

/-- The reduction coordinate of point `t` is `t % 25`. -/
theorem coords0_1 : ∀ t : Fin cfg0.N, ((grid0.coords t) 1).val = t.val % 25 :=
  (by decide +kernel : ∀ t : Fin grid0.N, ((grid0.coords t) 1).val = t.val % 25)

/-- The index row's block at point `t`: row block 0, column block `t / 25`. -/
theorem index0_0 : ∀ t : Fin cfg0.N, win0_0.index t (0 : Fin 2) = 0 ∧ win0_0.index t (1 : Fin 2) = t.val / 25 :=
  (by decide +kernel : ∀ t : Fin grid0.N, win0_0.index t (0 : Fin 2) = 0 ∧ win0_0.index t (1 : Fin 2) = t.val / 25)

/-- The node features' block at point `t`: row block `t % 25`, column block 0. -/
theorem index0_1 : ∀ t : Fin cfg0.N, win0_1.index t (0 : Fin 2) = t.val % 25 ∧ win0_1.index t (1 : Fin 2) = 0 :=
  (by decide +kernel : ∀ t : Fin grid0.N, win0_1.index t (0 : Fin 2) = t.val % 25 ∧ win0_1.index t (1 : Fin 2) = 0)

/-- The output's block at point `t`: row block `t / 25`, column block 0. -/
theorem index0_2 : ∀ t : Fin cfg0.N, win0_2.index t (0 : Fin 2) = t.val / 25 ∧ win0_2.index t (1 : Fin 2) = 0 :=
  (by decide +kernel : ∀ t : Fin grid0.N, win0_2.index t (0 : Fin 2) = t.val / 25 ∧ win0_2.index t (1 : Fin 2) = 0)

end Cert.KernelIdeal.Hand

end
-- ==== Proof.KI.PayIdeal.lean ====
import proofs.«427728_j5978594476045_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen

/-! # The kernel bodies' arithmetic, read at an index, at the ideal values

At the ideal values a float is an extended real, a change of float format is the identity, a matrix product into
a zero accumulator is the plain sum over the contracted axis, and the conversion of the word `0` / `1` is the real
`0` / `1`. Each region's accumulating store adds to the accumulator the product of a one-hot matrix with a block:
`onehot[q, r] = [node word of row q = word listed at column r]`, the node word of row `q` of step `c` being
`c * 2048 + q` as a 32-bit word. Region 0 contracts the node rows `q` (a gather of the block's rows to the edges),
region 1 contracts the edges `r` (a scatter-add of the messages to the nodes). Since `1 * x = x` and `0 * x = 0`
for every extended real, each product entry is the summand where the words agree and `0` elsewhere. -/

/-! ## A column broadcast along the rows -/

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The zero payloads and the change of format -/

/-- Region 0's initial store: the zero block. -/
theorem k0_pay1_apply (y : S2048x128.Idx) : k0_pay1 (F := Ideal) y = 0 := by
  unfold k0_pay1
  show shapeCast S2048x128 (broadcast S2048x128 (Scalar.ofBits (F := Ideal) .f32 0x00000000#32)) shapeCasts_S2048x128_S2048x128 y = 0
  rw [shapeCast_self]
  exact Ideal.ofBits_zero_f32

/-- Region 1's initial store: the zero block. -/
theorem k1_pay1_apply (y : S2048x128.Idx) : k1_pay1 (F := Ideal) y = 0 := by
  unfold k1_pay1
  show shapeCast S2048x128 (broadcast S2048x128 (Scalar.ofBits (F := Ideal) .f32 0x00000000#32)) shapeCasts_S2048x128_S2048x128 y = 0
  rw [shapeCast_self]
  exact Ideal.ofBits_zero_f32

/-- Region 0's final store: the accumulator, its change of format being the identity at the ideal values. -/
theorem k0_pay3_apply (v26 : Vec Ideal S2048x128 .f32) (y : S2048x128.Idx) : k0_pay3 (F := Ideal) v26 y = v26 y := rfl

/-! ## The words -/

/-- The node word of row `q` of step `c`: the step's base `c * 2048` plus `q`, as 32-bit words. -/
theorem node_word (c q : ℕ) :
    IntOp.addi (Scalar.muli (BitVec.ofNat 32 c) 2048#32) (BitVec.ofNat 32 q) = BitVec.ofNat 32 (c * 2048 + q) := by
  show BitVec.ofNat 32 c * BitVec.ofNat 32 2048 + BitVec.ofNat 32 q = _
  rw [← BitVec.ofNat_mul, ← BitVec.ofNat_add]

/-- The bit of an equality of words, widened and converted, is the real `1` or `0`. -/
theorem indicator_word (x y : BitVec 32) :
    FloatOps.sitofp (F := Ideal) .f32 ((IntOp.cmpi .eq x y).setWidth 32) = if x = y then 1 else 0 := by
  show (((((BitVec.ofBool (x == y)).setWidth 32).toInt : ℝ)) : EReal) = _
  by_cases h : x = y
  · have e : ((BitVec.ofBool true).setWidth 32).toInt = 1 := by decide
    rw [if_pos h, beq_iff_eq.mpr h, e, Int.cast_one, EReal.coe_one]
  · have e : ((BitVec.ofBool false).setWidth 32).toInt = 0 := by decide
    rw [if_neg h, beq_eq_false_iff_ne.mpr h, e, Int.cast_zero, EReal.coe_zero]

/-! ## The two products read at an index

Region 0 contracts the left operand's FIRST axis (the node rows), region 1 its SECOND (the edges); both contract
the right operand's first axis. One lemma per operand axis, at the literal axes. -/

theorem lhs_r0_0 (i : S2048x128.Idx) (q : dot_S2048x2048_S2048x128_S2048x128_0_0_1_1_n_n.contr.Idx) :
    (dot_S2048x2048_S2048x128_S2048x128_0_0_1_1_n_n.lhsIdx i q 0).val = (q ⟨0, by decide⟩).val :=
  dot_S2048x2048_S2048x128_S2048x128_0_0_1_1_n_n.lhsIdx_val_of_single rfl i q

theorem lhs_r0_1 (i : S2048x128.Idx) (q : dot_S2048x2048_S2048x128_S2048x128_0_0_1_1_n_n.contr.Idx) :
    (dot_S2048x2048_S2048x128_S2048x128_0_0_1_1_n_n.lhsIdx i q 1).val = (i 0).val := by
  unfold DotDims.lhsIdx
  rw [dif_neg (show ¬(1 : Fin S2048x2048.rank) ∈ dot_S2048x2048_S2048x128_S2048x128_0_0_1_1_n_n.lhsBatch by decide),
    dif_pos (show (1 : Fin S2048x2048.rank) ∈ dot_S2048x2048_S2048x128_S2048x128_0_0_1_1_n_n.lhsNonContracting by decide)]
  rfl

theorem rhs_r0_0 (i : S2048x128.Idx) (q : dot_S2048x2048_S2048x128_S2048x128_0_0_1_1_n_n.contr.Idx) :
    (dot_S2048x2048_S2048x128_S2048x128_0_0_1_1_n_n.rhsIdx i q 0).val = (q ⟨0, by decide⟩).val :=
  dot_S2048x2048_S2048x128_S2048x128_0_0_1_1_n_n.rhsIdx_val_of_single rfl i q

theorem rhs_r0_1 (i : S2048x128.Idx) (q : dot_S2048x2048_S2048x128_S2048x128_0_0_1_1_n_n.contr.Idx) :
    (dot_S2048x2048_S2048x128_S2048x128_0_0_1_1_n_n.rhsIdx i q 1).val = (i 1).val := by
  unfold DotDims.rhsIdx
  rw [dif_neg (show ¬(1 : Fin S2048x128.rank) ∈ dot_S2048x2048_S2048x128_S2048x128_0_0_1_1_n_n.rhsBatch by decide),
    dif_pos (show (1 : Fin S2048x128.rank) ∈ dot_S2048x2048_S2048x128_S2048x128_0_0_1_1_n_n.rhsNonContracting by decide)]
  rfl

/-- Region 0's product into the zero accumulator: the sum over the node rows `q` of `A[q, r] * B[q, d]`. -/
theorem matmul_r0_apply (A : FVec Ideal S2048x2048 .bf16) (B : FVec Ideal S2048x128 .bf16) (r : Fin 2048) (d : Fin 128) :
    matmul dot_S2048x2048_S2048x128_S2048x128_0_0_1_1_n_n none A B (constant (F := Ideal) S2048x128 .f32 0x00000000#32) (ix2 r d)
      = ∑ q : Fin 2048, A (ix2 q r) * B (ix2 q d) := by
  refine (Ideal.matmul_constant_zero_apply dot_S2048x2048_S2048x128_S2048x128_0_0_1_1_n_n none A B (ix2 r d)).trans ?_
  rw [← Equiv.sum_comp (contrEquiv1 dot_S2048x2048_S2048x128_S2048x128_0_0_1_1_n_n 2048 rfl rfl).symm]
  refine Finset.sum_congr rfl fun k _ => ?_
  have hk := contrEquiv1_symm_val dot_S2048x2048_S2048x128_S2048x128_0_0_1_1_n_n 2048 rfl rfl k
  have el : dot_S2048x2048_S2048x128_S2048x128_0_0_1_1_n_n.lhsIdx (ix2 r d) ((contrEquiv1 dot_S2048x2048_S2048x128_S2048x128_0_0_1_1_n_n 2048 rfl rfl).symm k) = ix2 k r :=
    funext fun a => Fin.ext (by
      match a with
      | ⟨0, _⟩ => exact (lhs_r0_0 _ _).trans hk
      | ⟨1, _⟩ => exact lhs_r0_1 _ _)
  have er : dot_S2048x2048_S2048x128_S2048x128_0_0_1_1_n_n.rhsIdx (ix2 r d) ((contrEquiv1 dot_S2048x2048_S2048x128_S2048x128_0_0_1_1_n_n 2048 rfl rfl).symm k) = ix2 k d :=
    funext fun a => Fin.ext (by
      match a with
      | ⟨0, _⟩ => exact (rhs_r0_0 _ _).trans hk
      | ⟨1, _⟩ => exact rhs_r0_1 _ _)
  rw [el, er]

theorem lhs_r1_0 (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide),
    dif_pos (show (0 : Fin S2048x2048.rank) ∈ dot_S2048x2048_S2048x128_S2048x128_1_0_0_1_n_n.lhsNonContracting by decide)]
  rfl

theorem lhs_r1_1 (i : S2048x128.Idx) (q : dot_S2048x2048_S2048x128_S2048x128_1_0_0_1_n_n.contr.Idx) :
    (dot_S2048x2048_S2048x128_S2048x128_1_0_0_1_n_n.lhsIdx i q 1).val = (q ⟨0, by decide⟩).val :=
  dot_S2048x2048_S2048x128_S2048x128_1_0_0_1_n_n.lhsIdx_val_of_single rfl i q

theorem rhs_r1_0 (i : S2048x128.Idx) (q : dot_S2048x2048_S2048x128_S2048x128_1_0_0_1_n_n.contr.Idx) :
    (dot_S2048x2048_S2048x128_S2048x128_1_0_0_1_n_n.rhsIdx i q 0).val = (q ⟨0, by decide⟩).val :=
  dot_S2048x2048_S2048x128_S2048x128_1_0_0_1_n_n.rhsIdx_val_of_single rfl i q

theorem rhs_r1_1 (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide),
    dif_pos (show (1 : Fin S2048x128.rank) ∈ dot_S2048x2048_S2048x128_S2048x128_1_0_0_1_n_n.rhsNonContracting by decide)]
  rfl

/-- Region 1's product into the zero accumulator: the sum over the edges `r` of `A[q, r] * B[r, d]`. -/
theorem matmul_r1_apply (A : FVec Ideal S2048x2048 .bf16) (B : FVec Ideal S2048x128 .bf16) (q : Fin 2048) (d : Fin 128) :
    matmul dot_S2048x2048_S2048x128_S2048x128_1_0_0_1_n_n none A B (constant (F := Ideal) S2048x128 .f32 0x00000000#32) (ix2 q d)
      = ∑ r : Fin 2048, A (ix2 q r) * B (ix2 r d) := by
  refine (Ideal.matmul_constant_zero_apply dot_S2048x2048_S2048x128_S2048x128_1_0_0_1_n_n none A B (ix2 q d)).trans ?_
  rw [← Equiv.sum_comp (contrEquiv1 dot_S2048x2048_S2048x128_S2048x128_1_0_0_1_n_n 2048 rfl rfl).symm]
  refine Finset.sum_congr rfl fun k _ => ?_
  have hk := contrEquiv1_symm_val dot_S2048x2048_S2048x128_S2048x128_1_0_0_1_n_n 2048 rfl rfl k
  have el : dot_S2048x2048_S2048x128_S2048x128_1_0_0_1_n_n.lhsIdx (ix2 q d) ((contrEquiv1 dot_S2048x2048_S2048x128_S2048x128_1_0_0_1_n_n 2048 rfl rfl).symm k) = ix2 q k :=
    funext fun a => Fin.ext (by
      match a with
      | ⟨0, _⟩ => exact lhs_r1_0 _ _
      | ⟨1, _⟩ => exact (lhs_r1_1 _ _).trans hk)
  have er : dot_S2048x2048_S2048x128_S2048x128_1_0_0_1_n_n.rhsIdx (ix2 q d) ((contrEquiv1 dot_S2048x2048_S2048x128_S2048x128_1_0_0_1_n_n 2048 rfl rfl).symm k) = ix2 k d :=
    funext fun a => Fin.ext (by
      match a with
      | ⟨0, _⟩ => exact (rhs_r1_0 _ _).trans hk
      | ⟨1, _⟩ => exact rhs_r1_1 _ _)
  rw [el, er]

/-! ## The one-hot matrix at an index -/

/-- The one-hot matrix at `(q, r)`, for the step whose base is `c * 2048`: the real `1` where the node word of
    row `q` is the word listed at column `r`, else `0`. -/
theorem onehot_apply (c : ℕ) (v7 : Vec Ideal S1x2048 .i32) (q r : Fin 2048) :
    (truncf .bf16 (sitofp (F := Ideal) .f32 (extui 32 (cmpi .eq
        (broadcastTo S2048x2048 (addi (broadcast S2048x1 (Scalar.muli (BitVec.ofNat 32 c) 2048#32))
          (iota .tc S2048x1 32 [0] iota_S2048x1_d0_w32)) broadcasts_S2048x1_S2048x2048)
        (broadcastTo S2048x2048 (shapeCast S1x2048 v7 shapeCasts_S1x2048_S1x2048) broadcasts_S1x2048_S2048x2048))
      natLt_1_32)) bitsLt_bf16_f32 : FVec Ideal S2048x2048 .bf16) (ix2 q r)
      = if BitVec.ofNat 32 (c * 2048 + q.val) = v7 (ix2 (0 : Fin 1) r) then 1 else 0 := by
  rw [shapeCast_self]
  show FloatOps.sitofp (F := Ideal) .f32 ((IntOp.cmpi .eq
      (broadcastTo S2048x2048 (addi (broadcast S2048x1 (Scalar.muli (BitVec.ofNat 32 c) 2048#32))
          (iota .tc S2048x1 32 [0] iota_S2048x1_d0_w32)) broadcasts_S2048x1_S2048x2048 (ix2 q r))
      (broadcastTo S2048x2048 v7 broadcasts_S1x2048_S2048x2048 (ix2 q r))).setWidth 32) = _
  rw [broadcastTo_a1_ab_apply, broadcastTo_1b_ab_apply, indicator_word]
  show (if IntOp.addi (Scalar.muli (BitVec.ofNat 32 c) 2048#32)
      (iota .tc S2048x1 32 [0] iota_S2048x1_d0_w32 (ix2 q (0 : Fin 1))) = v7 (ix2 (0 : Fin 1) r) then (1 : EReal) else 0) = _
  rw [iota_single_apply]
  show (if IntOp.addi (Scalar.muli (BitVec.ofNat 32 c) 2048#32) (BitVec.ofNat 32 q.val) = v7 (ix2 (0 : Fin 1) r)
      then (1 : EReal) else 0) = _
  rw [node_word]

/-- An indicator times a value is the value where the condition holds, else zero: for every extended real. -/
theorem indicator_mul (p : Prop) [Decidable p] (x : EReal) : (if p then (1 : EReal) else 0) * x = if p then x else 0 := by
  split
  · exact one_mul x
  · exact zero_mul x

/-! ## The accumulating payloads -/

/-- Region 0's accumulating store at edge `r`, feature `d`: the accumulator plus the block's rows `q` whose node word is
    the source word listed for `r`. -/
theorem k0_pay2_apply (i : grid0.Coords) (v7 : Vec Ideal S1x2048 .i32) (v15 : Vec Ideal S2048x128 .bf16)
    (v18 : Vec Ideal S2048x128 .f32) (r : Fin 2048) (d : Fin 128) :
    k0_pay2 (F := Ideal) i v7 v15 v18 (ix2 r d)
      = v18 (ix2 r d) + ∑ q : Fin 2048,
          (if BitVec.ofNat 32 ((i 1).val * 2048 + q.val) = v7 (ix2 (0 : Fin 1) r) then v15 (ix2 q d) else 0) := by
  unfold k0_pay2
  dsimp only
  refine (congrFun (shapeCast_self _ _) (ix2 r d)).trans ?_
  refine (addf_apply _ _ _).trans ?_
  refine congrArg (v18 (ix2 r d) + ·) ?_
  refine (matmul_r0_apply _ _ r d).trans ?_
  refine Finset.sum_congr rfl fun q _ => ?_
  rw [onehot_apply, shapeCast_self, indicator_mul]

/-- Region 1's accumulating store at node row `q`, feature `d`: the accumulator plus the messages of the edges `r` whose
    listed destination word is the node word of `q`. -/
theorem k1_pay2_apply (i : grid1.Coords) (v7 : Vec Ideal S1x2048 .i32) (v15 : Vec Ideal S2048x128 .f32)
    (v16 : Vec Ideal S2048x128 .bf16) (q : Fin 2048) (d : Fin 128) :
    k1_pay2 (F := Ideal) i v7 v15 v16 (ix2 q d)
      = v15 (ix2 q d) + ∑ r : Fin 2048,
          (if BitVec.ofNat 32 ((i 0).val * 2048 + q.val) = v7 (ix2 (0 : Fin 1) r) then v16 (ix2 r d) else 0) := by
  unfold k1_pay2
  dsimp only
  refine (congrFun (shapeCast_self _ _) (ix2 q d)).trans ?_
  refine (addf_apply _ _ _).trans ?_
  refine congrArg (v15 (ix2 q d) + ·) ?_
  refine (matmul_r1_apply _ _ q d).trans ?_
  refine Finset.sum_congr rfl fun r _ => ?_
  rw [onehot_apply, shapeCast_self, indicator_mul]

end Cert.KernelIdeal.Hand
-- ==== Proof.KI.Entry.lean ====
/- What the two regions find in their windows' arrays: the host stretches before the regions, read back as terms of the
   launch memory. The source row and the destination row of the edge list, each padded with the word -1 to the padded
   edge count and laid as one row; the node features narrowed (the identity at the ideal instance) and padded with
   zero rows to the padded node count. -/
import proofs.«427728_j5978594476045_1_alg».proof.Proof.Gen.KernelIdeal.Regions
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

variable (m : (ℓ : Loc nD τ sig) → Buf (Elt F) ℓ)

/-- Row 0 (the destinations) and row 1 (the sources) of the edge list, each as a vector of 800000 words. -/
def edgeRow0 (ei : IVec S2x800000 32) : IVec S800000 32 :=
  shapeCast S800000 (extractStridedSlice S1x800000 ![0, 0] ei slices_S2x800000_S1x800000_0_0) shapeCasts_S1x800000_S800000
def edgeRow1 (ei : IVec S2x800000 32) : IVec S800000 32 :=
  shapeCast S800000 (extractStridedSlice S1x800000 ![1, 0] ei slices_S2x800000_S1x800000_1_0) shapeCasts_S1x800000_S800000

/-- A row of the edge list padded with the word -1 up to 800768 and laid as one row of a [1, 800768] array. -/
def paddedRow (v : IVec S800000 32) : IVec S1x800768 32 :=
  shapeCast S1x800768 (pad S800768 ![0] ![768] ![0] v (constantI S_ 32 4294967295#32) pads_S800000_S800768_07680 h_S_) shapeCasts_S800768_S1x800768

/-- The node features narrowed and padded with zero rows up to 51200. -/
def paddedX (x : FVec F S50000x128 .f32) : FVec F S51200x128 .bf16 :=
  pad S51200x128 ![0, 0] ![1200, 0] ![0, 0] (truncf .bf16 x bitsLt_bf16_f32) (sitofp .bf16 (constantI S_ 32 0#32)) pads_S50000x128_S51200x128_012000_000 h_S_

/-- Region 0's index window reads the padded SOURCE row. -/
theorem entry_v7 (c : Dev nD) : V7 m c main_v7 = paddedRow (edgeRow1 (m ((c : Thread nD τ).loc main_arg1))) := by
  show StableHlo.after hostOps0_6 (StableHlo.after hostOps0_5 (StableHlo.after hostOps0_4 (StableHlo.after hostOps0_3 (StableHlo.after hostOps0_2 (StableHlo.after hostOps0_1 (StableHlo.after hostOps0 (fun b => m (c, b)))))))) (Proc.devRef .tc main_v7) = _
  after_results
  simp only [cast_eq, id]
  unfold paddedRow edgeRow1
  rfl

/-- Region 0's block window reads the padded node features. -/
theorem entry_v5 (c : Dev nD) : V7 m c main_v5 = paddedX (m ((c : Thread nD τ).loc main_arg0)) := by
  show StableHlo.after hostOps0_6 (StableHlo.after hostOps0_5 (StableHlo.after hostOps0_4 (StableHlo.after hostOps0_3 (StableHlo.after hostOps0_2 (StableHlo.after hostOps0_1 (StableHlo.after hostOps0 (fun b => m (c, b)))))))) (Proc.devRef .tc main_v5) = _
  after_results
  simp only [cast_eq, id]
  unfold paddedX
  rfl

/-- Region 1's index window reads the padded DESTINATION row. -/
theorem entry_v9 (c : Dev nD) : V7 m c main_v9 = paddedRow (edgeRow0 (m ((c : Thread nD τ).loc main_arg1))) := by
  show StableHlo.after hostOps0_6 (StableHlo.after hostOps0_5 (StableHlo.after hostOps0_4 (StableHlo.after hostOps0_3 (StableHlo.after hostOps0_2 (StableHlo.after hostOps0_1 (StableHlo.after hostOps0 (fun b => m (c, b)))))))) (Proc.devRef .tc main_v9) = _
  after_results
  simp only [cast_eq, id]
  unfold paddedRow edgeRow0
  rfl

end Cert.KernelIdeal.Hand

end
-- ==== Proof.Spec.lean ====
/- The aggregation both programs compute, as one function of the two argument arrays: node `n` receives, feature by
   feature, the rows of `x` named by the sources of the edges whose destination is `n`. A source word that names no
   row of `x` contributes a zero row; a destination word that names no node is met by no `n`. The sum is over the
   extended reals, where addition is commutative and associative whatever the summands. -/
import Idealize.ShloMosaic.PureOps.Ideal
import Idealize.ShloMosaic.Lib.ValueIdx

noncomputable section

namespace Cert.Spec

open Idealize.ShloMosaic Idealize.ShloMosaic.ValueIdx

/-- The node features: 50000 rows of 128. -/
abbrev SX : Shape := ⟨2, ![50000, 128]⟩
/-- The edge list: row 0 the destinations, row 1 the sources, 800000 edges. -/
abbrev SE : Shape := ⟨2, ![2, 800000]⟩
/-- The messages, one row per edge slot of the padded edge list. -/
abbrev SM : Shape := ⟨2, ![800768, 128]⟩
/-- The aggregate over the padded node range. -/
abbrev SO : Shape := ⟨2, ![51200, 128]⟩

/-- Row `s` of `x` at feature `d`, or zero when the word `s` (read unsigned) names no row. -/
def rowOr0 (x : SX.Idx → EReal) (s : BitVec 32) (d : Fin 128) : EReal :=
  if h : s.toNat < 50000 then x (ix2 ⟨s.toNat, h⟩ d) else 0

/-- The message of edge slot `e`: its source's row; a padding slot carries nothing. -/
def msgF (x : SX.Idx → EReal) (ei : SE.Idx → BitVec 32) : SM.Idx → EReal :=
  fun i => if h : (i 0).val < 800000 then rowOr0 x (ei (ix2 (1 : Fin 2) ⟨(i 0).val, h⟩)) (i 1) else 0

/-- What node slot `n` receives: the messages of the edges whose destination word is `n`. -/
def outF (x : SX.Idx → EReal) (ei : SE.Idx → BitVec 32) : SO.Idx → EReal :=
  fun i => ∑ e : Fin 800000, if ei (ix2 (0 : Fin 2) e) = BitVec.ofNat 32 (i 0).val then rowOr0 x (ei (ix2 (1 : Fin 2) e)) (i 1) else 0

/-- The aggregation over the nodes proper. -/
def G (x : SX.Idx → EReal) (ei : SE.Idx → BitVec 32) : SX.Idx → EReal :=
  fun i => ∑ e : Fin 800000, if ei (ix2 (0 : Fin 2) e) = BitVec.ofNat 32 (i 0).val then rowOr0 x (ei (ix2 (1 : Fin 2) e)) (i 1) else 0

/-- The aggregation is the padded aggregate read at a node proper. -/
theorem G_eq_outF (x : SX.Idx → EReal) (ei : SE.Idx → BitVec 32) (i : SX.Idx) :
    G x ei i = outF x ei (ix2 ⟨(i 0).val, Nat.lt_trans (i 0).isLt (by decide)⟩ (i 1)) := rfl

end Cert.Spec

end
-- ==== Proof.KI.Val0.lean ====
/- Region 0 (the gather as a one-hot product) at the ideal values: what its output array holds after all its
   write-backs, as one function of the two arrays it reads. -/
import proofs.«427728_j5978594476045_1_alg».proof.Proof.KI.R0
import proofs.«427728_j5978594476045_1_alg».proof.Proof.KI.Val0Idx
import proofs.«427728_j5978594476045_1_alg».proof.Proof.KI.PayIdeal
import proofs.«427728_j5978594476045_1_alg».proof.Proof.KI.Entry
import proofs.«427728_j5978594476045_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

-- the TensorCore's buffer contents when the region is entered, at the ideal values
variable (V : (c : Dev nD) → (b : Ref sig .tc) → Buf (Elt Ideal) ((c : Thread nD τ).loc b))

/-! ## The two arrays the region reads, as functions of a natural position -/

/-- The word the index row lists at edge slot `e` (the word 0 past the row's end, never read). -/
def word0 (c : Dev nD) (e : ℕ) : BitVec 32 :=
  if h : e < 800768 then (V c main_v7 : S1x800768.Idx → BitVec 32) (ix2 (0 : Fin 1) ⟨e, h⟩) else 0

/-- The padded node features at node slot `n`, feature `d` (zero past the last slot, never read). -/
def feat0 (c : Dev nD) (n : ℕ) (d : Fin 128) : EReal :=
  if h : n < 51200 then (V c main_v5 : S51200x128.Idx → EReal) (ix2 ⟨n, h⟩ d) else 0

/-! ## The input blocks read where they lie -/

/-- The index row's block at point `t`, column `r`: the word listed at edge slot `2048 * (t / 25) + r`. -/
theorem iblk0_0_apply (c : Dev nD) (t : Fin cfg0.N) (r : Fin 2048) :
    (iblk0 V c 0 t : Vec Ideal S1x2048 .i32) (ix2 (0 : Fin 1) r) = word0 V c (2048 * (t.val / 25) + r.val) := by
  have ht : t.val < 9775 := N0_eq ▸ t.isLt
  have he : 2048 * (t.val / 25) + r.val < 800768 := by have := r.isLt; omega
  unfold word0
  rw [dif_pos he]
  unfold iblk0
  rw [View.read_apply]
  show V c main_v7 _ = V c main_v7 _
  congr 1
  funext a
  apply Fin.ext
  match a with
  | ⟨0, _⟩ => show win0_0.index t 0 * 1 + 1 * 0 = 0; rw [(index0_0 t).1]
  | ⟨1, _⟩ => show win0_0.index t 1 * 2048 + 1 * r.val = 2048 * (t.val / 25) + r.val; rw [(index0_0 t).2]; omega

/-- The node features' block at point `t`, row `q`, feature `d`: node slot `2048 * (t % 25) + q`. -/
theorem iblk0_1_apply (c : Dev nD) (t : Fin cfg0.N) (q : Fin 2048) (d : Fin 128) :
    (iblk0 V c 1 t : Vec Ideal S2048x128 .bf16) (ix2 q d) = feat0 V c (2048 * (t.val % 25) + q.val) d := by
  have hn : 2048 * (t.val % 25) + q.val < 51200 := by have := q.isLt; omega
  unfold feat0
  rw [dif_pos hn]
  unfold iblk0
  rw [View.read_apply]
  show V c main_v5 _ = V c main_v5 _
  congr 1
  funext a
  apply Fin.ext
  match a with
  | ⟨0, _⟩ => show win0_1.index t 0 * 2048 + 1 * q.val = 2048 * (t.val % 25) + q.val; rw [(index0_1 t).1]; omega
  | ⟨1, _⟩ => show win0_1.index t 1 * 128 + 1 * d.val = d.val; rw [(index0_1 t).2]; omega

/-! ## The accumulator after each point -/

/-- What node slot `n` adds, at feature `d`, to an edge slot whose listed word is `w`: its feature where `n`, as a
    32-bit word, is `w`, and nothing otherwise. -/
def term0 (c : Dev nD) (w : BitVec 32) (d : Fin 128) (n : ℕ) : EReal :=
  if BitVec.ofNat 32 n = w then feat0 V c n d else 0

/-- One step of the accumulation at row `r`, feature `d`: the operand plus the step's 2048 node slots' terms. -/
theorem step0_apply (c : Dev nD) (t : Fin cfg0.N) (acc : Vec Ideal S2048x128 .f32) (r : Fin 2048) (d : Fin 128) :
    k0_pay2 (F := Ideal) (grid0.coords t) (iblk0 V c 0 t) (iblk0 V c 1 t) acc (ix2 r d)
      = acc (ix2 r d) + ∑ q : Fin 2048,
          term0 V c (word0 V c (2048 * (t.val / 25) + r.val)) d (t.val % 25 * 2048 + q.val) := by
  refine (k0_pay2_apply (grid0.coords t) (iblk0 V c 0 t) (iblk0 V c 1 t) acc r d).trans ?_
  refine congrArg (acc (ix2 r d) + ·) (Finset.sum_congr rfl fun q _ => ?_)
  unfold term0
  rw [coords0_1 t, iblk0_0_apply, iblk0_1_apply, Nat.mul_comm 2048 (t.val % 25)]

/-- At the first step of a reduction the accumulator holds the first 2048 node slots' terms. -/
theorem acc0_apply_first (c : Dev nD) (r : Fin 2048) (d : Fin 128) (t : Fin cfg0.N) (ht : t.val % 25 = 0) :
    (acc0 V c t.val t.isLt : Vec Ideal S2048x128 .f32) (ix2 r d)
      = ∑ k ∈ Finset.range ((t.val % 25 + 1) * 2048), term0 V c (word0 V c (2048 * (t.val / 25) + r.val)) d k := by
  rw [acc0_first V c t ht, step0_apply, k0_pay1_apply, zero_add, ht]
  show _ = ∑ k ∈ Finset.range 2048, _
  rw [Finset.sum_range]
  refine Finset.sum_congr rfl fun q _ => ?_
  rw [Nat.zero_mul, Nat.zero_add]

/-- After point `n`, step `n % 25` of its reduction, the accumulator holds at row `r`, feature `d` the terms of the
    node slots below `(n % 25 + 1) * 2048` for the word listed at edge slot `2048 * (n / 25) + r`. -/
theorem acc0_apply (c : Dev nD) (r : Fin 2048) (d : Fin 128) : ∀ (n : ℕ) (h : n < cfg0.N),
    (acc0 V c n h : Vec Ideal S2048x128 .f32) (ix2 r d)
      = ∑ k ∈ Finset.range ((n % 25 + 1) * 2048), term0 V c (word0 V c (2048 * (n / 25) + r.val)) d k
  | 0, h => acc0_apply_first V c r d ⟨0, h⟩ rfl
  | n + 1, h => by
    by_cases hm : (n + 1) % 25 = 0
    · exact acc0_apply_first V c r d ⟨n + 1, h⟩ hm
    · have hnext := acc0_next V c ⟨n + 1, h⟩ hm
      have ih := acc0_apply c r d n (Nat.lt_of_succ_lt h)
      have e1 : (n + 1) / 25 = n / 25 := by omega
      have e2 : (n + 1) % 25 = n % 25 + 1 := by omega
      rw [show acc0 V c (n + 1) h = _ from hnext, step0_apply]
      show (acc0 V c n _ : Vec Ideal S2048x128 .f32) (ix2 r d)
          + ∑ q : Fin 2048, term0 V c (word0 V c (2048 * ((n + 1) / 25) + r.val)) d ((n + 1) % 25 * 2048 + q.val)
        = _
      rw [ih, e1, e2, show (n % 25 + 1 + 1) * 2048 = (n % 25 + 1) * 2048 + 2048 from by omega,
        Finset.sum_range_add, Finset.sum_range (n := 2048)]

/-! ## The padded arrays read at an index -/

/-- The source row of the edge list at edge `e`. -/
theorem edgeRow1_apply (ei : IVec S2x800000 32) (e : Fin 800000) :
    edgeRow1 ei (ix1 e) = ei (ix2 (1 : Fin 2) e) := by
  unfold edgeRow1
  refine (shapeCast_apply _ shapeCasts_S1x800000_S800000 (ix1 e) (ix2 (0 : Fin 1) e) ?_).trans ?_
  · rw [Shape.rowMajor_val_one, Shape.rowMajor_val_two]
    show 0 * 800000 + e.val = e.val
    omega
  · refine extractStridedSlice_apply _ ei slices_S2x800000_S1x800000_1_0 (ix2 (0 : Fin 1) e) (ix2 (1 : Fin 2) e) fun a => ?_
    match a with
    | ⟨0, _⟩ => rfl
    | ⟨1, _⟩ => show e.val = 0 + e.val; omega

/-- A padded row at slot `e`: the row's word below 800000, the word -1 from there on. -/
theorem paddedRow_apply (v : IVec S800000 32) (e : Fin 800768) :
    paddedRow v (ix2 (0 : Fin 1) e) = if h : e.val < 800000 then v (ix1 ⟨e.val, h⟩) else 4294967295#32 := by
  unfold paddedRow
  refine (shapeCast_apply _ shapeCasts_S800768_S1x800768 (ix2 (0 : Fin 1) e) (ix1 e) ?_).trans ?_
  · rw [Shape.rowMajor_val_one, Shape.rowMajor_val_two]
    show e.val = 0 * 800768 + e.val
    omega
  · split
    · rename_i h
      exact pad_apply_of_inside _ _ _ v _ pads_S800000_S800768_07680 h_S_ (ix1 e) (ix1 ⟨e.val, h⟩) fun a => by
        match a with
        | ⟨0, _⟩ => show e.val = 0 + e.val * (0 + 1); omega
    · rename_i h
      refine (pad_apply_of_not_inside _ _ _ v _ pads_S800000_S800768_07680 h_S_ (ix1 e) (0 : Fin 1) ?_).trans rfl
      show ¬(0 ≤ e.val ∧ (e.val - 0) % (0 + 1) = 0 ∧ (e.val - 0) / (0 + 1) < 800000)
      omega

/-- The padded node features at slot `n`, feature `d`: the node's feature below 50000, zero from there on. -/
theorem paddedX_apply (x : FVec Ideal S50000x128 .f32) (n : Fin 51200) (d : Fin 128) :
    paddedX (F := Ideal) x (ix2 n d) = if h : n.val < 50000 then x (ix2 ⟨n.val, h⟩ d) else 0 := by
  unfold paddedX
  split
  · rename_i h
    exact pad_apply_of_inside _ _ _ _ _ pads_S50000x128_S51200x128_012000_000 h_S_ (ix2 n d) (ix2 ⟨n.val, h⟩ d) fun a => by
      match a with
      | ⟨0, _⟩ => show n.val = 0 + n.val * (0 + 1); omega
      | ⟨1, _⟩ => show d.val = 0 + d.val * (0 + 1); omega
  · rename_i h
    refine (pad_apply_of_not_inside _ _ _ _ _ pads_S50000x128_S51200x128_012000_000 h_S_ (ix2 n d) (0 : Fin 2) ?_).trans ?_
    · show ¬(0 ≤ n.val ∧ (n.val - 0) % (0 + 1) = 0 ∧ (n.val - 0) / (0 + 1) < 50000)
      omega
    · show (((0#32 : BitVec 32).toInt : ℝ) : EReal) = 0
      rw [show (0#32 : BitVec 32).toInt = 0 from by decide, Int.cast_zero, EReal.coe_zero]

/-! ## The sum over all node slots -/

/-- Among the node slots below 51200 at most one, as a 32-bit word, is `w`: the slot `w` read unsigned, when that is
    below 51200. So the terms of all the slots sum to that slot's feature, or to nothing. -/
theorem sum_term0 (c : Dev nD) (w : BitVec 32) (d : Fin 128) :
    ∑ k ∈ Finset.range 51200, term0 V c w d k = if w.toNat < 51200 then feat0 V c w.toNat d else 0 := by
  have hcond : ∀ k ∈ Finset.range 51200, term0 V c w d k = if w.toNat = k then feat0 V c k d else 0 := by
    intro k hk
    have hk' : k < 51200 := Finset.mem_range.mp hk
    unfold term0
    refine if_congr ⟨fun e => ?_, fun e => ?_⟩ rfl rfl
    · rw [← e, BitVec.toNat_ofNat]
      exact Nat.mod_eq_of_lt (by omega)
    · apply BitVec.eq_of_toNat_eq
      rw [BitVec.toNat_ofNat, ← e]
      exact Nat.mod_eq_of_lt w.isLt
  rw [Finset.sum_congr rfl hcond, Finset.sum_ite_eq]
  simp only [Finset.mem_range]

/-! ## The region's output as one function of the node features and the edge list -/

section Entry

variable (c : Dev nD) (x : FVec Ideal S50000x128 .f32) (ei : IVec S2x800000 32)
  (h7 : V c main_v7 = paddedRow (edgeRow1 ei)) (h5 : V c main_v5 = paddedX (F := Ideal) x)

include h7 in
/-- The word listed at edge slot `e`: the edge's source word, or the word -1 at a padding slot. -/
theorem word0_eq (e : Fin 800768) :
    word0 V c e.val = if h : e.val < 800000 then ei (ix2 (1 : Fin 2) ⟨e.val, h⟩) else 4294967295#32 := by
  unfold word0
  rw [dif_pos e.isLt, h7]
  refine (paddedRow_apply (edgeRow1 ei) e).trans ?_
  split
  · rename_i h
    exact edgeRow1_apply ei ⟨e.val, h⟩
  · rfl

include h5 in
/-- The padded node features at slot `n`: the node's feature below 50000, zero from there on. -/
theorem feat0_eq (n : ℕ) (d : Fin 128) :
    feat0 V c n d = if h : n < 50000 then x (ix2 ⟨n, h⟩ d) else 0 := by
  unfold feat0
  by_cases hn : n < 51200
  · rw [dif_pos hn, h5]
    exact paddedX_apply x ⟨n, hn⟩ d
  · rw [dif_neg hn, dif_neg (by omega)]

include h5 in
/-- All node slots' terms for a word `w`: the row of `x` that `w` names, or zero. -/
theorem sum_term0_eq (w : BitVec 32) (d : Fin 128) :
    ∑ k ∈ Finset.range 51200, term0 V c w d k = Cert.Spec.rowOr0 x w d := by
  rw [sum_term0, feat0_eq V c x h5]
  unfold Cert.Spec.rowOr0
  by_cases hw : w.toNat < 50000
  · rw [if_pos (by omega), dif_pos hw]
  · rw [dif_neg hw, ite_self]

include h7 h5 in
/-- The accumulator at a write-out point, row `r`, feature `d`: the message of edge slot `2048 * (t / 25) + r`. -/
theorem acc0_last (t : Fin cfg0.N) (h24 : t.val % 25 = 24) (r : Fin 2048) (d : Fin 128)
    (he : 2048 * (t.val / 25) + r.val < 800768) :
    (acc0 V c t.val t.isLt : Vec Ideal S2048x128 .f32) (ix2 r d)
      = Cert.Spec.msgF x ei (ix2 ⟨2048 * (t.val / 25) + r.val, he⟩ d) := by
  rw [acc0_apply V c r d t.val t.isLt, h24]
  show ∑ k ∈ Finset.range 51200, _ = _
  rw [sum_term0_eq V c x h5, word0_eq V c ei h7 ⟨2048 * (t.val / 25) + r.val, he⟩]
  unfold Cert.Spec.msgF
  by_cases h : 2048 * (t.val / 25) + r.val < 800000
  · rw [dif_pos h, dif_pos h]
  · rw [dif_neg h, dif_neg h]
    unfold Cert.Spec.rowOr0
    rw [dif_neg (by decide)]

/-- Where the output's block at point `t` lies in the array: row `2048 * (t / 25) + r`, the same feature. -/
theorem emb0_2 (t : Fin cfg0.N) (y : S2048x128.Idx) (he : 2048 * (t.val / 25) + (y 0).val < 800768) :
    (((cfg0.win 2).blk t).view.emb y : S800768x128.Idx) = ix2 ⟨2048 * (t.val / 25) + (y 0).val, he⟩ (y 1) := by
  funext a
  apply Fin.ext
  match a with
  | ⟨0, _⟩ => show win0_2.index t 0 * 2048 + 1 * (y 0).val = 2048 * (t.val / 25) + (y 0).val; rw [(index0_2 t).1]; omega
  | ⟨1, _⟩ => show win0_2.index t 1 * 128 + 1 * (y 1).val = (y 1).val; rw [(index0_2 t).2]; omega

include h7 h5 in
/-- What a write-out point writes back is its block of the messages. -/
theorem flushed0_eq (t : Fin cfg0.N) (hf : (cfg0.win 2).flush t = true) :
    (dat0 (F := Ideal) V c).flushed 2 t = ((cfg0.win 2).blk t).view.read (Elt Ideal) (Cert.Spec.msgF x ei) := by
  have h24 : t.val % 25 = 24 := (flush0_2 t).mp hf
  have ht : t.val < 9775 := N0_eq ▸ t.isLt
  show (cfg0.win 2).cut (grid0.coords t) ((dat0 (F := Ideal) V c).after 2 t) = _
  rw [after0_2 V c t h24]
  refine funext fun (y : S2048x128.Idx) => ?_
  have he : 2048 * (t.val / 25) + (y 0).val < 800768 := by have := idx2_lt0 y; omega
  show (acc0 V c t.val t.isLt : Vec Ideal S2048x128 .f32) y = Cert.Spec.msgF x ei (((cfg0.win 2).blk t).view.emb y)
  rw [emb0_2 t y he]
  exact (congrArg (acc0 V c t.val t.isLt : Vec Ideal S2048x128 .f32) (eq_ix2 y)).trans
    (acc0_last V c x ei h7 h5 t h24 (y 0) (y 1) he)

include h7 h5 in
/-- After all its write-backs the region's output array holds the messages. -/
theorem msg_final' : (dat0 (F := Ideal) V c).arrAt 2 cfg0.N = Cert.Spec.msgF x ei :=
  (dat0 (F := Ideal) V c).arrAt_eq_of_cover 2 (Cert.Spec.msgF x ei) (flushed0_eq V c x ei h7 h5) fun i => by
    have hi0 : (i 0).val < 800768 := (i 0).isLt
    have hi1 : (i 1).val < 128 := (i 1).isLt
    have hN : 25 * ((i 0).val / 2048) + 24 < cfg0.N := by rw [N0_eq]; omega
    refine ⟨⟨25 * ((i 0).val / 2048) + 24, hN⟩, (flush0_2 _).mpr (by show (25 * ((i 0).val / 2048) + 24) % 25 = 24; omega), ?_⟩
    show i ∈ ((View.whole main_v10).slice (win0_2.rect ⟨25 * ((i 0).val / 2048) + 24, hN⟩)).set
    rw [View.set_slice_whole, Rect.mem_set_unit]
    intro a
    have hq : (25 * ((i 0).val / 2048) + 24) / 25 = (i 0).val / 2048 := by omega
    match a with
    | ⟨0, _⟩ =>
      show win0_2.index ⟨25 * ((i 0).val / 2048) + 24, hN⟩ 0 * 2048 ≤ (i 0).val
        ∧ (i 0).val < win0_2.index ⟨25 * ((i 0).val / 2048) + 24, hN⟩ 0 * 2048 + 2048
      rw [(index0_2 ⟨25 * ((i 0).val / 2048) + 24, hN⟩).1]
      show (25 * ((i 0).val / 2048) + 24) / 25 * 2048 ≤ _ ∧ _ < (25 * ((i 0).val / 2048) + 24) / 25 * 2048 + 2048
      rw [hq]
      omega
    | ⟨1, _⟩ =>
      show win0_2.index ⟨25 * ((i 0).val / 2048) + 24, hN⟩ 1 * 128 ≤ (i 1).val
        ∧ (i 1).val < win0_2.index ⟨25 * ((i 0).val / 2048) + 24, hN⟩ 1 * 128 + 128
      rw [(index0_2 ⟨25 * ((i 0).val / 2048) + 24, hN⟩).2]
      omega

end Entry

/-- Region 0's output array, after all its write-backs, holds the messages: edge slot `e`'s row is the row of `x` its
    source word names (zero when the word names none), a padding slot's row is zero. -/
theorem msg_final (V : (c : Dev nD) → (b : Ref sig .tc) → Buf (Elt Ideal) ((c : Thread nD τ).loc b)) (c : Dev nD)
    (x : FVec Ideal S50000x128 .f32) (ei : IVec S2x800000 32)
    (h7 : V c main_v7 = paddedRow (edgeRow1 ei)) (h5 : V c main_v5 = paddedX (F := Ideal) x) :
    (dat0 (F := Ideal) V c).arrAt 2 cfg0.N = Cert.Spec.msgF x ei :=
  msg_final' V c x ei h7 h5

end Cert.KernelIdeal.Hand

end
-- ==== Proof.KI.Val1.lean ====
/- Region 1 (the scatter-add as a one-hot product, grid 25 x 391), its VALUE at the ideal instance: what the output
   array holds after all the write-backs, as one function of the two argument arrays.

   Point `t` has node block `t / 391` and edge step `t % 391`. The accumulator is reset at step 0 and at every step
   gets, at node row `q` and feature `d`, the sum over the step's 2048 edge slots `e` of (the message's entry
   `msg (e, d)` where the listed destination word of `e` is the node word `(t / 391) * 2048 + q`, else zero). By
   induction over the steps the accumulator after step `j` is the double sum over the steps `0 … j` and the slots
   inside a step; after the last step, 391 runs of 2048 consecutive slots are the 800768 slots in order, so the double
   sum is one sum over all edge slots. Past the 800000 edges proper a slot's message is zero; at an edge proper the
   padded row holds the edge's destination word and the message is its source's row (or zero): the sum is the
   specification's aggregate. The write-out points (step 390 of each node block) write those accumulators back,
   their blocks tile the output array, and so the array ends holding the aggregate. Sums are over the extended
   reals, where addition is commutative and associative for all summands. -/
import proofs.«427728_j5978594476045_1_alg».proof.Proof.KI.R1
import proofs.«427728_j5978594476045_1_alg».proof.Proof.KI.PayIdeal
import proofs.«427728_j5978594476045_1_alg».proof.Proof.KI.Entry
import proofs.«427728_j5978594476045_1_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-! ## The index maps over the grid -/

/-- The printed index maps, decided over the grid: the index row's and the messages' blocks move with the edge step
    `t % 391`, the output's block with the node step `t / 391`, which is also the body's first grid coordinate. -/
theorem idx1_facts : ∀ t : Fin cfg1.N, win1_0.index t (0 : Fin 2) = 0 ∧ win1_0.index t (1 : Fin 2) = t.val % 391
    ∧ win1_1.index t (0 : Fin 2) = t.val % 391 ∧ win1_1.index t (1 : Fin 2) = 0
    ∧ win1_2.index t (0 : Fin 2) = t.val / 391 ∧ win1_2.index t (1 : Fin 2) = 0
    ∧ ((grid1.coords t) 0).val = t.val / 391 :=
  (by decide +kernel : ∀ t : Fin grid1.N, _)

/-- The grid has 25 * 391 points. -/
theorem N1_eq : cfg1.N = 9775 := by decide +kernel

/-! ## The two input arrays and their blocks, named at their literal types -/

/-- The index row as the region finds it. -/
abbrev dstArr1 (c : Dev nD) : Vec Ideal S1x800768 .i32 := V c main_v9
/-- The messages as the region finds them. -/
abbrev msgArr1 (c : Dev nD) : Vec Ideal S800768x128 .bf16 := V c main_v10
/-- The index row's block at point `t`. -/
abbrev dblk1 (c : Dev nD) (t : Fin cfg1.N) : Vec Ideal S1x2048 .i32 := iblk1 V c 0 t
/-- The messages' block at point `t`. -/
abbrev mblk1 (c : Dev nD) (t : Fin cfg1.N) : Vec Ideal S2048x128 .bf16 := iblk1 V c 1 t

/-- The index row's block at point `t` holds the words of the edge slots `2048 * (t % 391) + r`. -/
theorem dblk1_apply (c : Dev nD) (t : Fin cfg1.N) (y : S1x2048.Idx) (k : S1x800768.Idx)
    (hk0 : (k 0).val = 0) (hk1 : (k 1).val = 2048 * (t.val % 391) + (y 1).val) :
    dblk1 V c t y = dstArr1 V c k := by
  obtain ⟨e0, e1, -⟩ := idx1_facts t
  unfold dblk1 iblk1
  rw [View.read_apply]
  show V c main_v9 _ = V c main_v9 k
  congr 1
  funext a
  apply Fin.ext
  match a with
  | ⟨0, _⟩ =>
    show win1_0.index t 0 * 1 + 1 * (y 0).val = (k 0).val
    have : (y 0).val < 1 := (y 0).isLt
    rw [e0, hk0]; omega
  | ⟨1, _⟩ =>
    show win1_0.index t 1 * 2048 + 1 * (y 1).val = (k 1).val
    rw [e1, hk1]; omega

/-- The messages' block at point `t` holds the rows of the edge slots `2048 * (t % 391) + r`. -/
theorem mblk1_apply (c : Dev nD) (t : Fin cfg1.N) (y : S2048x128.Idx) (k : S800768x128.Idx)
    (hk0 : (k 0).val = 2048 * (t.val % 391) + (y 0).val) (hk1 : (k 1).val = (y 1).val) :
    mblk1 V c t y = msgArr1 V c k := by
  obtain ⟨-, -, e0, e1, -⟩ := idx1_facts t
  unfold mblk1 iblk1
  rw [View.read_apply]
  show V c main_v10 _ = V c main_v10 k
  congr 1
  funext a
  apply Fin.ext
  match a with
  | ⟨0, _⟩ =>
    show win1_1.index t 0 * 2048 + 1 * (y 0).val = (k 0).val
    rw [e0, hk0]; omega
  | ⟨1, _⟩ =>
    show win1_1.index t 1 * 128 + 1 * (y 1).val = (k 1).val
    rw [e1, hk1]; omega

/-! ## One edge slot's contribution, and a step's -/

/-- What edge slot `e` contributes to the node word `w` at feature `d`: its message's entry when its listed
    destination word is `w`, nothing otherwise (and nothing past the last slot). -/
def slot1 (D : Vec Ideal S1x800768 .i32) (M : Vec Ideal S800768x128 .bf16) (w : BitVec 32) (d : Fin 128) (e : ℕ) : EReal :=
  if h : e < 800768 then (if w = D (ix2 (0 : Fin 1) (⟨e, h⟩ : Fin 800768)) then M (ix2 (⟨e, h⟩ : Fin 800768) d) else 0) else 0

/-- The body at point `t`, read at node row `q` and feature `d`: the accumulator operand plus the contributions of
    the 2048 edge slots of step `t % 391` to the node word `(t / 391) * 2048 + q`. -/
theorem step1_apply (c : Dev nD) (t : Fin cfg1.N) (A : Vec Ideal S2048x128 .f32) (q : Fin 2048) (d : Fin 128) :
    k1_pay2 (F := Ideal) (grid1.coords t) (dblk1 V c t) A (mblk1 V c t) (ix2 q d)
      = A (ix2 q d) + ∑ r ∈ Finset.range 2048,
          slot1 (dstArr1 V c) (msgArr1 V c) (BitVec.ofNat 32 (t.val / 391 * 2048 + q.val)) d (2048 * (t.val % 391) + r) := by
  obtain ⟨-, -, -, -, -, -, eg⟩ := idx1_facts t
  have ht : t.val % 391 < 391 := Nat.mod_lt _ (by decide)
  refine (k1_pay2_apply (grid1.coords t) (dblk1 V c t) A (mblk1 V c t) q d).trans ?_
  refine congrArg (A (ix2 q d) + ·) ?_
  rw [← Fin.sum_univ_eq_sum_range (fun r => slot1 (dstArr1 V c) (msgArr1 V c) (BitVec.ofNat 32 (t.val / 391 * 2048 + q.val)) d (2048 * (t.val % 391) + r)) 2048]
  refine Finset.sum_congr rfl fun r _ => ?_
  have hr : r.val < 2048 := r.isLt
  have hlt : 2048 * (t.val % 391) + r.val < 800768 := by omega
  unfold slot1
  rw [dif_pos hlt, eg,
    dblk1_apply V c t (ix2 (0 : Fin 1) r) (ix2 (0 : Fin 1) (⟨2048 * (t.val % 391) + r.val, hlt⟩ : Fin 800768)) rfl rfl,
    mblk1_apply V c t (ix2 r d) (ix2 (⟨2048 * (t.val % 391) + r.val, hlt⟩ : Fin 800768) d) rfl rfl]

/-! ## The accumulator after each point -/

theorem acc1_congr (c : Dev nD) {n n' : ℕ} (e : n = n') (hn : n < cfg1.N) (hn' : n' < cfg1.N) :
    acc1 V c n hn = acc1 V c n' hn' := by subst e; rfl

/-- After step `j` of the reduction over the edge steps for node block `b`, the accumulator holds at node row `q`
    and feature `d` the contributions of the edge slots of the steps `0 … j` to the node word `b * 2048 + q`. -/
theorem acc1_apply (c : Dev nD) (b : ℕ) (q : Fin 2048) (d : Fin 128) :
    ∀ (j : ℕ) (hj : j < 391) (hn : 391 * b + j < cfg1.N),
      (acc1 V c (391 * b + j) hn : Vec Ideal S2048x128 .f32) (ix2 q d)
        = ∑ s ∈ Finset.range (j + 1), ∑ r ∈ Finset.range 2048,
            slot1 (dstArr1 V c) (msgArr1 V c) (BitVec.ofNat 32 (b * 2048 + q.val)) d (2048 * s + r)
  | 0, hj, hn => by
    have h0 : (⟨391 * b + 0, hn⟩ : Fin cfg1.N).val % 391 = 0 := by show (391 * b + 0) % 391 = 0; omega
    refine (congrFun (acc1_first V c ⟨391 * b + 0, hn⟩ h0) (ix2 q d)).trans ?_
    refine (step1_apply V c ⟨391 * b + 0, hn⟩ (k1_pay1 (F := Ideal)) q d).trans ?_
    rw [k1_pay1_apply, zero_add, Finset.sum_range_one]
    show ∑ r ∈ Finset.range 2048, slot1 (dstArr1 V c) (msgArr1 V c) (BitVec.ofNat 32 ((391 * b + 0) / 391 * 2048 + q.val)) d (2048 * ((391 * b + 0) % 391) + r) = _
    rw [show (391 * b + 0) / 391 = b by omega, show (391 * b + 0) % 391 = 0 by omega]
  | j + 1, hj, hn => by
    have hne : ¬ (⟨391 * b + (j + 1), hn⟩ : Fin cfg1.N).val % 391 = 0 := by show ¬ (391 * b + (j + 1)) % 391 = 0; omega
    refine (congrFun (acc1_next V c ⟨391 * b + (j + 1), hn⟩ hne) (ix2 q d)).trans ?_
    refine (step1_apply V c ⟨391 * b + (j + 1), hn⟩ (acc1 V c ((⟨391 * b + (j + 1), hn⟩ : Fin cfg1.N).val - 1) (Nat.lt_of_le_of_lt (Nat.sub_le _ _) hn)) q d).trans ?_
    rw [acc1_congr V c (show (⟨391 * b + (j + 1), hn⟩ : Fin cfg1.N).val - 1 = 391 * b + j from rfl) _ (Nat.lt_of_succ_lt hn),
      acc1_apply c b q d j (Nat.lt_of_succ_lt hj) (Nat.lt_of_succ_lt hn), Finset.sum_range_succ _ (j + 1)]
    show _ + ∑ r ∈ Finset.range 2048, slot1 (dstArr1 V c) (msgArr1 V c) (BitVec.ofNat 32 ((391 * b + (j + 1)) / 391 * 2048 + q.val)) d (2048 * ((391 * b + (j + 1)) % 391) + r) = _
    rw [show (391 * b + (j + 1)) / 391 = b by omega, show (391 * b + (j + 1)) % 391 = j + 1 by omega]

/-! ## The steps' sums as one sum over the edge slots -/

/-- A sum over `a` runs of `b` consecutive naturals is the sum over the first `b * a` naturals. -/
theorem sum_runs1 {M : Type*} [AddCommMonoid M] (f : ℕ → M) (b : ℕ) :
    ∀ a : ℕ, ∑ s ∈ Finset.range a, ∑ r ∈ Finset.range b, f (b * s + r) = ∑ e ∈ Finset.range (b * a), f e
  | 0 => by rw [Finset.sum_range_zero, Nat.mul_zero, Finset.sum_range_zero]
  | a + 1 => by rw [Finset.sum_range_succ, sum_runs1 f b a, Nat.mul_succ, Finset.sum_range_add]

/-! ## The entry arrays read at an index -/

/-- The padded row read at an edge slot proper is the row's word there. -/
theorem paddedRow_apply1 (v : IVec S800000 32) (e : Fin 800000) (h : e.val < 800768) :
    paddedRow v (ix2 (0 : Fin 1) (⟨e.val, h⟩ : Fin 800768)) = v (ix1 e) := by
  unfold paddedRow
  refine (shapeCast_a_1a_apply _ shapeCasts_S800768_S1x800768 (0 : Fin 1) (⟨e.val, h⟩ : Fin 800768)).trans ?_
  refine pad_apply_of_inside ![0] ![768] ![0] v (constantI S_ 32 4294967295#32) pads_S800000_S800768_07680 h_S_
    (ix1 (⟨e.val, h⟩ : Fin 800768)) (ix1 e) fun a => ?_
  match a with
  | ⟨0, _⟩ => show e.val = 0 + e.val * (0 + 1); omega

/-- Row 0 of the edge list, as a vector, read at an edge. -/
theorem edgeRow0_apply (ei : IVec S2x800000 32) (e : Fin 800000) : edgeRow0 ei (ix1 e) = ei (ix2 (0 : Fin 2) e) := by
  unfold edgeRow0
  refine (shapeCast_1a_a_apply _ shapeCasts_S1x800000_S800000 e).trans ?_
  refine extractStridedSlice_apply ![0, 0] ei slices_S2x800000_S1x800000_0_0 (ix2 (0 : Fin 1) e) (ix2 (0 : Fin 2) e) fun a => ?_
  match a with
  | ⟨0, _⟩ => rfl
  | ⟨1, _⟩ => show e.val = 0 + e.val; omega

/-! ## The whole reduction is the specification's sum -/

/-- The contributions of all the edge slots to the node word of `n`: past the edges proper a slot's message is
    zero; at an edge proper the padded row holds the edge's destination word and the message is its source's row. -/
theorem total1_eq (x : FVec Ideal S50000x128 .f32) (ei : IVec S2x800000 32) (n : Fin 51200) (d : Fin 128) :
    ∑ e ∈ Finset.range 800768, slot1 (paddedRow (edgeRow0 ei)) (Cert.Spec.msgF x ei) (BitVec.ofNat 32 n.val) d e
      = Cert.Spec.outF x ei (ix2 n d) := by
  refine (Finset.sum_range_add (fun e => slot1 (paddedRow (edgeRow0 ei)) (Cert.Spec.msgF x ei) (BitVec.ofNat 32 n.val) d e) 800000 768).trans ?_
  have hz : ∑ k ∈ Finset.range 768, slot1 (paddedRow (edgeRow0 ei)) (Cert.Spec.msgF x ei) (BitVec.ofNat 32 n.val) d (800000 + k) = 0 := by
    refine Finset.sum_eq_zero fun k hk => ?_
    have hk' : k < 768 := Finset.mem_range.mp hk
    unfold slot1
    rw [dif_pos (show 800000 + k < 800768 by omega)]
    have hm : Cert.Spec.msgF x ei (ix2 (⟨800000 + k, by omega⟩ : Fin 800768) d) = 0 := by
      unfold Cert.Spec.msgF
      exact dif_neg (by show ¬ 800000 + k < 800000; omega)
    rw [hm, ite_self]
  rw [hz, add_zero, ← Fin.sum_univ_eq_sum_range (fun e => slot1 (paddedRow (edgeRow0 ei)) (Cert.Spec.msgF x ei) (BitVec.ofNat 32 n.val) d e) 800000]
  unfold Cert.Spec.outF
  refine Finset.sum_congr rfl fun e _ => ?_
  have he : e.val < 800768 := Nat.lt_trans e.isLt (by decide)
  unfold slot1
  rw [dif_pos he, paddedRow_apply1 (edgeRow0 ei) e he, edgeRow0_apply ei e]
  have hm : Cert.Spec.msgF x ei (ix2 (⟨e.val, he⟩ : Fin 800768) d) = Cert.Spec.rowOr0 x (ei (ix2 (1 : Fin 2) e)) d := by
    unfold Cert.Spec.msgF
    exact dif_pos e.isLt
  rw [hm]
  exact if_congr eq_comm rfl rfl

/-! ## From the blocks to the array -/

/-- What a write-out point writes back is its block of the specification's aggregate: the accumulator after the
    last edge step of the point's node block holds, at row `q`, every edge slot's contribution to node
    `2048 * (t / 391) + q`. -/
theorem flushed1_2_eq (c : Dev nD) (x : FVec Ideal S50000x128 .f32) (ei : IVec S2x800000 32)
    (h9 : V c main_v9 = paddedRow (edgeRow0 ei)) (h10 : V c main_v10 = Cert.Spec.msgF x ei)
    (t : Fin cfg1.N) (hf : (cfg1.win 2).flush t = true) :
    (dat1 (F := Ideal) V c).flushed 2 t = ((cfg1.win 2).blk t).view.read (Elt Ideal) (Cert.Spec.outF x ei) := by
  have h390 : t.val % 391 = 390 := (flush1_2 t).mp hf
  have hN : cfg1.N = 9775 := N1_eq
  have htN : t.val < 9775 := hN ▸ t.isLt
  obtain ⟨-, -, -, -, e0, e1, -⟩ := idx1_facts t
  show (cfg1.win 2).cut (grid1.coords t) ((dat1 (F := Ideal) V c).after 2 t) = _
  rw [after1_2 V c t h390]
  funext y
  have hy0 : (y 0).val < 2048 := (y 0).isLt
  have hy1 : (y 1).val < 128 := (y 1).isLt
  have hb : t.val / 391 * 2048 + (y 0).val < 51200 := by omega
  show acc1 V c t.val t.isLt ((cfg1.win 2).xinj (grid1.coords t) y) = _
  rw [View.read_apply, cast_eq]
  have hx : (cfg1.win 2).xinj (grid1.coords t) y = ix2 (⟨(y 0).val, hy0⟩ : Fin 2048) (⟨(y 1).val, hy1⟩ : Fin 128) :=
    funext fun a => by
      match a with
      | ⟨0, _⟩ => rfl
      | ⟨1, _⟩ => rfl
  have hemb : ((cfg1.win 2).blk t).view.emb y
      = ix2 (⟨t.val / 391 * 2048 + (y 0).val, hb⟩ : Fin 51200) (⟨(y 1).val, hy1⟩ : Fin 128) := by
    funext a
    apply Fin.ext
    match a with
    | ⟨0, _⟩ => show win1_2.index t 0 * 2048 + 1 * (y 0).val = t.val / 391 * 2048 + (y 0).val; rw [e0]; omega
    | ⟨1, _⟩ => show win1_2.index t 1 * 128 + 1 * (y 1).val = (y 1).val; rw [e1]; omega
  have hlast : 391 * (t.val / 391) + 390 < cfg1.N := lt_of_lt_of_eq (show 391 * (t.val / 391) + 390 < 9775 by omega) hN.symm
  rw [hx, hemb, acc1_congr V c (show t.val = 391 * (t.val / 391) + 390 by omega) t.isLt hlast,
    acc1_apply V c (t.val / 391) (⟨(y 0).val, hy0⟩ : Fin 2048) (⟨(y 1).val, hy1⟩ : Fin 128) 390 (by decide) hlast,
    sum_runs1 (fun e => slot1 (dstArr1 V c) (msgArr1 V c) (BitVec.ofNat 32 (t.val / 391 * 2048 + (y 0).val)) (⟨(y 1).val, hy1⟩ : Fin 128) e) 2048 391]
  show ∑ e ∈ Finset.range 800768, slot1 (V c main_v9) (V c main_v10) (BitVec.ofNat 32 (t.val / 391 * 2048 + (y 0).val)) (⟨(y 1).val, hy1⟩ : Fin 128) e = _
  rw [h9, h10]
  exact total1_eq x ei (⟨t.val / 391 * 2048 + (y 0).val, hb⟩ : Fin 51200) (⟨(y 1).val, hy1⟩ : Fin 128)

/-- Every index of the output array lies in the block of a write-out point: row `n` in that of the last edge step
    of node block `n / 2048`. -/
theorem cover1_2 (i : S51200x128.Idx) :
    ∃ t : Fin cfg1.N, (cfg1.win 2).flush t = true ∧ i ∈ ((cfg1.win 2).blk t).view.set := by
  have hi0 : (i 0).val < 51200 := (i 0).isLt
  have hi1 : (i 1).val < 128 := (i 1).isLt
  have hN : cfg1.N = 9775 := N1_eq
  obtain ⟨t, ht⟩ : ∃ t : Fin cfg1.N, t.val = 391 * ((i 0).val / 2048) + 390 := ⟨⟨391 * ((i 0).val / 2048) + 390, by rw [hN]; omega⟩, rfl⟩
  obtain ⟨-, -, -, -, e0, e1, -⟩ := idx1_facts t
  refine ⟨t, (flush1_2 t).mpr (by rw [ht]; omega), ?_⟩
  show i ∈ ((View.whole main_v11).slice (win1_2.rect t)).set
  rw [View.set_slice_whole, Rect.mem_set_unit]
  intro a
  match a with
  | ⟨0, _⟩ =>
    show win1_2.index t 0 * 2048 ≤ (i 0).val ∧ (i 0).val < win1_2.index t 0 * 2048 + 2048
    rw [e0, ht]; omega
  | ⟨1, _⟩ =>
    show win1_2.index t 1 * 128 ≤ (i 1).val ∧ (i 1).val < win1_2.index t 1 * 128 + 128
    rw [e1]; omega

/-- The output array after the region: the specification's aggregate over the padded node range. -/
theorem out_final (c : Dev nD)
    (x : FVec Ideal S50000x128 .f32) (ei : IVec S2x800000 32)
    (h9 : V c main_v9 = paddedRow (edgeRow0 ei)) (h10 : V c main_v10 = Cert.Spec.msgF x ei) :
    (dat1 (F := Ideal) V c).arrAt 2 cfg1.N = Cert.Spec.outF x ei :=
  (dat1 (F := Ideal) V c).arrAt_eq_of_cover 2 (Cert.Spec.outF x ei)
    (fun t hf => flushed1_2_eq V c x ei h9 h10 t hf) cover1_2

end Cert.KernelIdeal.Hand

end
-- ==== Proof.KI.Final.lean ====
/- The result of the idealized kernel program as the aggregation of its two arguments: the message array region 0 leaves
   is the message function of the arguments (its windows read the padded source row and the padded node features);
   the padded aggregate region 1 leaves is the padded aggregation (its windows read the padded destination row and
   the message array); the result buffer is its first 50000 rows, which is the aggregation itself. -/
import proofs.«427728_j5978594476045_1_alg».proof.Proof.KI.Run
import proofs.«427728_j5978594476045_1_alg».proof.Proof.KI.Val0
import proofs.«427728_j5978594476045_1_alg».proof.Proof.KI.Val1
import proofs.«427728_j5978594476045_1_alg».proof.Proof.KI.Entry
import proofs.«427728_j5978594476045_1_alg».proof.Proof.Spec
import Idealize.ShloMosaic.Lib.Pipeline.Value
import Idealize.ShloMosaic.Lib.ValueIdx
import Idealize.ShloMosaic.Lib.StableHlo.Run

noncomputable section

namespace Cert.KernelIdeal.Hand

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ)

/-- What region 0 leaves in the message array: each edge slot's source row. -/
theorem o8_eq (c : Dev nD) :
    o8 m c = Cert.Spec.msgF (m ((c : Thread nD τ).loc main_arg0)) (m ((c : Thread nD τ).loc main_arg1)) :=
  msg_final (E0 m) c _ _ (entry_v7 m c) (entry_v5 m c)

/-- What region 1 leaves in the padded aggregate: each node slot's received rows, summed. -/
theorem o9_eq (c : Dev nD) :
    o9 m c = Cert.Spec.outF (m ((c : Thread nD τ).loc main_arg0)) (m ((c : Thread nD τ).loc main_arg1)) :=
  out_final (E1 m) c _ _
    ((Function.update_of_ne (StableHlo.devRef_ne_of_ne (by decide) : (Proc.devRef .tc main_v9 : DevRef τ sig) ≠ Proc.devRef .tc main_v10) (o8 m c) (V7 m c)).trans (entry_v9 m c))
    ((Function.update_self (Proc.devRef .tc main_v10 : DevRef τ sig) (o8 m c) (V7 m c)).trans (o8_eq m c))

/-- The first 50000 rows of the padded aggregation are the aggregation. -/
theorem slice_outF (x : Cert.Spec.SX.Idx → EReal) (ei : Cert.Spec.SE.Idx → BitVec 32) :
    extractStridedSlice S50000x128 ![0, 0] (Cert.Spec.outF x ei) slices_S51200x128_S50000x128_0_0 = Cert.Spec.G x ei := by
  funext i
  rw [extractStridedSlice_apply ![0, 0] (Cert.Spec.outF x ei) slices_S51200x128_S50000x128_0_0 i
    (ix2 ⟨(i 0).val, Nat.lt_trans (i 0).isLt (by decide)⟩ (i 1)) (fun a => match a with
      | ⟨0, _⟩ => by show (i 0).val = 0 + (i 0).val; omega
      | ⟨1, _⟩ => by show (i 1).val = 0 + (i 1).val; omega)]
  rfl

/-- The result buffer's last contents are the aggregation of the two arguments. -/
theorem result_eq (c : Dev nD) :
    V10 m (outs m) c main_v12 = Cert.Spec.G (m ((c : Thread nD τ).loc main_arg0)) (m ((c : Thread nD τ).loc main_arg1)) := by
  have h : V10 m (outs m) c main_v12
      = extractStridedSlice S50000x128 ![0, 0] (V9 m (outs m) c main_v11) slices_S51200x128_S50000x128_0_0 := by
    show StableHlo.after hostOps2 (V9 m (outs m) c) (Proc.devRef .tc main_v12) = _
    after_results
  rw [h, show V9 m (outs m) c main_v11 = o9 m c from
    (Function.update_self (Proc.devRef .tc main_v11 : DevRef τ sig) (outs m 9 main_v11 c) (V8 m (outs m) c)).trans (outs_v11 m 9 c),
    o9_eq, slice_outF]

end Cert.KernelIdeal.Hand

end
-- ==== Proof.RefG.lean ====
/- The reference program's result, at the ideal instance, is the aggregation `Cert.Spec.G`, when every source word
   names a row of `x`. The reference normalises each source word (a negative word gets 50000 added), gathers the rows
   `g[e, :] = x[clamp (src e), :]`, and scatter-adds them into zeros at the destination words. A source word below
   50000 is not negative as a signed word, so normalisation leaves it and the clamp is the identity: the gathered row is
   the source's row. An update element `(e, d')` lands on `(n, d)` exactly when `d' = d` and the destination word of `e`,
   read signed, is `n`; for `n` below 50000 that says the word is `n`'s. So the sum over the update elements landing on
   `(n, d)` is the sum over the edges whose destination word is `n` of the gathered element at feature `d`, and the operand
   it is added to is zero. -/
import proofs.«427728_j5978594476045_1_alg».proof.Proof.Gen.ReferenceIdeal.Read
import proofs.«427728_j5978594476045_1_alg».proof.Proof.Spec
import Idealize.ShloMosaic.PureOps.Ideal.Laws
import Idealize.ShloMosaic.Lib.ValueIdx
import Idealize.ShloMosaic.Lib.StableHlo.Predicate

noncomputable section

namespace Cert.RefG

open Cert.ReferenceIdeal Cert.ReferenceIdeal.Gen Cert.ReferenceIdeal.Read Idealize.ShloMosaic Idealize.ShloMosaic.ValueIdx

/-! ## The row gather read at an index -/

/-- The gather's dimension numbers: operand axis 0 collapsed and start-indexed, axis 1 an offset axis of full width. -/
abbrev GD := gather_S50000x128_S800000x1_S800000x128_1_0_n_n_0_1_1128

/-- Result element `(e, d)` of the gather is the operand at row `idx[e, 0]`, read signed and clamped into
    `[0, 49999]`, and column `d`. -/
theorem gather_row (x : S50000x128.Idx → EReal) (idx : IVec S800000x1 32) (j : S800000x128.Idx) :
    Host.gather GD x idx j
      = x (ix2 ⟨min (idx (ix2 (j 0) (0 : Fin 1))).toInt.toNat (50000 - 1), by omega⟩ (j 1)) := by
  unfold Host.gather
  congr 1
  funext a
  refine Fin.ext ?_
  match a with
  | ⟨0, _⟩ =>
    -- axis 0: the clamped start, no batching coordinate, no offset coordinate (the axis is collapsed)
    show GD.start j idx 0 + GD.batchCoord j 0 + GD.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl)]
    have hsi : GD.siIdx j ⟨List.idxOf (0 : Fin 2) GD.startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, _⟩ =>
    -- axis 1: no start (the map does not name it), no batching coordinate, the offset coordinate `j 1`
    show GD.start j idx 1 + GD.batchCoord j 1 + GD.offCoord j 1 = _
    rw [GatherDims.batchCoord_eq_zero _ _ _ List.not_mem_nil]
    have h1 : (1 : Fin 2) ∉ GD.startIndexMap := by
      show (1 : Fin 2) ∉ [(0 : Fin 2)]; decide
    have hs : GD.start j idx 1 = 0 := by
      unfold GatherDims.start; rw [dif_neg h1]
    have hk : (1 : Fin 2) ∈ GD.sKept := by
      rw [GatherDims.mem_sKept]
      exact ⟨by show (1 : Fin 2) ∉ [(0 : Fin 2)]; decide, List.not_mem_nil⟩
    have ho : GD.offCoord j 1 = (j 1).val := by
      unfold GatherDims.offCoord; rw [dif_pos hk]; rfl
    rw [hs, ho]
    show 0 + 0 + (j 1).val = (j 1).val
    omega

/-! ## Where an update element of the scatter lands -/

/-- The scatter's dimension numbers: operand axis 0 inserted and indexed by the scatter index, axis 1 the window axis. -/
abbrev SD := scatter_S50000x128_S800000x1_S800000x128_1_0_0_1

/-- On axis 0 the window starts at the scatter index of the update's row, read signed. -/
theorem SD_start0 (idx : IVec S800000x1 32) (j : S800000x128.Idx) :
    SD.start j idx 0 = (idx (ix2 (j 0) (0 : Fin 1))).toInt := by
  unfold ScatterDims.start
  rw [dif_pos (show (0 : Fin 2) ∈ SD.scatterDimsToOperandDims from List.mem_singleton.mpr rfl)]
  have hsi : SD.siIdx j ⟨List.idxOf (0 : Fin 2) SD.scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On axis 1 the window starts at 0. -/
theorem SD_start1 (idx : IVec S800000x1 32) (j : S800000x128.Idx) : SD.start j idx 1 = 0 := by
  unfold ScatterDims.start
  rw [dif_neg (by show (1 : Fin 2) ∉ [(0 : Fin 2)]; decide)]

/-- Axis 0 is inserted: no window coordinate. -/
theorem SD_window0 (j : S800000x128.Idx) : SD.window j 0 = 0 := by
  unfold ScatterDims.window
  rw [dif_neg]
  show (0 : Fin 2) ∉ S50000x128.kept [(0 : Fin 2)]
  decide

/-- Axis 1's window coordinate is the update's column. -/
theorem SD_window1 (j : S800000x128.Idx) : SD.window j 1 = (j 1).val := by
  unfold ScatterDims.window
  rw [dif_pos (by show (1 : Fin 2) ∈ S50000x128.kept [(0 : Fin 2)]; decide)]
  rfl

/-- Update element `j` lands on operand element `i` exactly when its row's scatter index, read signed, is `i`'s row and
    its column is `i`'s column. -/
theorem resultIdx_iff (idx : IVec S800000x1 32) (j : S800000x128.Idx) (i : S50000x128.Idx) :
    SD.resultIdx? j idx = some i ↔ (idx (ix2 (j 0) (0 : Fin 1))).toInt = ((i 0).val : Int) ∧ j 1 = i 1 := by
  have hi0 : (i 0).val < 50000 := (i 0).isLt
  have hi1 : (i 1).val < 128 := (i 1).isLt
  have hj1 : (j 1).val < 128 := (j 1).isLt
  unfold ScatterDims.resultIdx?
  split
  · next h =>
    -- the window is inside the operand: it lands on the index it names
    have h0 := h 0
    rw [SD_start0, SD_window0] at h0
    constructor
    · intro e
      have e' := Option.some.inj e
      have e0 : ((SD.start j idx 0 + ↑(SD.window j 0)).toNat) = (i 0).val := congrArg (fun f => (f 0).val) e'
      have e1 : ((SD.start j idx 1 + ↑(SD.window j 1)).toNat) = (i 1).val := congrArg (fun f => (f 1).val) e'
      rw [SD_start0, SD_window0] at e0
      rw [SD_start1, SD_window1] at e1
      refine ⟨by omega, Fin.ext (by omega)⟩
    · rintro ⟨e0, e1⟩
      congr 1
      funext a
      refine Fin.ext ?_
      match a with
      | ⟨0, _⟩ =>
        show (SD.start j idx 0 + ↑(SD.window j 0)).toNat = (i 0).val
        rw [SD_start0, SD_window0]; omega
      | ⟨1, _⟩ =>
        show (SD.start j idx 1 + ↑(SD.window j 1)).toNat = (i 1).val
        rw [SD_start1, SD_window1, e1]; omega
  · next h =>
    -- the window leaves the operand: the update is dropped, and its signed row is no row of the operand
    constructor
    · intro e; exact absurd e (by simp)
    · rintro ⟨e0, e1⟩
      exfalso; apply h
      intro a
      match a with
      | ⟨0, _⟩ =>
        show 0 ≤ SD.start j idx 0 + ↑(SD.window j 0) ∧ SD.start j idx 0 + ↑(SD.window j 0) < ((50000 : Nat) : Int)
        rw [SD_start0, SD_window0]; omega
      | ⟨1, _⟩ =>
        show 0 ≤ SD.start j idx 1 + ↑(SD.window j 1) ∧ SD.start j idx 1 + ↑(SD.window j 1) < ((128 : Nat) : Int)
        rw [SD_start1, SD_window1]; omega

/-- The same by coordinates. -/
theorem resultIdx_iff' (idx : IVec S800000x1 32) (e : Fin 800000) (b : Fin 128) (n : Fin 50000) (d : Fin 128) :
    SD.resultIdx? (ix2 e b) idx = some (ix2 n d) ↔ (idx (ix2 e (0 : Fin 1))).toInt = (n.val : Int) ∧ b = d :=
  resultIdx_iff idx (ix2 e b) (ix2 n d)

/-- A word whose signed reading is a natural number below 2³¹ is that number's word. -/
theorem word_eq_of_toInt {w : BitVec 32} {n : Nat} (hn : n < 2 ^ 31) (h : w.toInt = (n : Int)) : w = BitVec.ofNat 32 n := by
  apply BitVec.eq_of_toInt_eq
  rw [h, StableHlo.Predicate.toInt_ofNat_small n hn]

/-- The updates landing on `(n, d)`, summed: over the rows `e` whose scatter index is the word of `n`, the update at
    `(e, d)`. The sum over the rank-2 update indices is the double sum over rows and columns; in each row only column `d`
    can land on `(n, d)`, and it does exactly when the row's scatter index is `n`'s word. -/
theorem scatter_sum (idx : IVec S800000x1 32) (upd : S800000x128.Idx → EReal) (n : Fin 50000) (d : Fin 128) :
    ∑ j ∈ Finset.univ.filter (fun j => SD.resultIdx? j idx = some (ix2 n d)), upd j
      = ∑ e : Fin 800000, if idx (ix2 e (0 : Fin 1)) = BitVec.ofNat 32 n.val then upd (ix2 e d) else 0 := by
  have hn : n.val < 2 ^ 31 := Nat.lt_trans n.isLt (by decide)
  rw [Finset.sum_filter, sum_idx2]
  refine Finset.sum_congr rfl fun e _ => ?_
  by_cases hw : idx (ix2 e (0 : Fin 1)) = BitVec.ofNat 32 n.val
  · rw [if_pos hw, Finset.sum_eq_single d]
    · rw [if_pos]
      exact (resultIdx_iff' idx e d n d).2 ⟨by rw [hw, StableHlo.Predicate.toInt_ofNat_small _ hn], rfl⟩
    · intro b _ hb
      rw [if_neg]
      intro h
      exact hb ((resultIdx_iff' idx e b n d).1 h).2
    · intro h; exact absurd (Finset.mem_univ _) h
  · rw [if_neg hw]
    refine Finset.sum_eq_zero fun b _ => ?_
    rw [if_neg]
    intro h
    exact hw (word_eq_of_toInt hn ((resultIdx_iff' idx e b n d).1 h).1)

/-! ## The index columns read back to the edge list -/

/-- The scatter index of row `e` is the destination word of edge `e`: row 0 of the edge list. -/
theorem dst_read (x1 : S2x800000.Idx → BitVec 32) (e : Fin 800000) :
    val_main_v12 (F := Ideal) x1 (ix2 e (0 : Fin 1)) = x1 (ix2 (0 : Fin 2) e) := by
  rw [val_main_v12_apply, val_main_v10_apply, val_main_v9_apply]
  congr 1
  funext a
  refine Fin.ext ?_
  match a with
  | ⟨0, _⟩ => rfl
  | ⟨1, _⟩ => exact Nat.mod_eq_of_lt e.isLt

/-- The source word of edge `e` before normalisation: row 1 of the edge list. -/
theorem src_raw (x1 : S2x800000.Idx → BitVec 32) (e : Fin 800000) :
    val_main_v1 (F := Ideal) x1 (ix1 e) = x1 (ix2 (1 : Fin 2) e) := by
  rw [val_main_v1_apply, val_main_v0_apply]
  congr 1
  funext a
  refine Fin.ext ?_
  match a with
  | ⟨0, _⟩ => rfl
  | ⟨1, _⟩ => exact Nat.mod_eq_of_lt e.isLt

/-- A source word below 50000 is not negative as a signed word: normalisation leaves it. -/
theorem src_read (x1 : S2x800000.Idx → BitVec 32) (e : Fin 800000)
    (h : (x1 (ix2 (1 : Fin 2) e)).toNat < 50000) :
    val_main_v7 (F := Ideal) x1 (ix2 e (0 : Fin 1)) = x1 (ix2 (1 : Fin 2) e) := by
  rw [val_main_v7_apply, val_main_v6_apply, val_main_v3_apply, val_main_v2_apply, val_main_c_apply]
  have hidx : idx_main_v7 (ix2 e (0 : Fin 1)) = ix1 e := by
    funext a
    match a with
    | ⟨0, _⟩ => rfl
  rw [hidx, src_raw]
  have hc : IntOp.cmpi .slt (x1 (ix2 (1 : Fin 2) e)) 0#32 = 0#1 := by
    apply eq_zero_of_ne_one
    intro h1
    have := (StableHlo.Predicate.slt_iff_toNat (a := x1 (ix2 (1 : Fin 2) e)) (b := 0#32) (by omega) (by decide)).1 h1
    simp at this
  rw [hc, select_zero]

/-- The gathered element of edge `e` at feature `d` is the source's row of `x` at `d`: the source word, below 50000,
    reads the same signed and unsigned, and the clamp into `[0, 49999]` leaves it. -/
theorem gathered (x0 : S50000x128.Idx → EReal) (x1 : S2x800000.Idx → BitVec 32) (e : Fin 800000) (d : Fin 128)
    (h : (x1 (ix2 (1 : Fin 2) e)).toNat < 50000) :
    val_main_v8 (F := Ideal) x0 x1 (ix2 e d) = Cert.Spec.rowOr0 x0 (x1 (ix2 (1 : Fin 2) e)) d := by
  unfold val_main_v8
  rw [gather_row]
  show x0 (ix2 ⟨min (val_main_v7 (F := Ideal) x1 (ix2 e (0 : Fin 1))).toInt.toNat (50000 - 1), _⟩ d) = _
  unfold Cert.Spec.rowOr0
  rw [dif_pos h]
  congr 1
  funext a
  refine Fin.ext ?_
  match a with
  | ⟨0, _⟩ =>
    show min (val_main_v7 (F := Ideal) x1 (ix2 e (0 : Fin 1))).toInt.toNat (50000 - 1) = (x1 (ix2 (1 : Fin 2) e)).toNat
    rw [src_read x1 e h, StableHlo.Predicate.toInt_eq_toNat_of_lt (by omega)]
    omega
  | ⟨1, _⟩ => rfl

/-! ## The reference's result -/

/-- When every source word names a row of `x`, the reference's result at the ideal instance is the aggregation: at
    `(n, d)`, zero plus the sum over the edges whose destination word is `n`'s of the source's row at `d`. -/
theorem ref_eq_G (x0 : Cert.Spec.SX.Idx → EReal) (x1 : Cert.Spec.SE.Idx → BitVec 32)
    (hsrc : ∀ e : Fin 800000, (x1 (Idealize.ShloMosaic.ValueIdx.ix2 (1 : Fin 2) e)).toNat < 50000) :
    Cert.ReferenceIdeal.Read.val_main_v13 (F := Idealize.ShloMosaic.Ideal) x0 x1 = Cert.Spec.G x0 x1 := by
  funext i
  obtain ⟨n, d, rfl⟩ : ∃ (n : Fin 50000) (d : Fin 128), i = ix2 n d := ⟨i 0, i 1, eq_ix2 i⟩
  show val_main_v11 (F := Ideal) (ix2 n d)
      + ∑ j ∈ Finset.univ.filter (fun j => SD.resultIdx? j (val_main_v12 (F := Ideal) x1) = some (ix2 n d)),
          val_main_v8 (F := Ideal) x0 x1 j = _
  rw [scatter_sum, val_main_v11_apply, val_main_cst_apply]
  show Ideal.ofBits .f32 0x00000000#32 + _ = _
  rw [Ideal.ofBits_zero_f32, zero_add]
  show _ = ∑ e : Fin 800000, if x1 (ix2 (0 : Fin 2) e) = BitVec.ofNat 32 n.val then Cert.Spec.rowOr0 x0 (x1 (ix2 (1 : Fin 2) e)) d else 0
  refine Finset.sum_congr rfl fun e _ => ?_
  rw [dst_read, gathered x0 x1 e d (hsrc e)]

end Cert.RefG

end
-- ==== Proof.PreDecode.lean ====
/-
  The printed precondition, read back on its integer side. The predicate is the conjunction of two rank-0 bits: an
  and-reduction of |x| < +inf over the table, and an and-reduction over row 1 of the [2 × 800000] edge list of
  (0 ≤ src signed) ∧ (src < 50000 signed). From "the predicate is all ones" follows: every entry of row 1, read as an
  unsigned word, is below 50000. A word whose sign bit is set fails the first signed test, so the two tests together put
  the signed value in [0, 50000), where signed and unsigned values agree. Nothing here depends on the float instance.
-/
import proofs.«427728_j5978594476045_1_alg».proof.Pre_finite_inputs
import proofs.«427728_j5978594476045_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

namespace Cert.PreDecode

open Idealize.ShloMosaic Idealize.ShloMosaic.ValueIdx Cert.Pre_finite_inputs

/-- The scalar shape has one index. -/
instance subsingleton_S_ : Subsingleton S_.Idx := ⟨fun a b => funext fun d => d.elim0⟩

/-- A 32-bit word that passes both signed tests, 0 ≤ w and w < 50000, is below 50000 read unsigned: were its sign bit
    set, its signed value w.toNat - 2³² would be negative. -/
theorem toNat_lt_of_signed_range (w : BitVec 32) (h0 : IntOp.cmpi .sge w 0#32 = 1#1)
    (h1 : IntOp.cmpi .slt w 50000#32 = 1#1) : w.toNat < 50000 := by
  rw [IntOp.cmpi_sge] at h0
  rw [IntOp.cmpi_slt] at h1
  have z : (0#32 : BitVec 32).toInt = 0 := by decide
  have c : (50000#32 : BitVec 32).toInt = 50000 := by decide
  rw [z] at h0
  rw [c] at h1
  have hw := w.isLt
  rw [BitVec.toInt_eq_toNat_cond] at h0 h1
  split at h0 <;> omega

/-- Row 1 of the edge list, sliced out as a [1 × 800000] row and flattened to [800000], read at e is entry (1, e). -/
theorem row1_apply [Facts] (x1 : IVec S2x800000 32) (e : Fin 800000) :
    shapeCast S800000 (extractStridedSlice S1x800000 ![1, 0] x1 Facts.slices_S2x800000_S1x800000_1_0)
        Facts.shapeCasts_S1x800000_S800000 (ix1 e)
      = x1 (ix2 (1 : Fin 2) e) := by
  refine (shapeCast_apply _ Facts.shapeCasts_S1x800000_S800000 (ix1 e) (ix2 (0 : Fin 1) e) ?_).trans ?_
  · rw [Shape.rowMajor_val_two, Shape.rowMajor_val_one]
    show 0 * 800000 + e.val = e.val
    omega
  · exact extractStridedSlice_apply ![1, 0] x1 Facts.slices_S2x800000_S1x800000_1_0 (ix2 (0 : Fin 1) e) (ix2 (1 : Fin 2) e)
      (fun a => match a with
        | ⟨0, _⟩ => by show (1 : Nat) = 1 + 0; rfl
        | ⟨1, _⟩ => by show e.val = 0 + e.val; omega)

/-- THE PRECONDITION DECODED: every source index of the edge list, read unsigned, is below 50000. -/
theorem src_of_pre {F : FTy → Type} [FloatOps F] [Cert.Pre_finite_inputs.Facts]
    (x0 : FVec F Cert.Pre_finite_inputs.S50000x128 .f32) (x1 : IVec Cert.Pre_finite_inputs.S2x800000 32)
    (h : Cert.Pre_finite_inputs.fn (F := F) x0 x1 = fun _ => 1#1) :
    ∀ e : Fin 800000, (x1 (Idealize.ShloMosaic.ValueIdx.ix2 (1 : Fin 2) e)).toNat < 50000 := by
  intro e
  have h0 := congrFun h ix0
  dsimp only [Cert.Pre_finite_inputs.fn] at h0
  -- the second conjunct: the and-reduction over row 1 is 1, so its element at e is 1
  obtain ⟨-, hall⟩ := IntOp.andi_eq_one.1 h0
  have he := Host.reduce_andi_all _ _ _ _ ix0 hall (ix1 e)
  -- that element is the conjunction of the two signed tests on the word at e
  obtain ⟨hge, hlt⟩ := IntOp.andi_eq_one.1 he
  have hread := row1_apply x1 e
  refine toNat_lt_of_signed_range _ ?_ ?_
  · rw [← hread]; exact hge
  · rw [← hread]; exact hlt

end Cert.PreDecode
-- ==== Proof.lean ====
/- The certificate's claim. The kernel program aggregates neighbour features in two one-hot products — a gather of the
   source rows into one message row per edge, then a sum of the messages onto their destination nodes — each a
   pipelined region that accumulates block products in a scratch buffer over one grid axis; the reference gathers and
   scatter-adds on the host. At the ideal instance both end with the same function of the arguments (Spec.lean's
   `G`): node `n` receives, feature by feature, the rows of `x` named by the sources of the edges whose destination is
   `n`. The kernel computes `G` for every edge list (a source word that names no row meets only zero rows of the
   padded features, a destination word that names no node meets no node slot); the reference computes it when every
   source index names a row of `x`, which the precondition states (otherwise its gather wraps or clamps the index).
   The three frames are the programs' runs with the results dropped; the ideal pass rewrote nothing, so `preserves`
   has no conjunct. -/
import proofs.«427728_j5978594476045_1_alg».proof.Defs
import proofs.«427728_j5978594476045_1_alg».proof.Proof.Gen.Kernel
import proofs.«427728_j5978594476045_1_alg».proof.Proof.Gen.Kernel.Skeleton
import proofs.«427728_j5978594476045_1_alg».proof.Proof.Gen.Kernel.Launch
import proofs.«427728_j5978594476045_1_alg».proof.Proof.Gen.Kernel.Regions
import proofs.«427728_j5978594476045_1_alg».proof.Proof.Gen.Kernel.Points
import proofs.«427728_j5978594476045_1_alg».proof.Proof.Gen.KernelIdeal
import proofs.«427728_j5978594476045_1_alg».proof.Proof.Gen.KernelIdeal.Skeleton
import proofs.«427728_j5978594476045_1_alg».proof.Proof.Gen.KernelIdeal.Launch
import proofs.«427728_j5978594476045_1_alg».proof.Proof.Gen.KernelIdeal.Regions
import proofs.«427728_j5978594476045_1_alg».proof.Proof.Gen.KernelIdeal.Points
import proofs.«427728_j5978594476045_1_alg».proof.Proof.Gen.ReferenceIdeal
import proofs.«427728_j5978594476045_1_alg».proof.Proof.Gen.ReferenceIdeal.Run
import proofs.«427728_j5978594476045_1_alg».proof.Proof.Gen.ReferenceIdeal.Read
import proofs.«427728_j5978594476045_1_alg».proof.Proof.Gen.Pre_finite_inputs
import proofs.«427728_j5978594476045_1_alg».proof.Proof.K.Run
import proofs.«427728_j5978594476045_1_alg».proof.Proof.KI.Run
import proofs.«427728_j5978594476045_1_alg».proof.Proof.KI.Final
import proofs.«427728_j5978594476045_1_alg».proof.Proof.RefG
import proofs.«427728_j5978594476045_1_alg».proof.Proof.PreDecode
import Idealize.ShloMosaic.Adequacy
import Idealize.ShloMosaic.Init

noncomputable section

namespace Cert.Proof

open Idealize.ShloMosaic Idealize.SL.Sem

/-- The word-level kernel program runs and leaves its arguments as launched: its run with the result dropped. -/
theorem frame_k : Cert.frame_Kernel := fun m ρ _ =>
  (θ_run Cert.Kernel.defs _ _).mono (fun _ h c => (h c).2) (Cert.Kernel.Hand.run_main (F := Bits) m ρ)

/-- The idealized kernel program likewise. -/
theorem frame_ki : Cert.frame_KernelIdeal := fun m ρ _ =>
  (θ_run Cert.KernelIdeal.defs _ _).mono (fun _ h c => (h c).2) (Cert.KernelIdeal.Hand.run_main (F := Ideal) m ρ)

/-- The reference is host operations only: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the aggregation `G` of the arguments: the kernel's two regions by their value
    theorems, the reference by reading its gather and scatter-add under the precondition's index range. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.result_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.ReferenceIdeal.Read.val_main_v13_eq _ _).trans
      (Cert.RefG.ref_eq_G _ _ (Cert.PreDecode.src_of_pre (F := Ideal) _ _ (hpre c)))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
